-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x9 : Shape := ⟨2, ![20000, 9]⟩
abbrev S2x100000 : Shape := ⟨2, ![2, 100000]⟩
abbrev S100000x1 : Shape := ⟨2, ![100000, 1]⟩
abbrev S16x4096 : Shape := ⟨2, ![16, 4096]⟩
abbrev S20000 : Shape := ⟨1, ![20000]⟩
abbrev S256x4096 : Shape := ⟨2, ![256, 4096]⟩
abbrev S256 : Shape := ⟨1, ![256]⟩
abbrev S1024x275 : Shape := ⟨2, ![1024, 275]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x521 : Shape := ⟨2, ![512, 521]⟩
abbrev S512x512 : Shape := ⟨2, ![512, 512]⟩
abbrev S512x777 : Shape := ⟨2, ![512, 777]⟩
abbrev S1x512 : Shape := ⟨2, ![1, 512]⟩
abbrev S1 : Shape := ⟨1, ![1]⟩
abbrev S_ : Shape := ⟨0, ![]⟩

class Facts : Prop where
  bcast_S_S20000x9 : S_.BroadcastsInDim S20000x9 (![] : Fin 0 → Fin S20000x9.rank)
  reducesTo_S20000x9_S_d0_1 : S20000x9.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S16x4096 : S_.BroadcastsInDim S16x4096 (![] : Fin 0 → Fin S16x4096.rank)
  reducesTo_S16x4096_S_d0_1 : S16x4096.ReducesTo [0, 1] S_
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S1024x275 : S_.BroadcastsInDim S1024x275 (![] : Fin 0 → Fin S1024x275.rank)
  reducesTo_S1024x275_S_d0_1 : S1024x275.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x521 : S_.BroadcastsInDim S512x521 (![] : Fin 0 → Fin S512x521.rank)
  reducesTo_S512x521_S_d0_1 : S512x521.ReducesTo [0, 1] S_
  bcast_S_S512x512 : S_.BroadcastsInDim S512x512 (![] : Fin 0 → Fin S512x512.rank)
  reducesTo_S512x512_S_d0_1 : S512x512.ReducesTo [0, 1] S_
  bcast_S_S512x777 : S_.BroadcastsInDim S512x777 (![] : Fin 0 → Fin S512x777.rank)
  reducesTo_S512x777_S_d0_1 : S512x777.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S20000 : S_.BroadcastsInDim S20000 (![] : Fin 0 → Fin S20000.rank)
  reducesTo_S20000_S_d0 : S20000.ReducesTo [0] S_

variable [Facts]

def fn_part7 {F : FTy → Type} [FloatOps F] (main_arg4 : IVec S20000 32) (main_v117 : IVec S_ 1) (main_v118 : IVec S20000 32) : IVec S_ 1 :=
  let main_v119 : IVec S20000 1 := cmpi .slt main_arg4 main_v118
  let main_c_47 : IVec S_ 1 := constantI S_ 1 1#1
  let main_v120 : IVec S_ 1 := (fun x v => Host.reduce IntOp.andi x v reducesTo_S20000_S_d0 h_S_) main_v119 main_c_47
  let main_v121 : IVec S_ 1 := andi main_v117 main_v120
  main_v121

def fn_part6 {F : FTy → Type} [FloatOps F] (main_arg4 : IVec S20000 32) (main_arg23 : FVec F S1x512 .f32) (main_arg24 : FVec F S1 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S1x512 .f32 := Host.absf main_arg23
  let main_cst_40 : FVec F S_ .f32 := constant S_ .f32 0x7F800000#32
  let main_v105 : FVec F S1x512 .f32 := broadcastInDim S1x512 ![] bcast_S_S1x512 main_cst_40
  let main_v106 : IVec S1x512 1 := cmpf .olt main_v104 main_v105
  let main_c_41 : IVec S_ 1 := constantI S_ 1 1#1
  let main_v107 : IVec S_ 1 := (fun x v => Host.reduce IntOp.andi x v reducesTo_S1x512_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_c_44 : IVec S_ 32 := constantI S_ 32 0#32
  let main_v114 : IVec S20000 32 := broadcastInDim S20000 ![] bcast_S_S20000 main_c_44
  let main_v115 : IVec S20000 1 := cmpi .sge main_arg4 main_v114
  let main_c_45 : IVec S_ 1 := constantI S_ 1 1#1
  let main_v116 : IVec S_ 1 := (fun x v => Host.reduce IntOp.andi x v reducesTo_S20000_S_d0 h_S_) main_v115 main_c_45
  let main_v117 : IVec S_ 1 := andi main_v113 main_v116
  let main_c_46 : IVec S_ 32 := constantI S_ 32 16#32
  let main_v118 : IVec S20000 32 := broadcastInDim S20000 ![] bcast_S_S20000 main_c_46
  fn_part7 (F := F) main_arg4 main_v117 main_v118

def fn_part5 {F : FTy → Type} [FloatOps F] (main_arg4 : IVec S20000 32) (main_arg20 : FVec F S512 .f32) (main_arg21 : FVec F S512x777 .f32) (main_arg22 : FVec F S512 .f32) (main_arg23 : FVec F S1x512 .f32) (main_arg24 : FVec F S1 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x777 .f32 := Host.absf main_arg21
  let main_cst_36 : FVec F S_ .f32 := constant S_ .f32 0x7F800000#32
  let main_v95 : FVec F S512x777 .f32 := broadcastInDim S512x777 ![] bcast_S_S512x777 main_cst_36
  let main_v96 : IVec S512x777 1 := cmpf .olt main_v94 main_v95
  let main_c_37 : IVec S_ 1 := constantI S_ 1 1#1
  let main_v97 : IVec S_ 1 := (fun x v => Host.reduce IntOp.andi x v reducesTo_S512x777_S_d0_1 h_S_) main_v96 main_c_37
  let main_v98 : IVec S_ 1 := andi main_v93 main_v97
  let main_v99 : FVec F S512 .f32 := Host.absf main_arg22
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg4 main_arg23 main_arg24 main_v98 main_v101 main_c_39

def fn_part4 {F : FTy → Type} [FloatOps F] (main_arg4 : IVec S20000 32) (main_arg16 : FVec F S512 .f32) (main_arg17 : FVec F S512x521 .f32) (main_arg18 : FVec F S512 .f32) (main_arg19 : FVec F S512x512 .f32) (main_arg20 : FVec F S512 .f32) (main_arg21 : FVec F S512x777 .f32) (main_arg22 : FVec F S512 .f32) (main_arg23 : FVec F S1x512 .f32) (main_arg24 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x521 .f32 := Host.absf main_arg17
  let main_cst_28 : FVec F S_ .f32 := constant S_ .f32 0x7F800000#32
  let main_v75 : FVec F S512x521 .f32 := broadcastInDim S512x521 ![] bcast_S_S512x521 main_cst_28
  let main_v76 : IVec S512x521 1 := cmpf .olt main_v74 main_v75
  let main_c_29 : IVec S_ 1 := constantI S_ 1 1#1
  let main_v77 : IVec S_ 1 := (fun x v => Host.reduce IntOp.andi x v reducesTo_S512x521_S_d0_1 h_S_) main_v76 main_c_29
  let main_v78 : IVec S_ 1 := andi main_v73 main_v77
  let main_v79 : FVec F S512 .f32 := Host.absf main_arg18
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg19
  let main_cst_32 : FVec F S_ .f32 := constant S_ .f32 0x7F800000#32
  fn_part5 (F := F) main_arg4 main_arg20 main_arg21 main_arg22 main_arg23 main_arg24 main_v83 main_v84 main_cst_32

def fn_part3 {F : FTy → Type} [FloatOps F] (main_arg4 : IVec S20000 32) (main_arg13 : FVec F S1024x1024 .f32) (main_arg14 : FVec F S1024 .f32) (main_arg15 : FVec F S512x1024 .f32) (main_arg16 : FVec F S512 .f32) (main_arg17 : FVec F S512x521 .f32) (main_arg18 : FVec F S512 .f32) (main_arg19 : FVec F S512x512 .f32) (main_arg20 : FVec F S512 .f32) (main_arg21 : FVec F S512x777 .f32) (main_arg22 : FVec F S512 .f32) (main_arg23 : FVec F S1x512 .f32) (main_arg24 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg13
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg14
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S512x1024 .f32 := Host.absf main_arg15
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg4 main_arg16 main_arg17 main_arg18 main_arg19 main_arg20 main_arg21 main_arg22 main_arg23 main_arg24 main_v63 main_v67

def fn_part2 {F : FTy → Type} [FloatOps F] (main_arg4 : IVec S20000 32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S512x1024 .f32) (main_arg16 : FVec F S512 .f32) (main_arg17 : FVec F S512x521 .f32) (main_arg18 : FVec F S512 .f32) (main_arg19 : FVec F S512x512 .f32) (main_arg20 : FVec F S512 .f32) (main_arg21 : FVec F S512x777 .f32) (main_arg22 : FVec F S512 .f32) (main_arg23 : FVec F S1x512 .f32) (main_arg24 : FVec F S1 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg11
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg4 main_arg13 main_arg14 main_arg15 main_arg16 main_arg17 main_arg18 main_arg19 main_arg20 main_arg21 main_arg22 main_arg23 main_arg24 main_v48 main_v49 main_v50

def fn_part1 {F : FTy → Type} [FloatOps F] (main_arg4 : IVec S20000 32) (main_arg6 : FVec F S256 .f32) (main_arg7 : FVec F S1024x275 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S512x1024 .f32) (main_arg16 : FVec F S512 .f32) (main_arg17 : FVec F S512x521 .f32) (main_arg18 : FVec F S512 .f32) (main_arg19 : FVec F S512x512 .f32) (main_arg20 : FVec F S512 .f32) (main_arg21 : FVec F S512x777 .f32) (main_arg22 : FVec F S512 .f32) (main_arg23 : FVec F S1x512 .f32) (main_arg24 : FVec F S1 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024x275 .f32 := Host.absf main_arg7
  let main_cst_8 : FVec F S_ .f32 := constant S_ .f32 0x7F800000#32
  let main_v25 : FVec F S1024x275 .f32 := broadcastInDim S1024x275 ![] bcast_S_S1024x275 main_cst_8
  let main_v26 : IVec S1024x275 1 := cmpf .olt main_v24 main_v25
  let main_c_9 : IVec S_ 1 := constantI S_ 1 1#1
  let main_v27 : IVec S_ 1 := (fun x v => Host.reduce IntOp.andi x v reducesTo_S1024x275_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg4 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S20000x9 .f32) (main_arg1 : IVec S2x100000 32) (main_arg2 : FVec F S100000x1 .f32) (main_arg3 : FVec F S16x4096 .f32) (main_arg4 : IVec S20000 32) (main_arg5 : FVec F S256x4096 .f32) (main_arg6 : FVec F S256 .f32) (main_arg7 : FVec F S1024x275 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S512x1024 .f32) (main_arg16 : FVec F S512 .f32) (main_arg17 : FVec F S512x521 .f32) (main_arg18 : FVec F S512 .f32) (main_arg19 : FVec F S512x512 .f32) (main_arg20 : FVec F S512 .f32) (main_arg21 : FVec F S512x777 .f32) (main_arg22 : FVec F S512 .f32) (main_arg23 : FVec F S1x512 .f32) (main_arg24 : FVec F S1 .f32) : IVec S_ 1 :=
  let main_v0 : FVec F S20000x9 .f32 := Host.absf main_arg0
  let main_cst : FVec F S_ .f32 := constant S_ .f32 0x7F800000#32
  let main_v1 : FVec F S20000x9 .f32 := broadcastInDim S20000x9 ![] bcast_S_S20000x9 main_cst
  let main_v2 : IVec S20000x9 1 := cmpf .olt main_v0 main_v1
  let main_c : IVec S_ 1 := constantI S_ 1 1#1
  let main_v3 : IVec S_ 1 := (fun x v => Host.reduce IntOp.andi x v reducesTo_S20000x9_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S256x4096 .f32 := Host.absf main_arg5
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S20000x9 : Shape := ⟨2, ![20000, 9]⟩
abbrev S2x100000 : Shape := ⟨2, ![2, 100000]⟩
abbrev S100000x1 : Shape := ⟨2, ![100000, 1]⟩
abbrev S16x4096 : Shape := ⟨2, ![16, 4096]⟩
abbrev S20000 : Shape := ⟨1, ![20000]⟩
abbrev S256x4096 : Shape := ⟨2, ![256, 4096]⟩
abbrev S256 : Shape := ⟨1, ![256]⟩
abbrev S1024x275 : Shape := ⟨2, ![1024, 275]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x521 : Shape := ⟨2, ![512, 521]⟩
abbrev S512x512 : Shape := ⟨2, ![512, 512]⟩
abbrev S512x777 : Shape := ⟨2, ![512, 777]⟩
abbrev S1x512 : Shape := ⟨2, ![1, 512]⟩
abbrev S1 : Shape := ⟨1, ![1]⟩
abbrev S1x100000 : Shape := ⟨2, ![1, 100000]⟩
abbrev S100000 : Shape := ⟨1, ![100000]⟩
abbrev S4096x256 : Shape := ⟨2, ![4096, 256]⟩
abbrev S16x256 : Shape := ⟨2, ![16, 256]⟩
abbrev S1x256 : Shape := ⟨2, ![1, 256]⟩
abbrev S_ : Shape := ⟨0, ![]⟩
abbrev S100000x9 : Shape := ⟨2, ![100000, 9]⟩
abbrev S275x1024 : Shape := ⟨2, ![275, 1024]⟩
abbrev S1x1024 : Shape := ⟨2, ![1, 1024]⟩
abbrev S1024x512 : Shape := ⟨2, ![1024, 512]⟩
abbrev S521x512 : Shape := ⟨2, ![521, 512]⟩
abbrev S777x512 : Shape := ⟨2, ![777, 512]⟩
abbrev S512x1 : Shape := ⟨2, ![512, 1]⟩
abbrev S1x1 : Shape := ⟨2, ![1, 1]⟩
abbrev S100000x512 : Shape := ⟨2, ![100000, 512]⟩
abbrev S2000x9 : Shape := ⟨2, ![2000, 9]⟩
abbrev S2000x1 : Shape := ⟨2, ![2000, 1]⟩
abbrev S2000x512 : Shape := ⟨2, ![2000, 512]⟩
abbrev S2000x16 : Shape := ⟨2, ![2000, 16]⟩
abbrev S2000x256 : Shape := ⟨2, ![2000, 256]⟩
abbrev S2000x275 : Shape := ⟨2, ![2000, 275]⟩
abbrev S2000x1024 : Shape := ⟨2, ![2000, 1024]⟩
abbrev S2000x521 : Shape := ⟨2, ![2000, 521]⟩
abbrev S20000x512 : Shape := ⟨2, ![20000, 512]⟩
abbrev S20000x1 : Shape := ⟨2, ![20000, 1]⟩
abbrev S2000x777 : Shape := ⟨2, ![2000, 777]⟩

abbrev nBuf : Space → Nat
  | .hbm => 113
  | .vmem => 38
  | .smem => 0
  | _ => 0

abbrev bufTy : (tb : Table) → Fin (tcTables nBuf tb) → BufTy
  | .hbm, ⟨0, _⟩ => ⟨S20000x9, .f32⟩
  | .hbm, ⟨1, _⟩ => ⟨S2x100000, .i32⟩
  | .hbm, ⟨2, _⟩ => ⟨S100000x1, .f32⟩
  | .hbm, ⟨3, _⟩ => ⟨S16x4096, .f32⟩
  | .hbm, ⟨4, _⟩ => ⟨S20000, .i32⟩
  | .hbm, ⟨5, _⟩ => ⟨S256x4096, .f32⟩
  | .hbm, ⟨6, _⟩ => ⟨S256, .f32⟩
  | .hbm, ⟨7, _⟩ => ⟨S1024x275, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S512x1024, .f32⟩
  | .hbm, ⟨16, _⟩ => ⟨S512, .f32⟩
  | .hbm, ⟨17, _⟩ => ⟨S512x521, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512x777, .f32⟩
  | .hbm, ⟨22, _⟩ => ⟨S512, .f32⟩
  | .hbm, ⟨23, _⟩ => ⟨S1x512, .f32⟩
  | .hbm, ⟨24, _⟩ => ⟨S1, .f32⟩
  | .hbm, ⟨25, _⟩ => ⟨S1x100000, .i32⟩
  | .hbm, ⟨26, _⟩ => ⟨S100000, .i32⟩
  | .hbm, ⟨27, _⟩ => ⟨S1x100000, .i32⟩
  | .hbm, ⟨28, _⟩ => ⟨S100000, .i32⟩
  | .hbm, ⟨29, _⟩ => ⟨S4096x256, .f32⟩
  | .hbm, ⟨30, _⟩ => ⟨S16x256, .f32⟩
  | .hbm, ⟨31, _⟩ => ⟨S1x256, .f32⟩
  | .hbm, ⟨32, _⟩ => ⟨S16x256, .f32⟩
  | .hbm, ⟨33, _⟩ => ⟨S16x256, .f32⟩
  | .hbm, ⟨34, _⟩ => ⟨S16x256, .bf16⟩
  | .hbm, ⟨35, _⟩ => ⟨S20000x9, .bf16⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S100000x9, .bf16⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000x9, .bf16⟩
  | .hbm, ⟨54, _⟩ => ⟨S100000x1, .bf16⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S100000, .i32⟩
  | .hbm, ⟨64, _⟩ => ⟨S100000x1, .i32⟩
  | .hbm, ⟨65, _⟩ => ⟨S275x1024, .f32⟩
  | .hbm, ⟨66, _⟩ => ⟨S275x1024, .bf16⟩
  | .hbm, ⟨67, _⟩ => ⟨S1x1024, .f32⟩
  | .hbm, ⟨68, _⟩ => ⟨S1024x1024, .f32⟩
  | .hbm, ⟨69, _⟩ => ⟨S1024x1024, .bf16⟩
  | .hbm, ⟨70, _⟩ => ⟨S1x1024, .f32⟩
  | .hbm, ⟨71, _⟩ => ⟨S1024x1024, .f32⟩
  | .hbm, ⟨72, _⟩ => ⟨S1024x1024, .bf16⟩
  | .hbm, ⟨73, _⟩ => ⟨S1x1024, .f32⟩
  | .hbm, ⟨74, _⟩ => ⟨S1024x1024, .f32⟩
  | .hbm, ⟨75, _⟩ => ⟨S1024x1024, .bf16⟩
  | .hbm, ⟨76, _⟩ => ⟨S1x1024, .f32⟩
  | .hbm, ⟨77, _⟩ => ⟨S1024x512, .f32⟩
  | .hbm, ⟨78, _⟩ => ⟨S1024x512, .bf16⟩
  | .hbm, ⟨79, _⟩ => ⟨S1x512, .f32⟩
  | .hbm, ⟨80, _⟩ => ⟨S521x512, .f32⟩
  | .hbm, ⟨81, _⟩ => ⟨S521x512, .bf16⟩
  | .hbm, ⟨82, _⟩ => ⟨S1x512, .f32⟩
  | .hbm, ⟨83, _⟩ => ⟨S512x512, .f32⟩
  | .hbm, ⟨84, _⟩ => ⟨S512x512, .bf16⟩
  | .hbm, ⟨85, _⟩ => ⟨S1x512, .f32⟩
  | .hbm, ⟨86, _⟩ => ⟨S777x512, .f32⟩
  | .hbm, ⟨87, _⟩ => ⟨S777x512, .bf16⟩
  | .hbm, ⟨88, _⟩ => ⟨S1x512, .f32⟩
  | .hbm, ⟨89, _⟩ => ⟨S512x1, .f32⟩
  | .hbm, ⟨90, _⟩ => ⟨S512x1, .bf16⟩
  | .hbm, ⟨91, _⟩ => ⟨S1x1, .f32⟩
  | .hbm, ⟨92, _⟩ => ⟨S100000x512, .f32⟩
  | .hbm, ⟨93, _⟩ => ⟨S_, .f32⟩
  | .hbm, ⟨94, _⟩ => ⟨S20000x512, .f32⟩
  | .hbm, ⟨95, _⟩ => ⟨S100000x1, .i32⟩
  | .hbm, ⟨96, _⟩ => ⟨S20000x512, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S20000, .f32⟩
  | .hbm, ⟨101, _⟩ => ⟨S100000x1, .i32⟩
  | .hbm, ⟨102, _⟩ => ⟨S20000, .f32⟩
  | .hbm, ⟨103, _⟩ => ⟨S_, .f32⟩
  | .hbm, ⟨104, _⟩ => ⟨S20000, .f32⟩
  | .hbm, ⟨105, _⟩ => ⟨S20000, .f32⟩
  | .hbm, ⟨106, _⟩ => ⟨S20000x1, .f32⟩
  | .hbm, ⟨107, _⟩ => ⟨S20000x512, .f32⟩
  | .hbm, ⟨108, _⟩ => ⟨S20000x512, .f32⟩
  | .hbm, ⟨109, _⟩ => ⟨S20000x512, .bf16⟩
  | .hbm, ⟨110, _⟩ => ⟨S20000x1, .i32⟩
  | .hbm, ⟨111, _⟩ => ⟨S20000x1, .f32⟩
  | .hbm, ⟨112, _⟩ => ⟨S20000, .f32⟩
  | .local _ .vmem, ⟨0, _⟩ => ⟨S2000x9, .bf16⟩
  | .local _ .vmem, ⟨1, _⟩ => ⟨S2000x9, .bf16⟩
  | .local _ .vmem, ⟨2, _⟩ => ⟨S2000x9, .bf16⟩
  | .local _ .vmem, ⟨3, _⟩ => ⟨S2000x9, .bf16⟩
  | .local _ .vmem, ⟨4, _⟩ => ⟨S2000x1, .bf16⟩
  | .local _ .vmem, ⟨5, _⟩ => ⟨S2000x1, .bf16⟩
  | .local _ .vmem, ⟨6, _⟩ => ⟨S2000x1, .i32⟩
  | .local _ .vmem, ⟨7, _⟩ => ⟨S2000x1, .i32⟩
  | .local _ .vmem, ⟨8, _⟩ => ⟨S16x256, .bf16⟩
  | .local _ .vmem, ⟨9, _⟩ => ⟨S275x1024, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x512, .bf16⟩
  | .local _ .vmem, ⟨18, _⟩ => ⟨S1x512, .f32⟩
  | .local _ .vmem, ⟨19, _⟩ => ⟨S521x512, .bf16⟩
  | .local _ .vmem, ⟨20, _⟩ => ⟨S1x512, .f32⟩
  | .local _ .vmem, ⟨21, _⟩ => ⟨S512x512, .bf16⟩
  | .local _ .vmem, ⟨22, _⟩ => ⟨S1x512, .f32⟩
  | .local _ .vmem, ⟨23, _⟩ => ⟨S2000x512, .f32⟩
  | .local _ .vmem, ⟨24, _⟩ => ⟨S2000x512, .f32⟩
  | .local _ .vmem, ⟨25, _⟩ => ⟨S2000x9, .bf16⟩
  | .local _ .vmem, ⟨26, _⟩ => ⟨S2000x9, .bf16⟩
  | .local _ .vmem, ⟨27, _⟩ => ⟨S2000x512, .bf16⟩
  | .local _ .vmem, ⟨28, _⟩ => ⟨S2000x512, .bf16⟩
  | .local _ .vmem, ⟨29, _⟩ => ⟨S2000x1, .i32⟩
  | .local _ .vmem, ⟨30, _⟩ => ⟨S2000x1, .i32⟩
  | .local _ .vmem, ⟨31, _⟩ => ⟨S16x256, .bf16⟩
  | .local _ .vmem, ⟨32, _⟩ => ⟨S777x512, .bf16⟩
  | .local _ .vmem, ⟨33, _⟩ => ⟨S1x512, .f32⟩
  | .local _ .vmem, ⟨34, _⟩ => ⟨S512x1, .bf16⟩
  | .local _ .vmem, ⟨35, _⟩ => ⟨S1x1, .f32⟩
  | .local _ .vmem, ⟨36, _⟩ => ⟨S2000x1, .f32⟩
  | .local _ .vmem, ⟨37, _⟩ => ⟨S2000x1, .f32⟩
  | _, _ => ⟨S20000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_1 : Ref sig .tc := ⟨.hbm, 45, rfl⟩
abbrev main_v18 : Ref sig .tc := ⟨.hbm, 46, rfl⟩
abbrev main_v19 : Ref sig .tc := ⟨.hbm, 47, rfl⟩
abbrev main_c_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_cst_6 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_7 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg8_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem8_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x9 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S275x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S521x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2000x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x9 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S777x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  transposes_S256x4096_S4096x256_1_0 : S256x4096.Transposes [1, 0] S4096x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bitsLt_bf16_f32 : FTy.bits .bf16 < FTy.bits .f32
  bcast_S_S100000 : S_.BroadcastsInDim S100000 (![] : Fin 0 → Fin S100000.rank)
  bcast_S100000_S100000x1_0 : S100000.BroadcastsInDim S100000x1 (![0] : Fin 1 → Fin S100000x1.rank)
  shapeCasts_S100000_S100000x1 : S100000.ShapeCasts S100000x1
  transposes_S1024x275_S275x1024_1_0 : S1024x275.Transposes [1, 0] S275x1024
  shapeCasts_S1024_S1x1024 : S1024.ShapeCasts S1x1024
  transposes_S1024x1024_S1024x1024_1_0 : S1024x1024.Transposes [1, 0] S1024x1024
  transposes_S512x1024_S1024x512_1_0 : S512x1024.Transposes [1, 0] S1024x512
  shapeCasts_S512_S1x512 : S512.ShapeCasts S1x512
  transposes_S512x521_S521x512_1_0 : S512x521.Transposes [1, 0] S521x512
  transposes_S512x512_S512x512_1_0 : S512x512.Transposes [1, 0] S512x512
  transposes_S512x777_S777x512_1_0 : S512x777.Transposes [1, 0] S777x512
  transposes_S1x512_S512x1_1_0 : S1x512.Transposes [1, 0] S512x1
  shapeCasts_S1_S1x1 : S1.ShapeCasts S1x1
  iota_S2000x16_d1_w32 : S2000x16.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  natLt_1_32 : 1 < 32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  concatenates_S2000x9_S2000x9_S2000x1_S2000x256_S2000x275_d1 : Shape.Concatenates [S2000x9, S2000x9, S2000x1, S2000x256] S2000x275 1
  inb_S275x1024_S275x1024_0_0 : ∀ a, (![0, 0] : Fin 2 → Nat) a + S275x1024.size a ≤ S275x1024.size a
  h_S275x1024 : 0 < S275x1024.numel
  shapeCasts_S275x1024_S275x1024 : S275x1024.ShapeCasts S275x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  concatenates_S2000x9_S2000x512_S2000x521_d1 : Shape.Concatenates [S2000x9, S2000x512] S2000x521 1
  inb_S521x512_S521x512_0_0 : ∀ a, (![0, 0] : Fin 2 → Nat) a + S521x512.size a ≤ S521x512.size a
  h_S521x512 : 0 < S521x512.numel
  shapeCasts_S521x512_S521x512 : S521x512.ShapeCasts S521x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x512_S2000x512_0_0 : ∀ a, (![0, 0] : Fin 2 → Nat) a + S2000x512.size a ≤ S2000x512.size a
  h_S2000x512 : 0 < S2000x512.numel
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  shapeCasts_S20000_S20000x1 : S20000.ShapeCasts S20000x1
  shapeCasts_S2000x512_S2000x512 : S2000x512.ShapeCasts S2000x512
  concatenates_S2000x9_S2000x512_S2000x256_S2000x777_d1 : Shape.Concatenates [S2000x9, S2000x512, S2000x256] S2000x777 1
  inb_S777x512_S777x512_0_0 : ∀ a, (![0, 0] : Fin 2 → Nat) a + S777x512.size a ≤ S777x512.size a
  h_S777x512 : 0 < S777x512.numel
  shapeCasts_S777x512_S777x512 : S777x512.ShapeCasts S777x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S20000x1_S20000 : S20000x1.ShapeCasts S20000
  dot_S16x4096_S4096x256_S16x256_1_0_0_1_n_n_wf : DotDims.WF S16x4096 S4096x256 S16x256 [1] [0] [0] [1] [] []
  gather_S20000x9_S100000x1_S100000x9_1_0_n_n_0_1_19_wf : GatherDims.WF S20000x9 S100000x1 S100000x9 [1] [0] [] [0] [] 1 ![1, 9]
  gather_S20000_S100000x1_S100000_n_0_n_n_0_1_1_wf : GatherDims.WF S20000 S100000x1 S100000 [] [0] [] [0] [] 1 ![1]
  dot_S2000x16_S16x256_S2000x256_1_0_0_1_n_n_wf : DotDims.WF S2000x16 S16x256 S2000x256 [1] [0] [0] [1] [] []
  dot_S2000x275_S275x1024_S2000x1024_1_0_0_1_n_n_wf : DotDims.WF S2000x275 S275x1024 S2000x1024 [1] [0] [0] [1] [] []
  dot_S2000x1024_S1024x1024_S2000x1024_1_0_0_1_n_n_wf : DotDims.WF S2000x1024 S1024x1024 S2000x1024 [1] [0] [0] [1] [] []
  dot_S2000x1024_S1024x512_S2000x512_1_0_0_1_n_n_wf : DotDims.WF S2000x1024 S1024x512 S2000x512 [1] [0] [0] [1] [] []
  dot_S2000x521_S521x512_S2000x512_1_0_0_1_n_n_wf : DotDims.WF S2000x521 S521x512 S2000x512 [1] [0] [0] [1] [] []
  dot_S2000x512_S512x512_S2000x512_1_0_0_1_n_n_wf : DotDims.WF S2000x512 S512x512 S2000x512 [1] [0] [0] [1] [] []
  scatter_S20000x512_S100000x1_S100000x512_1_0_0_1_wf : ScatterDims.WF S20000x512 S100000x1 S100000x512 [1] [0] [0] 1
  scatter_S20000_S100000x1_S100000_n_0_0_1_wf : ScatterDims.WF S20000 S100000x1 S100000 [] [0] [0] 1
  dot_S2000x777_S777x512_S2000x512_1_0_0_1_n_n_wf : DotDims.WF S2000x777 S777x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S100000x9.size a
  hwx0_0 : ∀ i : grid0.Coords, EltTy.bits .bf16 = 32 ∨ (Rect.block (s := S100000x9) S2000x9.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x9.size a ≤ S100000x9.size a
  hwx0_1 : ∀ i : grid0.Coords, EltTy.bits .bf16 = 32 ∨ (Rect.block (s := S100000x9) S2000x9.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .bf16 = 32 ∨ (Rect.block (s := S100000x1) S2000x1.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .i32 = 32 ∨ (Rect.block (s := S100000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .bf16 = 32 ∨ (Rect.block (s := S16x256) S16x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S275x1024.size a ≤ S275x1024.size a
  hwx0_5 : ∀ i : grid0.Coords, EltTy.bits .bf16 = 32 ∨ (Rect.block (s := S275x1024) S275x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S1024x512.size a
  hwx0_13 : ∀ i : grid0.Coords, EltTy.bits .bf16 = 32 ∨ (Rect.block (s := S1024x512) S1024x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S521x512.size a ≤ S521x512.size a
  hwx0_15 : ∀ i : grid0.Coords, EltTy.bits .bf16 = 32 ∨ (Rect.block (s := S521x512) S521x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x512.size a ≤ S1x512.size a
  hwx0_18 : ∀ i : grid0.Coords, EltTy.bits .f32 = 32 ∨ (Rect.block (s := S1x512) S1x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x512.size a ≤ S100000x512.size a
  hwx0_19 : ∀ i : grid0.Coords, EltTy.bits .f32 = 32 ∨ (Rect.block (s := S100000x512) S2000x512.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x9.size a ≤ S20000x9.size a
  hwx1_0 : ∀ i : grid1.Coords, EltTy.bits .bf16 = 32 ∨ (Rect.block (s := S20000x9) S2000x9.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S20000x512.size a
  hwx1_1 : ∀ i : grid1.Coords, EltTy.bits .bf16 = 32 ∨ (Rect.block (s := S20000x512) S2000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .i32 = 32 ∨ (Rect.block (s := S20000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .bf16 = 32 ∨ (Rect.block (s := S16x256) S16x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S777x512.size a ≤ S777x512.size a
  hwx1_4 : ∀ i : grid1.Coords, EltTy.bits .bf16 = 32 ∨ (Rect.block (s := S777x512) S777x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S512x1.size a
  hwx1_6 : ∀ i : grid1.Coords, EltTy.bits .bf16 = 32 ∨ (Rect.block (s := S512x1) S512x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S20000x1.size a
  hwx1_8 : ∀ i : grid1.Coords, EltTy.bits .f32 = 32 ∨ (Rect.block (s := S20000x1) S2000x1.size (cc1_transform_8 i) (hinb1_8 i)).WholeWords (EltTy.packing .f32)

variable [Facts₀]

def dot_S16x4096_S4096x256_S16x256_1_0_0_1_n_n : DotDims S16x4096 S4096x256 S16x256 where
  lhsContracting := [1]
  rhsContracting := [0]
  lhsNonContracting := [0]
  rhsNonContracting := [1]
  lhsBatch := []
  rhsBatch := []
  wf := dot_S16x4096_S4096x256_S16x256_1_0_0_1_n_n_wf
def gather_S20000x9_S100000x1_S100000x9_1_0_n_n_0_1_19 : GatherDims S20000x9 S100000x1 S100000x9 where
  offsetDims := [1]
  collapsedSliceDims := [0]
  operandBatchingDims := []
  startIndicesBatchingDims := []
  startIndexMap := [0]
  indexVectorDim := 1
  sliceSizes := ![1, 9]
  wf := gather_S20000x9_S100000x1_S100000x9_1_0_n_n_0_1_19_wf
def gather_S20000_S100000x1_S100000_n_0_n_n_0_1_1 : GatherDims S20000 S100000x1 S100000 where
  offsetDims := []
  collapsedSliceDims := [0]
  operandBatchingDims := []
  startIndicesBatchingDims := []
  startIndexMap := [0]
  indexVectorDim := 1
  sliceSizes := ![1]
  wf := gather_S20000_S100000x1_S100000_n_0_n_n_0_1_1_wf
def dot_S2000x16_S16x256_S2000x256_1_0_0_1_n_n : DotDims S2000x16 S16x256 S2000x256 where
  lhsContracting := [1]
  rhsContracting := [0]
  lhsNonContracting := [0]
  rhsNonContracting := [1]
  lhsBatch := []
  rhsBatch := []
  wf := dot_S2000x16_S16x256_S2000x256_1_0_0_1_n_n_wf
def dot_S2000x275_S275x1024_S2000x1024_1_0_0_1_n_n : DotDims S2000x275 S275x1024 S2000x1024 where
  lhsContracting := [1]
  rhsContracting := [0]
  lhsNonContracting := [0]
  rhsNonContracting := [1]
  lhsBatch := []
  rhsBatch := []
  wf := dot_S2000x275_S275x1024_S2000x1024_1_0_0_1_n_n_wf
def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf
def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def dot_S2000x521_S521x512_S2000x512_1_0_0_1_n_n : DotDims S2000x521 S521x512 S2000x512 where
  lhsContracting := [1]
  rhsContracting := [0]
  lhsNonContracting := [0]
  rhsNonContracting := [1]
  lhsBatch := []
  rhsBatch := []
  wf := dot_S2000x521_S521x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def dot_S2000x777_S777x512_S2000x512_1_0_0_1_n_n : DotDims S2000x777 S777x512 S2000x512 where
  lhsContracting := [1]
  rhsContracting := [0]
  lhsNonContracting := [0]
  rhsNonContracting := [1]
  lhsBatch := []
  rhsBatch := []
  wf := dot_S2000x777_S777x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_v17) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S275x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v45) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S1024x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v48) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v50) S521x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v51) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v53) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v54) S1x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v61) S2000x512.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_v10) S2000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S777x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S512x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v76) S2000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S20000x9 : Shape := ⟨2, ![20000, 9]⟩
abbrev S2x100000 : Shape := ⟨2, ![2, 100000]⟩
abbrev S100000x1 : Shape := ⟨2, ![100000, 1]⟩
abbrev S16x4096 : Shape := ⟨2, ![16, 4096]⟩
abbrev S20000 : Shape := ⟨1, ![20000]⟩
abbrev S256x4096 : Shape := ⟨2, ![256, 4096]⟩
abbrev S256 : Shape := ⟨1, ![256]⟩
abbrev S1024x275 : Shape := ⟨2, ![1024, 275]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x521 : Shape := ⟨2, ![512, 521]⟩
abbrev S512x512 : Shape := ⟨2, ![512, 512]⟩
abbrev S512x777 : Shape := ⟨2, ![512, 777]⟩
abbrev S1x512 : Shape := ⟨2, ![1, 512]⟩
abbrev S1 : Shape := ⟨1, ![1]⟩
abbrev S1x100000 : Shape := ⟨2, ![1, 100000]⟩
abbrev S100000 : Shape := ⟨1, ![100000]⟩
abbrev S4096x256 : Shape := ⟨2, ![4096, 256]⟩
abbrev S16x256 : Shape := ⟨2, ![16, 256]⟩
abbrev S1x256 : Shape := ⟨2, ![1, 256]⟩
abbrev S_ : Shape := ⟨0, ![]⟩
abbrev S100000x9 : Shape := ⟨2, ![100000, 9]⟩
abbrev S100000x256 : Shape := ⟨2, ![100000, 256]⟩
abbrev S100000x275 : Shape := ⟨2, ![100000, 275]⟩
abbrev S275x1024 : Shape := ⟨2, ![275, 1024]⟩
abbrev S100000x1024 : Shape := ⟨2, ![100000, 1024]⟩
abbrev S1x1024 : Shape := ⟨2, ![1, 1024]⟩
abbrev S1024x512 : Shape := ⟨2, ![1024, 512]⟩
abbrev S100000x512 : Shape := ⟨2, ![100000, 512]⟩
abbrev S100000x521 : Shape := ⟨2, ![100000, 521]⟩
abbrev S521x512 : Shape := ⟨2, ![521, 512]⟩
abbrev S20000x512 : Shape := ⟨2, ![20000, 512]⟩
abbrev S20000x1 : Shape := ⟨2, ![20000, 1]⟩
abbrev S20000x256 : Shape := ⟨2, ![20000, 256]⟩
abbrev S20000x777 : Shape := ⟨2, ![20000, 777]⟩
abbrev S777x512 : Shape := ⟨2, ![777, 512]⟩
abbrev S512x1 : Shape := ⟨2, ![512, 1]⟩
abbrev S1x1 : Shape := ⟨2, ![1, 1]⟩

abbrev nBuf : Space → Nat
  | .hbm => 174
  | .vmem => 0
  | .smem => 0
  | _ => 0

abbrev hbmTy0_0 (i : Nat) : BufTy := match i % 128 with
  | 0 => ⟨S20000x9, .f32⟩
  | 1 => ⟨S2x100000, .i32⟩
  | 2 => ⟨S100000x1, .f32⟩
  | 3 => ⟨S16x4096, .f32⟩
  | 4 => ⟨S20000, .i32⟩
  | 5 => ⟨S256x4096, .f32⟩
  | 6 => ⟨S256, .f32⟩
  | 7 => ⟨S1024x275, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S512x1024, .f32⟩
  | 16 => ⟨S512, .f32⟩
  | 17 => ⟨S512x521, .f32⟩
  | 18 => ⟨S512, .f32⟩
  | 19 => ⟨S512x512, .f32⟩
  | 20 => ⟨S512, .f32⟩
  | 21 => ⟨S512x777, .f32⟩
  | 22 => ⟨S512, .f32⟩
  | 23 => ⟨S1x512, .f32⟩
  | 24 => ⟨S1, .f32⟩
  | 25 => ⟨S1x100000, .i32⟩
  | 26 => ⟨S100000, .i32⟩
  | 27 => ⟨S1x100000, .i32⟩
  | 28 => ⟨S100000, .i32⟩
  | 29 => ⟨S4096x256, .f32⟩
  | 30 => ⟨S16x256, .f32⟩
  | 31 => ⟨S1x256, .f32⟩
  | 32 => ⟨S16x256, .f32⟩
  | 33 => ⟨S16x256, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000, .i32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x9, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x9, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x256, .f32⟩
  | 70 => ⟨S100000x275, .f32⟩
  | 71 => ⟨S275x1024, .f32⟩
  | 72 => ⟨S100000x1024, .f32⟩
  | 73 => ⟨S1x1024, .f32⟩
  | 74 => ⟨S100000x1024, .f32⟩
  | 75 => ⟨S100000x1024, .f32⟩
  | 76 => ⟨S_, .f32⟩
  | 77 => ⟨S100000x1024, .f32⟩
  | 78 => ⟨S100000x1024, .f32⟩
  | 79 => ⟨S1024x1024, .f32⟩
  | 80 => ⟨S100000x1024, .f32⟩
  | 81 => ⟨S1x1024, .f32⟩
  | 82 => ⟨S100000x1024, .f32⟩
  | 83 => ⟨S100000x1024, .f32⟩
  | 84 => ⟨S_, .f32⟩
  | 85 => ⟨S100000x1024, .f32⟩
  | 86 => ⟨S100000x1024, .f32⟩
  | 87 => ⟨S1024x1024, .f32⟩
  | 88 => ⟨S100000x1024, .f32⟩
  | 89 => ⟨S1x1024, .f32⟩
  | 90 => ⟨S100000x1024, .f32⟩
  | 91 => ⟨S100000x1024, .f32⟩
  | 92 => ⟨S_, .f32⟩
  | 93 => ⟨S100000x1024, .f32⟩
  | 94 => ⟨S100000x1024, .f32⟩
  | 95 => ⟨S1024x1024, .f32⟩
  | 96 => ⟨S100000x1024, .f32⟩
  | 97 => ⟨S1x1024, .f32⟩
  | 98 => ⟨S100000x1024, .f32⟩
  | 99 => ⟨S100000x1024, .f32⟩
  | 100 => ⟨S_, .f32⟩
  | 101 => ⟨S100000x1024, .f32⟩
  | 102 => ⟨S100000x1024, .f32⟩
  | 103 => ⟨S1024x512, .f32⟩
  | 104 => ⟨S100000x512, .f32⟩
  | 105 => ⟨S1x512, .f32⟩
  | 106 => ⟨S100000x512, .f32⟩
  | 107 => ⟨S100000x512, .f32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x9, .f32⟩
  | 117 => ⟨S100000x521, .f32⟩
  | 118 => ⟨S521x512, .f32⟩
  | 119 => ⟨S100000x512, .f32⟩
  | 120 => ⟨S1x512, .f32⟩
  | 121 => ⟨S100000x512, .f32⟩
  | 122 => ⟨S100000x512, .f32⟩
  | 123 => ⟨S_, .f32⟩
  | 124 => ⟨S100000x512, .f32⟩
  | 125 => ⟨S100000x512, .f32⟩
  | 126 => ⟨S512x512, .f32⟩
  | 127 => ⟨S100000x512, .f32⟩
  | _ => ⟨S20000x9, .f32⟩

abbrev hbmTy0_1 (i : Nat) : BufTy := match i % 128 with
  | 0 => ⟨S1x512, .f32⟩
  | 1 => ⟨S100000x512, .f32⟩
  | 2 => ⟨S100000x512, .f32⟩
  | 3 => ⟨S_, .f32⟩
  | 4 => ⟨S100000x512, .f32⟩
  | 5 => ⟨S100000x512, .f32⟩
  | 6 => ⟨S_, .f32⟩
  | 7 => ⟨S20000x512, .f32⟩
  | 8 => ⟨S100000x1, .i32⟩
  | 9 => ⟨S20000x512, .f32⟩
  | 10 => ⟨S_, .f32⟩
  | 11 => ⟨S100000, .f32⟩
  | 12 => ⟨S_, .f32⟩
  | 13 => ⟨S20000, .f32⟩
  | 14 => ⟨S100000x1, .i32⟩
  | 15 => ⟨S20000, .f32⟩
  | 16 => ⟨S_, .f32⟩
  | 17 => ⟨S20000, .f32⟩
  | 18 => ⟨S20000, .f32⟩
  | 19 => ⟨S20000x1, .f32⟩
  | 20 => ⟨S20000x512, .f32⟩
  | 21 => ⟨S20000x512, .f32⟩
  | 22 => ⟨S_, .i32⟩
  | 23 => ⟨S20000, .i32⟩
  | 24 => ⟨S20000, .i1⟩
  | 25 => ⟨S_, .i32⟩
  | 26 => ⟨S20000, .i32⟩
  | 27 => ⟨S20000, .i32⟩
  | 28 => ⟨S20000, .i32⟩
  | 29 => ⟨S20000x1, .i32⟩
  | 30 => ⟨S20000x256, .f32⟩
  | 31 => ⟨S20000x777, .f32⟩
  | 32 => ⟨S777x512, .f32⟩
  | 33 => ⟨S20000x512, .f32⟩
  | 34 => ⟨S1x512, .f32⟩
  | 35 => ⟨S20000x512, .f32⟩
  | 36 => ⟨S20000x512, .f32⟩
  | 37 => ⟨S_, .f32⟩
  | 38 => ⟨S20000x512, .f32⟩
  | 39 => ⟨S20000x512, .f32⟩
  | 40 => ⟨S512x1, .f32⟩
  | 41 => ⟨S20000x1, .f32⟩
  | 42 => ⟨S1x1, .f32⟩
  | 43 => ⟨S20000x1, .f32⟩
  | 44 => ⟨S20000x1, .f32⟩
  | 45 => ⟨S20000, .f32⟩
  | _ => ⟨S20000x9, .f32⟩

abbrev hbmTy (i : Nat) : BufTy := match i / 128 with
  | 0 => hbmTy0_0 i
  | 1 => hbmTy0_1 i
  | _ => ⟨S20000x9, .f32⟩

abbrev bufTy : (tb : Table) → Fin (tcTables nBuf tb) → BufTy
  | .hbm, ⟨i, _⟩ => hbmTy i
  | _, _ => ⟨S20000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_v10 : Ref sig .tc := ⟨.hbm, 36, rfl⟩
abbrev main_c_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_1 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_3 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_call0_cst : Ref sig .tc := ⟨.hbm, 76, rfl⟩
abbrev main_call0_v0 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call1_cst : Ref sig .tc := ⟨.hbm, 84, rfl⟩
abbrev main_call1_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call2_cst : Ref sig .tc := ⟨.hbm, 92, rfl⟩
abbrev main_call2_v0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call3_cst : Ref sig .tc := ⟨.hbm, 100, rfl⟩
abbrev main_call3_v0 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_7 : Ref sig .tc := ⟨.hbm, 108, rfl⟩
abbrev main_v67 : Ref sig .tc := ⟨.hbm, 109, rfl⟩
abbrev main_v68 : Ref sig .tc := ⟨.hbm, 110, rfl⟩
abbrev main_c_8 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_call4_cst : Ref sig .tc := ⟨.hbm, 123, rfl⟩
abbrev main_call4_v0 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_call5_cst : Ref sig .tc := ⟨.hbm, 131, rfl⟩
abbrev main_call5_v0 : Ref sig .tc := ⟨.hbm, 132, rfl⟩
abbrev main_v86 : Ref sig .tc := ⟨.hbm, 133, rfl⟩
abbrev main_cst : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_9 : Ref sig .tc := ⟨.hbm, 138, rfl⟩
abbrev main_v90 : Ref sig .tc := ⟨.hbm, 139, rfl⟩
abbrev main_cst_10 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_11 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_12 : Ref sig .tc := ⟨.hbm, 150, rfl⟩
abbrev main_v99 : Ref sig .tc := ⟨.hbm, 151, rfl⟩
abbrev main_v100 : Ref sig .tc := ⟨.hbm, 152, rfl⟩
abbrev main_c_13 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call6_cst : Ref sig .tc := ⟨.hbm, 165, rfl⟩
abbrev main_call6_v0 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  transposes_S256x4096_S4096x256_1_0 : S256x4096.Transposes [1, 0] S4096x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x9_S100000x9_S100000x1_S100000x256_S100000x275_d1 : Shape.Concatenates [S100000x9, S100000x9, S100000x1, S100000x256] S100000x275 1
  transposes_S1024x275_S275x1024_1_0 : S1024x275.Transposes [1, 0] S275x1024
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  transposes_S1024x1024_S1024x1024_1_0 : S1024x1024.Transposes [1, 0] S1024x1024
  transposes_S512x1024_S1024x512_1_0 : S512x1024.Transposes [1, 0] S1024x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  concatenates_S100000x9_S100000x512_S100000x521_d1 : Shape.Concatenates [S100000x9, S100000x512] S100000x521 1
  transposes_S512x521_S521x512_1_0 : S512x521.Transposes [1, 0] S521x512
  bcast_S_S100000x512 : S_.BroadcastsInDim S100000x512 (![] : Fin 0 → Fin S100000x512.rank)
  transposes_S512x512_S512x512_1_0 : S512x512.Transposes [1, 0] S512x512
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  concatenates_S20000x9_S20000x512_S20000x256_S20000x777_d1 : Shape.Concatenates [S20000x9, S20000x512, S20000x256] S20000x777 1
  transposes_S512x777_S777x512_1_0 : S512x777.Transposes [1, 0] S777x512
  bcast_S1x512_S20000x512_0_1 : S1x512.BroadcastsInDim S20000x512 (![0, 1] : Fin 2 → Fin S20000x512.rank)
  transposes_S1x512_S512x1_1_0 : S1x512.Transposes [1, 0] S512x1
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  dot_S16x4096_S4096x256_S16x256_1_0_0_1_n_n_wf : DotDims.WF S16x4096 S4096x256 S16x256 [1] [0] [0] [1] [] []
  gather_S20000_S100000x1_S100000_n_0_n_n_0_1_1_wf : GatherDims.WF S20000 S100000x1 S100000 [] [0] [] [0] [] 1 ![1]
  gather_S20000x9_S100000x1_S100000x9_1_0_n_n_0_1_19_wf : GatherDims.WF S20000x9 S100000x1 S100000x9 [1] [0] [] [0] [] 1 ![1, 9]
  gather_S16x256_S100000x1_S100000x256_1_0_n_n_0_1_1256_wf : GatherDims.WF S16x256 S100000x1 S100000x256 [1] [0] [] [0] [] 1 ![1, 256]
  dot_S100000x275_S275x1024_S100000x1024_1_0_0_1_n_n_wf : DotDims.WF S100000x275 S275x1024 S100000x1024 [1] [0] [0] [1] [] []
  dot_S100000x1024_S1024x1024_S100000x1024_1_0_0_1_n_n_wf : DotDims.WF S100000x1024 S1024x1024 S100000x1024 [1] [0] [0] [1] [] []
  dot_S100000x1024_S1024x512_S100000x512_1_0_0_1_n_n_wf : DotDims.WF S100000x1024 S1024x512 S100000x512 [1] [0] [0] [1] [] []
  dot_S100000x521_S521x512_S100000x512_1_0_0_1_n_n_wf : DotDims.WF S100000x521 S521x512 S100000x512 [1] [0] [0] [1] [] []
  dot_S100000x512_S512x512_S100000x512_1_0_0_1_n_n_wf : DotDims.WF S100000x512 S512x512 S100000x512 [1] [0] [0] [1] [] []
  scatter_S20000x512_S100000x1_S100000x512_1_0_0_1_wf : ScatterDims.WF S20000x512 S100000x1 S100000x512 [1] [0] [0] 1
  scatter_S20000_S100000x1_S100000_n_0_0_1_wf : ScatterDims.WF S20000 S100000x1 S100000 [] [0] [0] 1
  gather_S16x256_S20000x1_S20000x256_1_0_n_n_0_1_1256_wf : GatherDims.WF S16x256 S20000x1 S20000x256 [1] [0] [] [0] [] 1 ![1, 256]
  dot_S20000x777_S777x512_S20000x512_1_0_0_1_n_n_wf : DotDims.WF S20000x777 S777x512 S20000x512 [1] [0] [0] [1] [] []
  dot_S20000x512_S512x1_S20000x1_1_0_0_1_n_n_wf : DotDims.WF S20000x512 S512x1 S20000x1 [1] [0] [0] [1] [] []

variable [Facts₀]

def dot_S16x4096_S4096x256_S16x256_1_0_0_1_n_n : DotDims S16x4096 S4096x256 S16x256 where
  lhsContracting := [1]
  rhsContracting := [0]
  lhsNonContracting := [0]
  rhsNonContracting := [1]
  lhsBatch := []
  rhsBatch := []
  wf := dot_S16x4096_S4096x256_S16x256_1_0_0_1_n_n_wf
def gather_S20000_S100000x1_S100000_n_0_n_n_0_1_1 : GatherDims S20000 S100000x1 S100000 where
  offsetDims := []
  collapsedSliceDims := [0]
  operandBatchingDims := []
  startIndicesBatchingDims := []
  startIndexMap := [0]
  indexVectorDim := 1
  sliceSizes := ![1]
  wf := gather_S20000_S100000x1_S100000_n_0_n_n_0_1_1_wf
def gather_S20000x9_S100000x1_S100000x9_1_0_n_n_0_1_19 : GatherDims S20000x9 S100000x1 S100000x9 where
  offsetDims := [1]
  collapsedSliceDims := [0]
  operandBatchingDims := []
  startIndicesBatchingDims := []
  startIndexMap := [0]
  indexVectorDim := 1
  sliceSizes := ![1, 9]
  wf := gather_S20000x9_S100000x1_S100000x9_1_0_n_n_0_1_19_wf
def gather_S16x256_S100000x1_S100000x256_1_0_n_n_0_1_1256 : GatherDims S16x256 S100000x1 S100000x256 where
  offsetDims := [1]
  collapsedSliceDims := [0]
  operandBatchingDims := []
  startIndicesBatchingDims := []
  startIndexMap := [0]
  indexVectorDim := 1
  sliceSizes := ![1, 256]
  wf := gather_S16x256_S100000x1_S100000x256_1_0_n_n_0_1_1256_wf
def dot_S100000x275_S275x1024_S100000x1024_1_0_0_1_n_n : DotDims S100000x275 S275x1024 S100000x1024 where
  lhsContracting := [1]
  rhsContracting := [0]
  lhsNonContracting := [0]
  rhsNonContracting := [1]
  lhsBatch := []
  rhsBatch := []
  wf := dot_S100000x275_S275x1024_S100000x1024_1_0_0_1_n_n_wf
def dot_S100000x1024_S1024x1024_S100000x1024_1_0_0_1_n_n : DotDims S100000x1024 S1024x1024 S100000x1024 where
  lhsContracting := [1]
  rhsContracting := [0]
  lhsNonContracting := [0]
  rhsNonContracting := [1]
  lhsBatch := []
  rhsBatch := []
  wf := dot_S100000x1024_S1024x1024_S100000x1024_1_0_0_1_n_n_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x521_S521x512_S100000x512_1_0_0_1_n_n : DotDims S100000x521 S521x512 S100000x512 where
  lhsContracting := [1]
  rhsContracting := [0]
  lhsNonContracting := [0]
  rhsNonContracting := [1]
  lhsBatch := []
  rhsBatch := []
  wf := dot_S100000x521_S521x512_S100000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def gather_S16x256_S20000x1_S20000x256_1_0_n_n_0_1_1256 : GatherDims S16x256 S20000x1 S20000x256 where
  offsetDims := [1]
  collapsedSliceDims := [0]
  operandBatchingDims := []
  startIndicesBatchingDims := []
  startIndexMap := [0]
  indexVectorDim := 1
  sliceSizes := ![1, 256]
  wf := gather_S16x256_S20000x1_S20000x256_1_0_n_n_0_1_1256_wf
def dot_S20000x777_S777x512_S20000x512_1_0_0_1_n_n : DotDims S20000x777 S777x512 S20000x512 where
  lhsContracting := [1]
  rhsContracting := [0]
  lhsNonContracting := [0]
  rhsNonContracting := [1]
  lhsBatch := []
  rhsBatch := []
  wf := dot_S20000x777_S777x512_S20000x512_1_0_0_1_n_n_wf
def dot_S20000x512_S512x1_S20000x1_1_0_0_1_n_n : DotDims S20000x512 S512x1 S20000x1 where
  lhsContracting := [1]
  rhsContracting := [0]
  lhsNonContracting := [0]
  rhsNonContracting := [1]
  lhsBatch := []
  rhsBatch := []
  wf := dot_S20000x512_S512x1_S20000x1_1_0_0_1_n_n_wf

class Facts : Prop extends Facts₀ where

variable [Facts]
-- ==== Proof.LibNaryThree.lean ====
/-
  A host operation over a literal family of three operands (a join of three arrays along one axis prints so): what
  its result buffer holds afterwards, with each operand's contents named at its own buffer, so that a proof can go on
  rewriting the three contents one by one.
-/
import Idealize.ShloMosaic.Lib.StableHlo.Run

noncomputable section

namespace Cert.LibNaryThree

open Idealize.ShloMosaic Idealize.ShloMosaic.StableHlo

variable {τ : Topo} {sig : RefSig} {Val : EltTy → Type}
variable {x a b y : Ref sig .tc}

/-- After an operation over the three operands `x`, `a`, `b`, the result buffer holds the operation's function at
    the family whose entries are the three buffers' contents, each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated so that a simplifier pass finds it at any result buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNaryThree

end
-- ==== Proof.RefRun.lean ====
/-
  The reference program's run. Its @main is one straight line of 149 host operations; every weakly fair execution of it
  terminates, nothing faulting, with the result buffer holding the last stage function of the arguments' launch
  contents and the 25 argument arrays unchanged.

  The line is cut into four stretches, each cut placed just before a join of arrays along the column axis, so that
  within a stretch every join reads buffers the stretch did not write. For each stretch, from any buffer contents W:
  the buffers later stretches read hold the stage functions of the arguments, provided the buffers the stretch itself
  reads hold theirs; and a buffer the stretch does not write keeps its contents. The four stretches chain to the
  whole line.
-/
import proofs.«425427_j50422916055679_1_alg».proof.Proof.Gen.ReferenceIdeal
import proofs.«425427_j50422916055679_1_alg».proof.Proof.RefRead
import proofs.«425427_j50422916055679_1_alg».proof.Proof.LibNaryThree
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP Cert.LibNaryThree

variable {F : FTy → Type} [FloatOps F]

/-! ## The line, in four stretches -/

/-- The first stretch: the two rows of the edge list, the embedding of each graph's globals, and the rows gathered for every edge (the node features at its first and at its second endpoint, the embedding of its first endpoint's graph). -/
abbrev opsA : List (HloOp τ sig (Elt F)) :=
  [ unary main_arg1 main_v0 ((extractStridedSlice S1x100000 ![0, 0] · slices_S2x100000_S1x100000_0_0) : (⟨S2x100000, .i32⟩ : BufTy).Contents (Elt F) → (⟨S1x100000, .i32⟩ : BufTy).Contents (Elt F)),
    reshape main_v0 main_v1 rfl shapeCasts_S1x100000_S100000,
    unary main_arg1 main_v2 ((extractStridedSlice S1x100000 ![1, 0] · slices_S2x100000_S1x100000_1_0) : (⟨S2x100000, .i32⟩ : BufTy).Contents (Elt F) → (⟨S1x100000, .i32⟩ : BufTy).Contents (Elt F)),
    reshape main_v2 main_v3 rfl shapeCasts_S1x100000_S100000,
    unary main_arg5 main_v4 ((transpose S4096x256 [1, 0] · transposes_S256x4096_S4096x256_1_0) : (⟨S256x4096, .f32⟩ : BufTy).Contents (Elt F) → (⟨S4096x256, .f32⟩ : BufTy).Contents (Elt F)),
    binary main_arg3 main_v4 main_v5 ((fun l r => Host.dotGeneral dot_S16x4096_S4096x256_S16x256_1_0_0_1_n_n none l r) : (⟨S16x4096, .f32⟩ : BufTy).Contents (Elt F) → (⟨S4096x256, .f32⟩ : BufTy).Contents (Elt F) → (⟨S16x256, .f32⟩ : BufTy).Contents (Elt F)),
    unary main_arg6 main_v6 (broadcastInDim S1x256 ![1] bcast_S256_S1x256_1 : (⟨S256, .f32⟩ : BufTy).Contents (Elt F) → (⟨S1x256, .f32⟩ : BufTy).Contents (Elt F)),
    unary main_v6 main_v7 (broadcastInDim S16x256 ![0, 1] bcast_S1x256_S16x256_0_1 : (⟨S1x256, .f32⟩ : BufTy).Contents (Elt F) → (⟨S16x256, .f32⟩ : BufTy).Contents (Elt F)),
    binary main_v5 main_v7 main_v8 (addf : (⟨S16x256, .f32⟩ : BufTy).Contents (Elt F) → (⟨S16x256, .f32⟩ : BufTy).Contents (Elt F) → (⟨S16x256, .f32⟩ : BufTy).Contents (Elt F)),
    nullary main_c (constantI S_ 32 0#32),
    unary main_c main_v9 (broadcastInDim S100000 ![] bcast_S_S100000 : (⟨S_, .i32⟩ : BufTy).Contents (Elt F) → (⟨S100000, .i32⟩ : BufTy).Contents (Elt F)),
    binary main_v1 main_v9 main_v10 (cmpi .slt : (⟨S100000, .i32⟩ : BufTy).Contents (Elt F) → (⟨S100000, .i32⟩ : BufTy).Contents (Elt F) → (⟨S100000, .i1⟩ : BufTy).Contents (Elt F)),
    nullary main_c_0 (constantI S_ 32 20000#32),
    unary main_c_0 main_v11 (broadcastInDim S100000 ![] bcast_S_S100000 : (⟨S_, .i32⟩ : BufTy).Contents (Elt F) → (⟨S100000, .i32⟩ : BufTy).Contents (Elt F)),
    binary main_v1 main_v11 main_v12 (addi : (⟨S100000, .i32⟩ : BufTy).Contents (Elt F) → (⟨S100000, .i32⟩ : BufTy).Contents (Elt F) → (⟨S100000, .i32⟩ : BufTy).Contents (Elt F)),
    ternary main_v10 main_v12 main_v1 main_v13 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v13 main_v14 (broadcastInDim S100000x1 ![0] bcast_S100000_S100000x1_0 : (⟨S100000, .i32⟩ : BufTy).Contents (Elt F) → (⟨S100000x1, .i32⟩ : BufTy).Contents (Elt F)),
    binary main_arg4 main_v14 main_v15 ((fun x i => Host.gather gather_S20000_S100000x1_S100000_n_0_n_n_0_1_1 x i) : (⟨S20000, .i32⟩ : BufTy).Contents (Elt F) → (⟨S100000x1, .i32⟩ : BufTy).Contents (Elt F) → (⟨S100000, .i32⟩ : BufTy).Contents (Elt F)),
    nullary main_c_1 (constantI S_ 32 0#32),
    unary main_c_1 main_v16 (broadcastInDim S100000 ![] bcast_S_S100000 : (⟨S_, .i32⟩ : BufTy).Contents (Elt F) → (⟨S100000, .i32⟩ : BufTy).Contents (Elt F)),
    binary main_v1 main_v16 main_v17 (cmpi .slt : (⟨S100000, .i32⟩ : BufTy).Contents (Elt F) → (⟨S100000, .i32⟩ : BufTy).Contents (Elt F) → (⟨S100000, .i1⟩ : BufTy).Contents (Elt F)),
    nullary main_c_2 (constantI S_ 32 20000#32),
    unary main_c_2 main_v18 (broadcastInDim S100000 ![] bcast_S_S100000 : (⟨S_, .i32⟩ : BufTy).Contents (Elt F) → (⟨S100000, .i32⟩ : BufTy).Contents (Elt F)),
    binary main_v1 main_v18 main_v19 (addi : (⟨S100000, .i32⟩ : BufTy).Contents (Elt F) → (⟨S100000, .i32⟩ : BufTy).Contents (Elt F) → (⟨S100000, .i32⟩ : BufTy).Contents (Elt F)),
    ternary main_v17 main_v19 main_v1 main_v20 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v20 main_v21 (broadcastInDim S100000x1 ![0] bcast_S100000_S100000x1_0 : (⟨S100000, .i32⟩ : BufTy).Contents (Elt F) → (⟨S100000x1, .i32⟩ : BufTy).Contents (Elt F)),
    binary main_arg0 main_v21 main_v22 ((fun x i => Host.gather gather_S20000x9_S100000x1_S100000x9_1_0_n_n_0_1_19 x i) : (⟨S20000x9, .f32⟩ : BufTy).Contents (Elt F) → (⟨S100000x1, .i32⟩ : BufTy).Contents (Elt F) → (⟨S100000x9, .f32⟩ : BufTy).Contents (Elt F)),
    nullary main_c_3 (constantI S_ 32 0#32),
    unary main_c_3 main_v23 (broadcastInDim S100000 ![] bcast_S_S100000 : (⟨S_, .i32⟩ : BufTy).Contents (Elt F) → (⟨S100000, .i32⟩ : BufTy).Contents (Elt F)),
    binary main_v3 main_v23 main_v24 (cmpi .slt : (⟨S100000, .i32⟩ : BufTy).Contents (Elt F) → (⟨S100000, .i32⟩ : BufTy).Contents (Elt F) → (⟨S100000, .i1⟩ : BufTy).Contents (Elt F)),
    nullary main_c_4 (constantI S_ 32 20000#32),
    unary main_c_4 main_v25 (broadcastInDim S100000 ![] bcast_S_S100000 : (⟨S_, .i32⟩ : BufTy).Contents (Elt F) → (⟨S100000, .i32⟩ : BufTy).Contents (Elt F)),
    binary main_v3 main_v25 main_v26 (addi : (⟨S100000, .i32⟩ : BufTy).Contents (Elt F) → (⟨S100000, .i32⟩ : BufTy).Contents (Elt F) → (⟨S100000, .i32⟩ : BufTy).Contents (Elt F)),
    ternary main_v24 main_v26 main_v3 main_v27 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v27 main_v28 (broadcastInDim S100000x1 ![0] bcast_S100000_S100000x1_0 : (⟨S100000, .i32⟩ : BufTy).Contents (Elt F) → (⟨S100000x1, .i32⟩ : BufTy).Contents (Elt F)),
    binary main_arg0 main_v28 main_v29 ((fun x i => Host.gather gather_S20000x9_S100000x1_S100000x9_1_0_n_n_0_1_19 x i) : (⟨S20000x9, .f32⟩ : BufTy).Contents (Elt F) → (⟨S100000x1, .i32⟩ : BufTy).Contents (Elt F) → (⟨S100000x9, .f32⟩ : BufTy).Contents (Elt F)),
    nullary main_c_5 (constantI S_ 32 0#32),
    unary main_c_5 main_v30 (broadcastInDim S100000 ![] bcast_S_S100000 : (⟨S_, .i32⟩ : BufTy).Contents (Elt F) → (⟨S100000, .i32⟩ : BufTy).Contents (Elt F)),
    binary main_v15 main_v30 main_v31 (cmpi .slt : (⟨S100000, .i32⟩ : BufTy).Contents (Elt F) → (⟨S100000, .i32⟩ : BufTy).Contents (Elt F) → (⟨S100000, .i1⟩ : BufTy).Contents (Elt F)),
    nullary main_c_6 (constantI S_ 32 16#32),
    unary main_c_6 main_v32 (broadcastInDim S100000 ![] bcast_S_S100000 : (⟨S_, .i32⟩ : BufTy).Contents (Elt F) → (⟨S100000, .i32⟩ : BufTy).Contents (Elt F)),
    binary main_v15 main_v32 main_v33 (addi : (⟨S100000, .i32⟩ : BufTy).Contents (Elt F) → (⟨S100000, .i32⟩ : BufTy).Contents (Elt F) → (⟨S100000, .i32⟩ : BufTy).Contents (Elt F)),
    ternary main_v31 main_v33 main_v15 main_v34 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v34 main_v35 (broadcastInDim S100000x1 ![0] bcast_S100000_S100000x1_0 : (⟨S100000, .i32⟩ : BufTy).Contents (Elt F) → (⟨S100000x1, .i32⟩ : BufTy).Contents (Elt F)),
    binary main_v8 main_v35 main_v36 ((fun x i => Host.gather gather_S16x256_S100000x1_S100000x256_1_0_n_n_0_1_1256 x i) : (⟨S16x256, .f32⟩ : BufTy).Contents (Elt F) → (⟨S100000x1, .i32⟩ : BufTy).Contents (Elt F) → (⟨S100000x256, .f32⟩ : BufTy).Contents (Elt F)) ]

/-- The second stretch: the first network over the edges (the four gathered blocks joined; five affine layers, a rectification after each of the first four) and the node features at the second endpoint gathered once more. -/
abbrev opsB : List (HloOp τ sig (Elt F)) :=
  [ nary ![main_v22, main_v29, main_arg2, main_v36] main_v37 (fun u => concatenate S100000x275 1 [⟨S100000x9, u 0⟩, ⟨S100000x9, u 1⟩, ⟨S100000x1, u 2⟩, ⟨S100000x256, u 3⟩] concatenates_S100000x9_S100000x9_S100000x1_S100000x256_S100000x275_d1),
    unary main_arg7 main_v38 ((transpose S275x1024 [1, 0] · transposes_S1024x275_S275x1024_1_0) : (⟨S1024x275, .f32⟩ : BufTy).Contents (Elt F) → (⟨S275x1024, .f32⟩ : BufTy).Contents (Elt F)),
    binary main_v37 main_v38 main_v39 ((fun l r => Host.dotGeneral dot_S100000x275_S275x1024_S100000x1024_1_0_0_1_n_n none l r) : (⟨S100000x275, .f32⟩ : BufTy).Contents (Elt F) → (⟨S275x1024, .f32⟩ : BufTy).Contents (Elt F) → (⟨S100000x1024, .f32⟩ : BufTy).Contents (Elt F)),
    unary main_arg8 main_v40 (broadcastInDim S1x1024 ![1] bcast_S1024_S1x1024_1 : (⟨S1024, .f32⟩ : BufTy).Contents (Elt F) → (⟨S1x1024, .f32⟩ : BufTy).Contents (Elt F)),
    unary main_v40 main_v41 (broadcastInDim S100000x1024 ![0, 1] bcast_S1x1024_S100000x1024_0_1 : (⟨S1x1024, .f32⟩ : BufTy).Contents (Elt F) → (⟨S100000x1024, .f32⟩ : BufTy).Contents (Elt F)),
    binary main_v39 main_v41 main_v42 (addf : (⟨S100000x1024, .f32⟩ : BufTy).Contents (Elt F) → (⟨S100000x1024, .f32⟩ : BufTy).Contents (Elt F) → (⟨S100000x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x1024, .f32⟩) main_call0_v0) (broadcastInDim S100000x1024 ![] bcast_S_S100000x1024),
    TRef.binary (TRef.of (T := ⟨S100000x1024, .f32⟩) main_v42) (TRef.of (T := ⟨S100000x1024, .f32⟩) main_call0_v0) (TRef.of (T := ⟨S100000x1024, .f32⟩) main_v43) maximumf,
    unary main_arg9 main_v44 ((transpose S1024x1024 [1, 0] · transposes_S1024x1024_S1024x1024_1_0) : (⟨S1024x1024, .f32⟩ : BufTy).Contents (Elt F) → (⟨S1024x1024, .f32⟩ : BufTy).Contents (Elt F)),
    binary main_v43 main_v44 main_v45 ((fun l r => Host.dotGeneral dot_S100000x1024_S1024x1024_S100000x1024_1_0_0_1_n_n none l r) : (⟨S100000x1024, .f32⟩ : BufTy).Contents (Elt F) → (⟨S1024x1024, .f32⟩ : BufTy).Contents (Elt F) → (⟨S100000x1024, .f32⟩ : BufTy).Contents (Elt F)),
    unary main_arg10 main_v46 (broadcastInDim S1x1024 ![1] bcast_S1024_S1x1024_1 : (⟨S1024, .f32⟩ : BufTy).Contents (Elt F) → (⟨S1x1024, .f32⟩ : BufTy).Contents (Elt F)),
    unary main_v46 main_v47 (broadcastInDim S100000x1024 ![0, 1] bcast_S1x1024_S100000x1024_0_1 : (⟨S1x1024, .f32⟩ : BufTy).Contents (Elt F) → (⟨S100000x1024, .f32⟩ : BufTy).Contents (Elt F)),
    binary main_v45 main_v47 main_v48 (addf : (⟨S100000x1024, .f32⟩ : BufTy).Contents (Elt F) → (⟨S100000x1024, .f32⟩ : BufTy).Contents (Elt F) → (⟨S100000x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x1024, .f32⟩) main_call1_v0) (broadcastInDim S100000x1024 ![] bcast_S_S100000x1024),
    TRef.binary (TRef.of (T := ⟨S100000x1024, .f32⟩) main_v48) (TRef.of (T := ⟨S100000x1024, .f32⟩) main_call1_v0) (TRef.of (T := ⟨S100000x1024, .f32⟩) main_v49) maximumf,
    unary main_arg11 main_v50 ((transpose S1024x1024 [1, 0] · transposes_S1024x1024_S1024x1024_1_0) : (⟨S1024x1024, .f32⟩ : BufTy).Contents (Elt F) → (⟨S1024x1024, .f32⟩ : BufTy).Contents (Elt F)),
    binary main_v49 main_v50 main_v51 ((fun l r => Host.dotGeneral dot_S100000x1024_S1024x1024_S100000x1024_1_0_0_1_n_n none l r) : (⟨S100000x1024, .f32⟩ : BufTy).Contents (Elt F) → (⟨S1024x1024, .f32⟩ : BufTy).Contents (Elt F) → (⟨S100000x1024, .f32⟩ : BufTy).Contents (Elt F)),
    unary main_arg12 main_v52 (broadcastInDim S1x1024 ![1] bcast_S1024_S1x1024_1 : (⟨S1024, .f32⟩ : BufTy).Contents (Elt F) → (⟨S1x1024, .f32⟩ : BufTy).Contents (Elt F)),
    unary main_v52 main_v53 (broadcastInDim S100000x1024 ![0, 1] bcast_S1x1024_S100000x1024_0_1 : (⟨S1x1024, .f32⟩ : BufTy).Contents (Elt F) → (⟨S100000x1024, .f32⟩ : BufTy).Contents (Elt F)),
    binary main_v51 main_v53 main_v54 (addf : (⟨S100000x1024, .f32⟩ : BufTy).Contents (Elt F) → (⟨S100000x1024, .f32⟩ : BufTy).Contents (Elt F) → (⟨S100000x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x1024, .f32⟩) main_call2_v0) (broadcastInDim S100000x1024 ![] bcast_S_S100000x1024),
    TRef.binary (TRef.of (T := ⟨S100000x1024, .f32⟩) main_v54) (TRef.of (T := ⟨S100000x1024, .f32⟩) main_call2_v0) (TRef.of (T := ⟨S100000x1024, .f32⟩) main_v55) maximumf,
    unary main_arg13 main_v56 ((transpose S1024x1024 [1, 0] · transposes_S1024x1024_S1024x1024_1_0) : (⟨S1024x1024, .f32⟩ : BufTy).Contents (Elt F) → (⟨S1024x1024, .f32⟩ : BufTy).Contents (Elt F)),
    binary main_v55 main_v56 main_v57 ((fun l r => Host.dotGeneral dot_S100000x1024_S1024x1024_S100000x1024_1_0_0_1_n_n none l r) : (⟨S100000x1024, .f32⟩ : BufTy).Contents (Elt F) → (⟨S1024x1024, .f32⟩ : BufTy).Contents (Elt F) → (⟨S100000x1024, .f32⟩ : BufTy).Contents (Elt F)),
    unary main_arg14 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S100000x1024 ![0, 1] bcast_S1x1024_S100000x1024_0_1 : (⟨S1x1024, .f32⟩ : BufTy).Contents (Elt F) → (⟨S100000x1024, .f32⟩ : BufTy).Contents (Elt F)),
    binary main_v57 main_v59 main_v60 (addf : (⟨S100000x1024, .f32⟩ : BufTy).Contents (Elt F) → (⟨S100000x1024, .f32⟩ : BufTy).Contents (Elt F) → (⟨S100000x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x1024, .f32⟩) main_call3_v0) (broadcastInDim S100000x1024 ![] bcast_S_S100000x1024),
    TRef.binary (TRef.of (T := ⟨S100000x1024, .f32⟩) main_v60) (TRef.of (T := ⟨S100000x1024, .f32⟩) main_call3_v0) (TRef.of (T := ⟨S100000x1024, .f32⟩) main_v61) maximumf,
    unary main_arg15 main_v62 ((transpose S1024x512 [1, 0] · transposes_S512x1024_S1024x512_1_0) : (⟨S512x1024, .f32⟩ : BufTy).Contents (Elt F) → (⟨S1024x512, .f32⟩ : BufTy).Contents (Elt F)),
    binary main_v61 main_v62 main_v63 ((fun l r => Host.dotGeneral dot_S100000x1024_S1024x512_S100000x512_1_0_0_1_n_n none l r) : (⟨S100000x1024, .f32⟩ : BufTy).Contents (Elt F) → (⟨S1024x512, .f32⟩ : BufTy).Contents (Elt F) → (⟨S100000x512, .f32⟩ : BufTy).Contents (Elt F)),
    unary main_arg16 main_v64 (broadcastInDim S1x512 ![1] bcast_S512_S1x512_1 : (⟨S512, .f32⟩ : BufTy).Contents (Elt F) → (⟨S1x512, .f32⟩ : BufTy).Contents (Elt F)),
    unary main_v64 main_v65 (broadcastInDim S100000x512 ![0, 1] bcast_S1x512_S100000x512_0_1 : (⟨S1x512, .f32⟩ : BufTy).Contents (Elt F) → (⟨S100000x512, .f32⟩ : BufTy).Contents (Elt F)),
    binary main_v63 main_v65 main_v66 (addf : (⟨S100000x512, .f32⟩ : BufTy).Contents (Elt F) → (⟨S100000x512, .f32⟩ : BufTy).Contents (Elt F) → (⟨S100000x512, .f32⟩ : BufTy).Contents (Elt F)),
    nullary main_c_7 (constantI S_ 32 0#32),
    unary main_c_7 main_v67 (broadcastInDim S100000 ![] bcast_S_S100000 : (⟨S_, .i32⟩ : BufTy).Contents (Elt F) → (⟨S100000, .i32⟩ : BufTy).Contents (Elt F)),
    binary main_v3 main_v67 main_v68 (cmpi .slt : (⟨S100000, .i32⟩ : BufTy).Contents (Elt F) → (⟨S100000, .i32⟩ : BufTy).Contents (Elt F) → (⟨S100000, .i1⟩ : BufTy).Contents (Elt F)),
    nullary main_c_8 (constantI S_ 32 20000#32),
    unary main_c_8 main_v69 (broadcastInDim S100000 ![] bcast_S_S100000 : (⟨S_, .i32⟩ : BufTy).Contents (Elt F) → (⟨S100000, .i32⟩ : BufTy).Contents (Elt F)),
    binary main_v3 main_v69 main_v70 (addi : (⟨S100000, .i32⟩ : BufTy).Contents (Elt F) → (⟨S100000, .i32⟩ : BufTy).Contents (Elt F) → (⟨S100000, .i32⟩ : BufTy).Contents (Elt F)),
    ternary main_v68 main_v70 main_v3 main_v71 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v71 main_v72 (broadcastInDim S100000x1 ![0] bcast_S100000_S100000x1_0 : (⟨S100000, .i32⟩ : BufTy).Contents (Elt F) → (⟨S100000x1, .i32⟩ : BufTy).Contents (Elt F)),
    binary main_arg0 main_v72 main_v73 ((fun x i => Host.gather gather_S20000x9_S100000x1_S100000x9_1_0_n_n_0_1_19 x i) : (⟨S20000x9, .f32⟩ : BufTy).Contents (Elt F) → (⟨S100000x1, .i32⟩ : BufTy).Contents (Elt F) → (⟨S100000x9, .f32⟩ : BufTy).Contents (Elt F)) ]

/-- The third stretch: the second network over the edges (those features joined to the first network's output; two affine layers, a rectification after each), its outputs summed per first endpoint and divided by the number of edges there (or by one where there is none), and the embedding of every node's graph. -/
abbrev opsC : List (HloOp τ sig (Elt F)) :=
  [ binary main_v73 main_v66 main_v74 ((fun a b => concatenate S100000x521 1 [⟨S100000x9, a⟩, ⟨S100000x512, b⟩] concatenates_S100000x9_S100000x512_S100000x521_d1) : (⟨S100000x9, .f32⟩ : BufTy).Contents (Elt F) → (⟨S100000x512, .f32⟩ : BufTy).Contents (Elt F) → (⟨S100000x521, .f32⟩ : BufTy).Contents (Elt F)),
    unary main_arg17 main_v75 ((transpose S521x512 [1, 0] · transposes_S512x521_S521x512_1_0) : (⟨S512x521, .f32⟩ : BufTy).Contents (Elt F) → (⟨S521x512, .f32⟩ : BufTy).Contents (Elt F)),
    binary main_v74 main_v75 main_v76 ((fun l r => Host.dotGeneral dot_S100000x521_S521x512_S100000x512_1_0_0_1_n_n none l r) : (⟨S100000x521, .f32⟩ : BufTy).Contents (Elt F) → (⟨S521x512, .f32⟩ : BufTy).Contents (Elt F) → (⟨S100000x512, .f32⟩ : BufTy).Contents (Elt F)),
    unary main_arg18 main_v77 (broadcastInDim S1x512 ![1] bcast_S512_S1x512_1 : (⟨S512, .f32⟩ : BufTy).Contents (Elt F) → (⟨S1x512, .f32⟩ : BufTy).Contents (Elt F)),
    unary main_v77 main_v78 (broadcastInDim S100000x512 ![0, 1] bcast_S1x512_S100000x512_0_1 : (⟨S1x512, .f32⟩ : BufTy).Contents (Elt F) → (⟨S100000x512, .f32⟩ : BufTy).Contents (Elt F)),
    binary main_v76 main_v78 main_v79 (addf : (⟨S100000x512, .f32⟩ : BufTy).Contents (Elt F) → (⟨S100000x512, .f32⟩ : BufTy).Contents (Elt F) → (⟨S100000x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x512, .f32⟩) main_call4_v0) (broadcastInDim S100000x512 ![] bcast_S_S100000x512),
    TRef.binary (TRef.of (T := ⟨S100000x512, .f32⟩) main_v79) (TRef.of (T := ⟨S100000x512, .f32⟩) main_call4_v0) (TRef.of (T := ⟨S100000x512, .f32⟩) main_v80) maximumf,
    unary main_arg19 main_v81 ((transpose S512x512 [1, 0] · transposes_S512x512_S512x512_1_0) : (⟨S512x512, .f32⟩ : BufTy).Contents (Elt F) → (⟨S512x512, .f32⟩ : BufTy).Contents (Elt F)),
    binary main_v80 main_v81 main_v82 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    unary main_arg20 main_v83 (broadcastInDim S1x512 ![1] bcast_S512_S1x512_1 : (⟨S512, .f32⟩ : BufTy).Contents (Elt F) → (⟨S1x512, .f32⟩ : BufTy).Contents (Elt F)),
    unary main_v83 main_v84 (broadcastInDim S100000x512 ![0, 1] bcast_S1x512_S100000x512_0_1 : (⟨S1x512, .f32⟩ : BufTy).Contents (Elt F) → (⟨S100000x512, .f32⟩ : BufTy).Contents (Elt F)),
    binary main_v82 main_v84 main_v85 (addf : (⟨S100000x512, .f32⟩ : BufTy).Contents (Elt F) → (⟨S100000x512, .f32⟩ : BufTy).Contents (Elt F) → (⟨S100000x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x512, .f32⟩) main_call5_v0) (broadcastInDim S100000x512 ![] bcast_S_S100000x512),
    TRef.binary (TRef.of (T := ⟨S100000x512, .f32⟩) main_v85) (TRef.of (T := ⟨S100000x512, .f32⟩) main_call5_v0) (TRef.of (T := ⟨S100000x512, .f32⟩) main_v86) maximumf,
    nullary main_cst (constant S_ .f32 0x00000000#32),
    unary main_cst main_v87 (broadcastInDim S20000x512 ![] bcast_S_S20000x512 : (⟨S_, .f32⟩ : BufTy).Contents (Elt F) → (⟨S20000x512, .f32⟩ : BufTy).Contents (Elt F)),
    unary main_v1 main_v88 (broadcastInDim S100000x1 ![0] bcast_S100000_S100000x1_0 : (⟨S100000, .i32⟩ : BufTy).Contents (Elt F) → (⟨S100000x1, .i32⟩ : BufTy).Contents (Elt F)),
    ternary main_v87 main_v88 main_v86 main_v89 ((fun x i u => Host.scatterAdd scatter_S20000x512_S100000x1_S100000x512_1_0_0_1 x i u) : (⟨S20000x512, .f32⟩ : BufTy).Contents (Elt F) → (⟨S100000x1, .i32⟩ : BufTy).Contents (Elt F) → (⟨S100000x512, .f32⟩ : BufTy).Contents (Elt F) → (⟨S20000x512, .f32⟩ : BufTy).Contents (Elt F)),
    nullary main_cst_9 (constant S_ .f32 0x3F800000#32),
    unary main_cst_9 main_v90 (broadcastInDim S100000 ![] bcast_S_S100000 : (⟨S_, .f32⟩ : BufTy).Contents (Elt F) → (⟨S100000, .f32⟩ : BufTy).Contents (Elt F)),
    nullary main_cst_10 (constant S_ .f32 0x00000000#32),
    unary main_cst_10 main_v91 (broadcastInDim S20000 ![] bcast_S_S20000 : (⟨S_, .f32⟩ : BufTy).Contents (Elt F) → (⟨S20000, .f32⟩ : BufTy).Contents (Elt F)),
    unary main_v1 main_v92 (broadcastInDim S100000x1 ![0] bcast_S100000_S100000x1_0 : (⟨S100000, .i32⟩ : BufTy).Contents (Elt F) → (⟨S100000x1, .i32⟩ : BufTy).Contents (Elt F)),
    ternary main_v91 main_v92 main_v90 main_v93 ((fun x i u => Host.scatterAdd scatter_S20000_S100000x1_S100000_n_0_0_1 x i u) : (⟨S20000, .f32⟩ : BufTy).Contents (Elt F) → (⟨S100000x1, .i32⟩ : BufTy).Contents (Elt F) → (⟨S100000, .f32⟩ : BufTy).Contents (Elt F) → (⟨S20000, .f32⟩ : BufTy).Contents (Elt F)),
    nullary main_cst_11 (constant S_ .f32 0x3F800000#32),
    unary main_cst_11 main_v94 (broadcastInDim S20000 ![] bcast_S_S20000 : (⟨S_, .f32⟩ : BufTy).Contents (Elt F) → (⟨S20000, .f32⟩ : BufTy).Contents (Elt F)),
    binary main_v93 main_v94 main_v95 (maximumf : (⟨S20000, .f32⟩ : BufTy).Contents (Elt F) → (⟨S20000, .f32⟩ : BufTy).Contents (Elt F) → (⟨S20000, .f32⟩ : BufTy).Contents (Elt F)),
    unary main_v95 main_v96 (broadcastInDim S20000x1 ![0] bcast_S20000_S20000x1_0 : (⟨S20000, .f32⟩ : BufTy).Contents (Elt F) → (⟨S20000x1, .f32⟩ : BufTy).Contents (Elt F)),
    unary main_v96 main_v97 (broadcastInDim S20000x512 ![0, 1] bcast_S20000x1_S20000x512_0_1 : (⟨S20000x1, .f32⟩ : BufTy).Contents (Elt F) → (⟨S20000x512, .f32⟩ : BufTy).Contents (Elt F)),
    binary main_v89 main_v97 main_v98 (Host.divf : (⟨S20000x512, .f32⟩ : BufTy).Contents (Elt F) → (⟨S20000x512, .f32⟩ : BufTy).Contents (Elt F) → (⟨S20000x512, .f32⟩ : BufTy).Contents (Elt F)),
    nullary main_c_12 (constantI S_ 32 0#32),
    unary main_c_12 main_v99 (broadcastInDim S20000 ![] bcast_S_S20000 : (⟨S_, .i32⟩ : BufTy).Contents (Elt F) → (⟨S20000, .i32⟩ : BufTy).Contents (Elt F)),
    binary main_arg4 main_v99 main_v100 (cmpi .slt : (⟨S20000, .i32⟩ : BufTy).Contents (Elt F) → (⟨S20000, .i32⟩ : BufTy).Contents (Elt F) → (⟨S20000, .i1⟩ : BufTy).Contents (Elt F)),
    nullary main_c_13 (constantI S_ 32 16#32),
    unary main_c_13 main_v101 (broadcastInDim S20000 ![] bcast_S_S20000 : (⟨S_, .i32⟩ : BufTy).Contents (Elt F) → (⟨S20000, .i32⟩ : BufTy).Contents (Elt F)),
    binary main_arg4 main_v101 main_v102 (addi : (⟨S20000, .i32⟩ : BufTy).Contents (Elt F) → (⟨S20000, .i32⟩ : BufTy).Contents (Elt F) → (⟨S20000, .i32⟩ : BufTy).Contents (Elt F)),
    ternary main_v100 main_v102 main_arg4 main_v103 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v103 main_v104 (broadcastInDim S20000x1 ![0] bcast_S20000_S20000x1_0 : (⟨S20000, .i32⟩ : BufTy).Contents (Elt F) → (⟨S20000x1, .i32⟩ : BufTy).Contents (Elt F)),
    binary main_v8 main_v104 main_v105 ((fun x i => Host.gather gather_S16x256_S20000x1_S20000x256_1_0_n_n_0_1_1256 x i) : (⟨S16x256, .f32⟩ : BufTy).Contents (Elt F) → (⟨S20000x1, .i32⟩ : BufTy).Contents (Elt F) → (⟨S20000x256, .f32⟩ : BufTy).Contents (Elt F)) ]

/-- The last stretch: the network over the nodes (node features, mean and graph embedding joined; two affine layers, a rectification between) and its one column laid out as a vector. -/
abbrev opsD : List (HloOp τ sig (Elt F)) :=
  [ nary ![main_arg0, main_v98, main_v105] main_v106 (fun u => concatenate S20000x777 1 [⟨S20000x9, u 0⟩, ⟨S20000x512, u 1⟩, ⟨S20000x256, u 2⟩] concatenates_S20000x9_S20000x512_S20000x256_S20000x777_d1),
    unary main_arg21 main_v107 ((transpose S777x512 [1, 0] · transposes_S512x777_S777x512_1_0) : (⟨S512x777, .f32⟩ : BufTy).Contents (Elt F) → (⟨S777x512, .f32⟩ : BufTy).Contents (Elt F)),
    binary main_v106 main_v107 main_v108 ((fun l r => Host.dotGeneral dot_S20000x777_S777x512_S20000x512_1_0_0_1_n_n none l r) : (⟨S20000x777, .f32⟩ : BufTy).Contents (Elt F) → (⟨S777x512, .f32⟩ : BufTy).Contents (Elt F) → (⟨S20000x512, .f32⟩ : BufTy).Contents (Elt F)),
    unary main_arg22 main_v109 (broadcastInDim S1x512 ![1] bcast_S512_S1x512_1 : (⟨S512, .f32⟩ : BufTy).Contents (Elt F) → (⟨S1x512, .f32⟩ : BufTy).Contents (Elt F)),
    unary main_v109 main_v110 (broadcastInDim S20000x512 ![0, 1] bcast_S1x512_S20000x512_0_1 : (⟨S1x512, .f32⟩ : BufTy).Contents (Elt F) → (⟨S20000x512, .f32⟩ : BufTy).Contents (Elt F)),
    binary main_v108 main_v110 main_v111 (addf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S20000x512, .f32⟩) main_call6_v0) (broadcastInDim S20000x512 ![] bcast_S_S20000x512),
    TRef.binary (TRef.of (T := ⟨S20000x512, .f32⟩) main_v111) (TRef.of (T := ⟨S20000x512, .f32⟩) main_call6_v0) (TRef.of (T := ⟨S20000x512, .f32⟩) main_v112) maximumf,
    unary main_arg23 main_v113 ((transpose S512x1 [1, 0] · transposes_S1x512_S512x1_1_0) : (⟨S1x512, .f32⟩ : BufTy).Contents (Elt F) → (⟨S512x1, .f32⟩ : BufTy).Contents (Elt F)),
    binary main_v112 main_v113 main_v114 ((fun l r => Host.dotGeneral dot_S20000x512_S512x1_S20000x1_1_0_0_1_n_n none l r) : (⟨S20000x512, .f32⟩ : BufTy).Contents (Elt F) → (⟨S512x1, .f32⟩ : BufTy).Contents (Elt F) → (⟨S20000x1, .f32⟩ : BufTy).Contents (Elt F)),
    unary main_arg24 main_v115 (broadcastInDim S1x1 ![1] bcast_S1_S1x1_1 : (⟨S1, .f32⟩ : BufTy).Contents (Elt F) → (⟨S1x1, .f32⟩ : BufTy).Contents (Elt F)),
    unary main_v115 main_v116 (broadcastInDim S20000x1 ![0, 1] bcast_S1x1_S20000x1_0_1 : (⟨S1x1, .f32⟩ : BufTy).Contents (Elt F) → (⟨S20000x1, .f32⟩ : BufTy).Contents (Elt F)),
    binary main_v114 main_v116 main_v117 (addf : (⟨S20000x1, .f32⟩ : BufTy).Contents (Elt F) → (⟨S20000x1, .f32⟩ : BufTy).Contents (Elt F) → (⟨S20000x1, .f32⟩ : BufTy).Contents (Elt F)),
    reshape main_v117 main_v118 rfl shapeCasts_S20000x1_S20000 ]

/-- @main's 149 operations, in order. -/
abbrev ops : List (HloOp τ sig (Elt F)) := opsA ++ opsB ++ opsC ++ opsD

set_option maxRecDepth 8192 in
set_option maxHeartbeats 4000000 in
/-- @main is that line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of the two end to end. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.1 hx with h | h
  · exact h₁ x h
  · exact h₂ x h

/-! ## Every operation touches TensorCore buffers only -/

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..⟩
set_option maxRecDepth 8192 in
theorem opsB_sub : (opsB : List (HloOp τ sig (Elt F))).Forall fun op => op.bufs ⊆ tcRefs τ sig :=
  ⟨nary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩
set_option maxRecDepth 8192 in
theorem opsC_sub : (opsC : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩
set_option maxRecDepth 8192 in
theorem opsD_sub : (opsD : List (HloOp τ sig (Elt F))).Forall fun op => op.bufs ⊆ tcRefs τ sig :=
  ⟨nary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., reshape_bufs_sub ..⟩

theorem ops_sub : (ops : List (HloOp τ sig (Elt F))).Forall fun op => op.bufs ⊆ tcRefs τ sig :=
  forall_append (forall_append (forall_append opsA_sub opsB_sub) opsC_sub) opsD_sub

/-! ## What each stretch writes, and what it therefore keeps -/

/-- A single buffer is among a list's buffers when its reference is in the list. -/
theorem single_sub_of_mem {W : List (Ref sig .tc)} {y : Ref sig .tc} (h : y ∈ W) :
    ({Proc.devRef .tc y} : Finset (DevRef τ sig)) ⊆ (W.map (Proc.devRef (τ := τ) .tc)).toFinset := by
  rw [Finset.singleton_subset_iff, List.mem_toFinset]
  exact List.mem_map.2 ⟨y, h, rfl⟩

local macro "w!" : term => `(single_sub_of_mem (by decide))

/-- The references stretch A writes. -/
abbrev wrA : List (Ref sig .tc) :=
  [main_v0, main_v1, main_v2, main_v3, main_v4, main_v5, main_v6, main_v7, main_v8, main_c,
    main_v9, main_v10, main_c_0, main_v11, main_v12, main_v13, main_v14, main_v15, main_c_1, main_v16,
    main_v17, main_c_2, main_v18, main_v19, main_v20, main_v21, main_v22, main_c_3, main_v23, main_v24,
    main_c_4, main_v25, main_v26, main_v27, main_v28, main_v29, main_c_5, main_v30, main_v31, main_c_6,
    main_v32, main_v33, main_v34, main_v35, main_v36]
set_option maxRecDepth 8192 in
theorem opsA_writes : (opsA : List (HloOp τ sig (Elt F))).Forall fun op =>
    op.writes ⊆ (wrA.map (Proc.devRef (τ := τ) .tc)).toFinset :=
  ⟨w!, w!, w!, w!, w!, w!, w!, w!, w!, w!, w!, w!,
    w!, w!, w!, w!, w!, w!, w!, w!, w!, w!, w!, w!,
    w!, w!, w!, w!, w!, w!, w!, w!, w!, w!, w!, w!,
    w!, w!, w!, w!, w!, w!, w!, w!, w!⟩
/-- A reference stretch A does not write keeps its contents over it. -/
theorem keepA (W : Valuation τ sig (Elt F)) {r : Ref sig .tc} (hr : r ∉ wrA) :
    after opsA W (Proc.devRef .tc r) = W (Proc.devRef .tc r) :=
  after_of_writes_sub opsA W opsA_writes hr

/-- The references stretch B writes. -/
abbrev wrB : List (Ref sig .tc) :=
  [main_v37, main_v38, main_v39, main_v40, main_v41, main_v42, main_call0_cst, main_call0_v0, main_v43, main_v44,
    main_v45, main_v46, main_v47, main_v48, main_call1_cst, main_call1_v0, main_v49, main_v50, main_v51, main_v52,
    main_v53, main_v54, main_call2_cst, main_call2_v0, main_v55, main_v56, main_v57, main_v58, main_v59, main_v60,
    main_call3_cst, main_call3_v0, main_v61, main_v62, main_v63, main_v64, main_v65, main_v66, main_c_7, main_v67,
    main_v68, main_c_8, main_v69, main_v70, main_v71, main_v72, main_v73]
set_option maxRecDepth 8192 in
theorem opsB_writes : (opsB : List (HloOp τ sig (Elt F))).Forall fun op =>
    op.writes ⊆ (wrB.map (Proc.devRef (τ := τ) .tc)).toFinset :=
  ⟨w!, w!, w!, w!, w!, w!, w!, w!, w!, w!, w!, w!,
    w!, w!, w!, w!, w!, w!, w!, w!, w!, w!, w!, w!,
    w!, w!, w!, w!, w!, w!, w!, w!, w!, w!, w!, w!,
    w!, w!, w!, w!, w!, w!, w!, w!, w!, w!, w!⟩
/-- A reference stretch B does not write keeps its contents over it. -/
theorem keepB (W : Valuation τ sig (Elt F)) {r : Ref sig .tc} (hr : r ∉ wrB) :
    after opsB W (Proc.devRef .tc r) = W (Proc.devRef .tc r) :=
  after_of_writes_sub opsB W opsB_writes hr

/-- The references stretch C writes. -/
abbrev wrC : List (Ref sig .tc) :=
  [main_v74, main_v75, main_v76, main_v77, main_v78, main_v79, main_call4_cst, main_call4_v0, main_v80, main_v81,
    main_v82, main_v83, main_v84, main_v85, main_call5_cst, main_call5_v0, main_v86, main_cst, main_v87, main_v88,
    main_v89, main_cst_9, main_v90, main_cst_10, main_v91, main_v92, main_v93, main_cst_11, main_v94, main_v95,
    main_v96, main_v97, main_v98, main_c_12, main_v99, main_v100, main_c_13, main_v101, main_v102, main_v103,
    main_v104, main_v105]
set_option maxRecDepth 8192 in
theorem opsC_writes : (opsC : List (HloOp τ sig (Elt F))).Forall fun op =>
    op.writes ⊆ (wrC.map (Proc.devRef (τ := τ) .tc)).toFinset :=
  ⟨w!, w!, w!, w!, w!, w!, w!, w!, w!, w!, w!, w!,
    w!, w!, w!, w!, w!, w!, w!, w!, w!, w!, w!, w!,
    w!, w!, w!, w!, w!, w!, w!, w!, w!, w!, w!, w!,
    w!, w!, w!, w!, w!, w!⟩
/-- A reference stretch C does not write keeps its contents over it. -/
theorem keepC (W : Valuation τ sig (Elt F)) {r : Ref sig .tc} (hr : r ∉ wrC) :
    after opsC W (Proc.devRef .tc r) = W (Proc.devRef .tc r) :=
  after_of_writes_sub opsC W opsC_writes hr

/-- The references stretch D writes. -/
abbrev wrD : List (Ref sig .tc) :=
  [main_v106, main_v107, main_v108, main_v109, main_v110, main_v111, main_call6_cst, main_call6_v0, main_v112, main_v113,
    main_v114, main_v115, main_v116, main_v117, main_v118]
set_option maxRecDepth 8192 in
theorem opsD_writes : (opsD : List (HloOp τ sig (Elt F))).Forall fun op =>
    op.writes ⊆ (wrD.map (Proc.devRef (τ := τ) .tc)).toFinset :=
  ⟨w!, w!, w!, w!, w!, w!, w!, w!, w!, w!, w!, w!,
    w!, w!, w!⟩
/-- A reference stretch D does not write keeps its contents over it. -/
theorem keepD (W : Valuation τ sig (Elt F)) {r : Ref sig .tc} (hr : r ∉ wrD) :
    after opsD W (Proc.devRef .tc r) = W (Proc.devRef .tc r) :=
  after_of_writes_sub opsD W opsD_writes hr

/-! ## The stretches' values

`V0` is the contents at launch; `𝐚k` is argument k's. A stretch is run from any contents `W` that still hold
the arguments (`AtArgs`). -/

/-- The 25 argument references. -/
abbrev argRefs : List (Ref sig .tc) :=
  [main_arg0, main_arg1, main_arg2, main_arg3, main_arg4, main_arg5, main_arg6, main_arg7, main_arg8, main_arg9,
    main_arg10, main_arg11, main_arg12, main_arg13, main_arg14, main_arg15, main_arg16, main_arg17, main_arg18, main_arg19,
    main_arg20, main_arg21, main_arg22, main_arg23, main_arg24]

/-- The contents `W` hold every argument as `V0` does. -/
def AtArgs (V0 W : Valuation τ sig (Elt F)) : Prop :=
  ∀ r ∈ argRefs, W (Proc.devRef .tc r) = V0 (Proc.devRef .tc r)

theorem AtArgs.refl (V0 : Valuation τ sig (Elt F)) : AtArgs V0 V0 := fun _ _ => rfl

theorem AtArgs.afterA {V0 W : Valuation τ sig (Elt F)} (h : AtArgs V0 W) : AtArgs V0 (after opsA W) :=
  fun r hr => (keepA W (List.forall_iff_forall_mem.1 (by decide : argRefs.Forall fun r => r ∉ wrA) r hr)).trans (h r hr)
theorem AtArgs.afterB {V0 W : Valuation τ sig (Elt F)} (h : AtArgs V0 W) : AtArgs V0 (after opsB W) :=
  fun r hr => (keepB W (List.forall_iff_forall_mem.1 (by decide : argRefs.Forall fun r => r ∉ wrB) r hr)).trans (h r hr)
theorem AtArgs.afterC {V0 W : Valuation τ sig (Elt F)} (h : AtArgs V0 W) : AtArgs V0 (after opsC W) :=
  fun r hr => (keepC W (List.forall_iff_forall_mem.1 (by decide : argRefs.Forall fun r => r ∉ wrC) r hr)).trans (h r hr)
theorem AtArgs.afterD {V0 W : Valuation τ sig (Elt F)} (h : AtArgs V0 W) : AtArgs V0 (after opsD W) :=
  fun r hr => (keepD W (List.forall_iff_forall_mem.1 (by decide : argRefs.Forall fun r => r ∉ wrD) r hr)).trans (h r hr)

/-- One simplifier pass over a stretch: the fold unrolled, each operation's result at its own buffer rewritten to its
    function's value and at any other reference to what was there. -/
local macro "stretch_simp" : tactic =>
  `(tactic| (simp (disch := decide) only [after_cons, after_nil,
      nullary_result', unary_result', binary_result', ternary_result', reshape_result', nary4_result', nary3_result',
      nullary_result_ne', unary_result_ne', binary_result_ne', ternary_result_ne', reshape_result_ne', nary_result_ne']))

section Values

variable (V0 : Valuation τ sig (Elt F))

set_option quotPrecheck false

local notation "𝐚0" => V0 (Proc.devRef .tc main_arg0)
local notation "𝐚1" => V0 (Proc.devRef .tc main_arg1)
local notation "𝐚2" => V0 (Proc.devRef .tc main_arg2)
local notation "𝐚3" => V0 (Proc.devRef .tc main_arg3)
local notation "𝐚4" => V0 (Proc.devRef .tc main_arg4)
local notation "𝐚5" => V0 (Proc.devRef .tc main_arg5)
local notation "𝐚6" => V0 (Proc.devRef .tc main_arg6)
local notation "𝐚7" => V0 (Proc.devRef .tc main_arg7)
local notation "𝐚8" => V0 (Proc.devRef .tc main_arg8)
local notation "𝐚9" => V0 (Proc.devRef .tc main_arg9)
local notation "𝐚10" => V0 (Proc.devRef .tc main_arg10)
local notation "𝐚11" => V0 (Proc.devRef .tc main_arg11)
local notation "𝐚12" => V0 (Proc.devRef .tc main_arg12)
local notation "𝐚13" => V0 (Proc.devRef .tc main_arg13)
local notation "𝐚14" => V0 (Proc.devRef .tc main_arg14)
local notation "𝐚15" => V0 (Proc.devRef .tc main_arg15)
local notation "𝐚16" => V0 (Proc.devRef .tc main_arg16)
local notation "𝐚17" => V0 (Proc.devRef .tc main_arg17)
local notation "𝐚18" => V0 (Proc.devRef .tc main_arg18)
local notation "𝐚19" => V0 (Proc.devRef .tc main_arg19)
local notation "𝐚20" => V0 (Proc.devRef .tc main_arg20)
local notation "𝐚21" => V0 (Proc.devRef .tc main_arg21)
local notation "𝐚22" => V0 (Proc.devRef .tc main_arg22)
local notation "𝐚23" => V0 (Proc.devRef .tc main_arg23)
local notation "𝐚24" => V0 (Proc.devRef .tc main_arg24)
/-! ### Stretch A -/

theorem A_v1 (W : Valuation τ sig (Elt F)) (hA : AtArgs V0 W) :
    after opsA W (Proc.devRef .tc main_v1) = val_main_v1 (F := F) 𝐚1 := by
  have e1 := hA main_arg1 (by decide)
  stretch_simp
  rw [e1]
  rfl

theorem A_v3 (W : Valuation τ sig (Elt F)) (hA : AtArgs V0 W) :
    after opsA W (Proc.devRef .tc main_v3) = val_main_v3 (F := F) 𝐚1 := by
  have e1 := hA main_arg1 (by decide)
  stretch_simp
  rw [e1]
  rfl

theorem A_v8 (W : Valuation τ sig (Elt F)) (hA : AtArgs V0 W) :
    after opsA W (Proc.devRef .tc main_v8) = val_main_v8 (F := F) 𝐚3 𝐚5 𝐚6 := by
  have e3 := hA main_arg3 (by decide)
  have e5 := hA main_arg5 (by decide)
  have e6 := hA main_arg6 (by decide)
  stretch_simp
  rw [e3, e5, e6]
  rfl

theorem A_v22 (W : Valuation τ sig (Elt F)) (hA : AtArgs V0 W) :
    after opsA W (Proc.devRef .tc main_v22) = val_main_v22 (F := F) 𝐚0 𝐚1 := by
  have e0 := hA main_arg0 (by decide)
  have e1 := hA main_arg1 (by decide)
  stretch_simp
  rw [e0, e1]
  rfl

theorem A_v29 (W : Valuation τ sig (Elt F)) (hA : AtArgs V0 W) :
    after opsA W (Proc.devRef .tc main_v29) = val_main_v29 (F := F) 𝐚0 𝐚1 := by
  have e0 := hA main_arg0 (by decide)
  have e1 := hA main_arg1 (by decide)
  stretch_simp
  rw [e0, e1]
  rfl

theorem A_v36 (W : Valuation τ sig (Elt F)) (hA : AtArgs V0 W) :
    after opsA W (Proc.devRef .tc main_v36) = val_main_v36 (F := F) 𝐚1 𝐚3 𝐚4 𝐚5 𝐚6 := by
  have e1 := hA main_arg1 (by decide)
  have e3 := hA main_arg3 (by decide)
  have e4 := hA main_arg4 (by decide)
  have e5 := hA main_arg5 (by decide)
  have e6 := hA main_arg6 (by decide)
  stretch_simp
  rw [e1, e3, e4, e5, e6]
  rfl

/-! ### Stretch B -/

theorem B_v66 (W : Valuation τ sig (Elt F)) (hA : AtArgs V0 W)
    (h22 : W (Proc.devRef .tc main_v22) = val_main_v22 (F := F) 𝐚0 𝐚1)
    (h29 : W (Proc.devRef .tc main_v29) = val_main_v29 (F := F) 𝐚0 𝐚1)
    (h36 : W (Proc.devRef .tc main_v36) = val_main_v36 (F := F) 𝐚1 𝐚3 𝐚4 𝐚5 𝐚6) :
    after opsB W (Proc.devRef .tc main_v66) = val_main_v66 (F := F) 𝐚0 𝐚1 𝐚2 𝐚3 𝐚4 𝐚5 𝐚6 𝐚7 𝐚8 𝐚9 𝐚10 𝐚11 𝐚12 𝐚13 𝐚14 𝐚15 𝐚16 := by
  have e2 := hA main_arg2 (by decide)
  have e7 := hA main_arg7 (by decide)
  have e8 := hA main_arg8 (by decide)
  have e9 := hA main_arg9 (by decide)
  have e10 := hA main_arg10 (by decide)
  have e11 := hA main_arg11 (by decide)
  have e12 := hA main_arg12 (by decide)
  have e13 := hA main_arg13 (by decide)
  have e14 := hA main_arg14 (by decide)
  have e15 := hA main_arg15 (by decide)
  have e16 := hA main_arg16 (by decide)
  stretch_simp
  rw [h22, h29, h36, e2, e7, e8, e9, e10, e11, e12, e13, e14, e15, e16]
  rfl

theorem B_v73 (W : Valuation τ sig (Elt F)) (hA : AtArgs V0 W)
    (h3 : W (Proc.devRef .tc main_v3) = val_main_v3 (F := F) 𝐚1) :
    after opsB W (Proc.devRef .tc main_v73) = val_main_v73 (F := F) 𝐚0 𝐚1 := by
  have e0 := hA main_arg0 (by decide)
  stretch_simp
  rw [h3, e0]
  rfl

/-! ### Stretch C -/

theorem C_v98 (W : Valuation τ sig (Elt F)) (hA : AtArgs V0 W)
    (h73 : W (Proc.devRef .tc main_v73) = val_main_v73 (F := F) 𝐚0 𝐚1)
    (h66 : W (Proc.devRef .tc main_v66) = val_main_v66 (F := F) 𝐚0 𝐚1 𝐚2 𝐚3 𝐚4 𝐚5 𝐚6 𝐚7 𝐚8 𝐚9 𝐚10 𝐚11 𝐚12 𝐚13 𝐚14 𝐚15 𝐚16)
    (h1 : W (Proc.devRef .tc main_v1) = val_main_v1 (F := F) 𝐚1) :
    after opsC W (Proc.devRef .tc main_v98) = val_main_v98 (F := F) 𝐚0 𝐚1 𝐚2 𝐚3 𝐚4 𝐚5 𝐚6 𝐚7 𝐚8 𝐚9 𝐚10 𝐚11 𝐚12 𝐚13 𝐚14 𝐚15 𝐚16 𝐚17 𝐚18 𝐚19 𝐚20 := by
  have e17 := hA main_arg17 (by decide)
  have e18 := hA main_arg18 (by decide)
  have e19 := hA main_arg19 (by decide)
  have e20 := hA main_arg20 (by decide)
  stretch_simp
  rw [h73, h66, h1, e17, e18, e19, e20]
  rfl

theorem C_v105 (W : Valuation τ sig (Elt F)) (hA : AtArgs V0 W)
    (h8 : W (Proc.devRef .tc main_v8) = val_main_v8 (F := F) 𝐚3 𝐚5 𝐚6) :
    after opsC W (Proc.devRef .tc main_v105) = val_main_v105 (F := F) 𝐚3 𝐚4 𝐚5 𝐚6 := by
  have e4 := hA main_arg4 (by decide)
  stretch_simp
  rw [h8, e4]
  rfl

/-! ### Stretch D -/

theorem D_v118 (W : Valuation τ sig (Elt F)) (hA : AtArgs V0 W)
    (h98 : W (Proc.devRef .tc main_v98) = val_main_v98 (F := F) 𝐚0 𝐚1 𝐚2 𝐚3 𝐚4 𝐚5 𝐚6 𝐚7 𝐚8 𝐚9 𝐚10 𝐚11 𝐚12 𝐚13 𝐚14 𝐚15 𝐚16 𝐚17 𝐚18 𝐚19 𝐚20)
    (h105 : W (Proc.devRef .tc main_v105) = val_main_v105 (F := F) 𝐚3 𝐚4 𝐚5 𝐚6) :
    after opsD W (Proc.devRef .tc main_v118) = val_main_v118 (F := F) 𝐚0 𝐚1 𝐚2 𝐚3 𝐚4 𝐚5 𝐚6 𝐚7 𝐚8 𝐚9 𝐚10 𝐚11 𝐚12 𝐚13 𝐚14 𝐚15 𝐚16 𝐚17 𝐚18 𝐚19 𝐚20 𝐚21 𝐚22 𝐚23 𝐚24 := by
  have e0 := hA main_arg0 (by decide)
  have e21 := hA main_arg21 (by decide)
  have e22 := hA main_arg22 (by decide)
  have e23 := hA main_arg23 (by decide)
  have e24 := hA main_arg24 (by decide)
  stretch_simp
  rw [h98, h105, e0, e21, e22, e23, e24]
  rfl

end Values

/-! ## The whole line -/

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V = after opsD (after opsC (after opsB (after opsA V))) := by
  show after (opsA ++ opsB ++ opsC ++ opsD) V = _
  rw [after_app, after_app, after_app]

/-- The result buffer after the whole line: the last stage function of the arguments. -/
theorem result_eq (V0 : Valuation τ sig (Elt F)) :
    after ops V0 (Proc.devRef .tc main_v118)
      = val_main_v118 (F := F) (V0 (Proc.devRef .tc main_arg0))
          (V0 (Proc.devRef .tc main_arg1))
          (V0 (Proc.devRef .tc main_arg2))
          (V0 (Proc.devRef .tc main_arg3))
          (V0 (Proc.devRef .tc main_arg4))
          (V0 (Proc.devRef .tc main_arg5))
          (V0 (Proc.devRef .tc main_arg6))
          (V0 (Proc.devRef .tc main_arg7))
          (V0 (Proc.devRef .tc main_arg8))
          (V0 (Proc.devRef .tc main_arg9))
          (V0 (Proc.devRef .tc main_arg10))
          (V0 (Proc.devRef .tc main_arg11))
          (V0 (Proc.devRef .tc main_arg12))
          (V0 (Proc.devRef .tc main_arg13))
          (V0 (Proc.devRef .tc main_arg14))
          (V0 (Proc.devRef .tc main_arg15))
          (V0 (Proc.devRef .tc main_arg16))
          (V0 (Proc.devRef .tc main_arg17))
          (V0 (Proc.devRef .tc main_arg18))
          (V0 (Proc.devRef .tc main_arg19))
          (V0 (Proc.devRef .tc main_arg20))
          (V0 (Proc.devRef .tc main_arg21))
          (V0 (Proc.devRef .tc main_arg22))
          (V0 (Proc.devRef .tc main_arg23))
          (V0 (Proc.devRef .tc main_arg24)) := by
  have h0 : AtArgs V0 V0 := AtArgs.refl V0
  have h1 : AtArgs V0 (after opsA V0) := h0.afterA
  have h2 : AtArgs V0 (after opsB (after opsA V0)) := h1.afterB
  have h3 : AtArgs V0 (after opsC (after opsB (after opsA V0))) := h2.afterC
  rw [after_ops]
  refine D_v118 V0 _ h3 ?_ ?_
  · refine C_v98 V0 _ h2 (B_v73 V0 _ h1 (A_v3 V0 V0 h0))
      (B_v66 V0 _ h1 (A_v22 V0 V0 h0) (A_v29 V0 V0 h0) (A_v36 V0 V0 h0)) ?_
    exact (keepB _ (by decide)).trans (A_v1 V0 V0 h0)
  · exact C_v105 V0 _ h2 ((keepB _ (by decide)).trans (A_v8 V0 V0 h0))

/-- An argument's buffer after the whole line: unchanged. -/
theorem arg_kept (V0 : Valuation τ sig (Elt F)) {r : Ref sig .tc} (hr : r ∈ argRefs) :
    after ops V0 (Proc.devRef .tc r) = V0 (Proc.devRef .tc r) := by
  rw [after_ops]
  exact (AtArgs.refl V0).afterA.afterB.afterC.afterD r hr

/-! ## The run -/

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩
theorem opsD_fresh : (opsD : List (HloOp τ sig (Elt F))).Forall fun op => op.fresh = ∅ :=
  ⟨rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.1 (forall_append (forall_append (forall_append opsA_fresh opsB_fresh) opsC_fresh) opsD_fresh)

/-- On every device, for any float values, from any memory with zero counters: every weakly fair execution of @main
    terminates with the result at the last stage function of the arguments and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v118) = Cert.ReferenceIdeal.ReadP.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v118).trans (result_eq (launchContents m c)),
      (h c main_arg0).trans (arg_kept (launchContents m c) (by decide)),
      (h c main_arg1).trans (arg_kept (launchContents m c) (by decide)),
      (h c main_arg2).trans (arg_kept (launchContents m c) (by decide)),
      (h c main_arg3).trans (arg_kept (launchContents m c) (by decide)),
      (h c main_arg4).trans (arg_kept (launchContents m c) (by decide)),
      (h c main_arg5).trans (arg_kept (launchContents m c) (by decide)),
      (h c main_arg6).trans (arg_kept (launchContents m c) (by decide)),
      (h c main_arg7).trans (arg_kept (launchContents m c) (by decide)),
      (h c main_arg8).trans (arg_kept (launchContents m c) (by decide)),
      (h c main_arg9).trans (arg_kept (launchContents m c) (by decide)),
      (h c main_arg10).trans (arg_kept (launchContents m c) (by decide)),
      (h c main_arg11).trans (arg_kept (launchContents m c) (by decide)),
      (h c main_arg12).trans (arg_kept (launchContents m c) (by decide)),
      (h c main_arg13).trans (arg_kept (launchContents m c) (by decide)),
      (h c main_arg14).trans (arg_kept (launchContents m c) (by decide)),
      (h c main_arg15).trans (arg_kept (launchContents m c) (by decide)),
      (h c main_arg16).trans (arg_kept (launchContents m c) (by decide)),
      (h c main_arg17).trans (arg_kept (launchContents m c) (by decide)),
      (h c main_arg18).trans (arg_kept (launchContents m c) (by decide)),
      (h c main_arg19).trans (arg_kept (launchContents m c) (by decide)),
      (h c main_arg20).trans (arg_kept (launchContents m c) (by decide)),
      (h c main_arg21).trans (arg_kept (launchContents m c) (by decide)),
      (h c main_arg22).trans (arg_kept (launchContents m c) (by decide)),
      (h c main_arg23).trans (arg_kept (launchContents m c) (by decide)),
      (h c main_arg24).trans (arg_kept (launchContents m c) (by decide))⟩)
    (run_seq scopedRefs_eq scopedSems_eq defs main (fun _ => ops) main_eq (fun _ => ops_sub) m ρ (fun _ => ops_fresh))

/-- The run, with the result named by the last stage function. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v118) = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  run_any m ρ

end Cert.ReferenceIdeal.ValueP

end
-- ==== Proof.PreRange.lean ====
/-
  What the precondition says of the graph numbers: every entry of the node-to-graph vector, read as a signed integer,
  is at least 0 and less than 16.

  The predicate is one long conjunction, a scalar bit: one "all entries pass" test per input, and-ed together from the
  left. Its last two conjuncts are the tests on the graph numbers (each at least 0; each below 16). A conjunction that is
  true has both its sides true, so peeling it from the outside reaches those two without looking at the earlier ones;
  an "all entries pass" that is true says each entry's comparison bit is set; and a set comparison bit says the signed
  comparison of the two words holds. The bounds compared against are the constants 0 and 16 spread over the node axis.
-/
import proofs.«425427_j50422916055679_1_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

set_option maxRecDepth 16384

noncomputable section

open Idealize.ShloMosaic Idealize.ShloMosaic.ValueIdx

namespace Cert.Pre_finite_inputs.Range

open Cert.Pre_finite_inputs

section Blocks

variable [hPre_finite_inputs : Cert.Pre_finite_inputs.Facts]
open Cert.Pre_finite_inputs.Facts

/-- The scalar shape has exactly one index. -/
instance scalarIdxSubsingleton : Subsingleton S_.Idx := ⟨fun a b => funext fun d => d.elim0⟩

/-- A scalar constant spread over the node axis reads that constant at every node. -/
theorem spread_const (w : BitVec 32) (n : Fin 20000) :
    broadcastInDim S20000 ![] bcast_S_S20000 (constantI S_ 32 w) (ix1 n) = w :=
  StableHlo.Predicate.bcast_scalar bcast_S_S20000 h_S_ (constantI S_ 32 w) (ix1 n)

/-- The last block of the predicate: if it comes out true, the conjunction so far was true and every graph number is
    below its bound, both read signed. -/
theorem part7_read (a : IVec S20000 32) (c : IVec S_ 1) (b : IVec S20000 32)
    (h : fn_part7 (F := Ideal) a c b ix0 = 1#1) (n : Fin 20000) :
    c ix0 = 1#1 ∧ (a (ix1 n)).toInt < (b (ix1 n)).toInt := by
  have h' : IntOp.andi (c ix0)
      (Host.reduce IntOp.andi (cmpi .slt a b) (constantI S_ 1 1#1) reducesTo_S20000_S_d0 h_S_ ix0) = 1#1 := h
  obtain ⟨hc, hr⟩ := IntOp.andi_eq_one.1 h'
  have hn := Host.reduce_andi_all _ _ _ _ _ hr (ix1 n)
  exact ⟨hc, IntOp.cmpi_slt.1 hn⟩

/-- The block before it: if the predicate comes out true from there on, every graph number is at least 0 and below 16,
    read signed. The lower bound is the last conjunct this block adds, the upper bound the one the last block adds. -/
theorem part6_read (a : IVec S20000 32) (p : FVec Ideal S1x512 .f32) (q : FVec Ideal S1 .f32)
    (c : IVec S_ 1) (d : IVec S512 1) (e : IVec S_ 1)
    (h : fn_part6 (F := Ideal) a p q c d e ix0 = 1#1) (n : Fin 20000) :
    0 ≤ (a (ix1 n)).toInt ∧ (a (ix1 n)).toInt < 16 := by
  obtain ⟨h117, hlt⟩ := part7_read _ _ _ h n
  rw [spread_const] at hlt
  have h117' : IntOp.andi _
      (Host.reduce IntOp.andi
        (cmpi .sge a (broadcastInDim S20000 ![] bcast_S_S20000 (constantI S_ 32 0#32)))
        (constantI S_ 1 1#1) reducesTo_S20000_S_d0 h_S_ ix0) = 1#1 := h117
  have hr := (IntOp.andi_eq_one.1 h117').2
  have hn := Host.reduce_andi_all _ _ _ _ _ hr (ix1 n)
  have hge := IntOp.cmpi_sge.1 hn
  rw [spread_const] at hge
  exact ⟨hge, hlt⟩

end Blocks

/-- Under the precondition every graph number is in [0, 16). -/
theorem batch_range [hPre_finite_inputs : Cert.Pre_finite_inputs.Facts] (x0 : FVec Ideal S20000x9 .f32) (x1 : IVec S2x100000 32) (x2 : FVec Ideal S100000x1 .f32) (x3 : FVec Ideal S16x4096 .f32) (x4 : IVec S20000 32) (x5 : FVec Ideal S256x4096 .f32) (x6 : FVec Ideal S256 .f32) (x7 : FVec Ideal S1024x275 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S512x1024 .f32) (x16 : FVec Ideal S512 .f32) (x17 : FVec Ideal S512x521 .f32) (x18 : FVec Ideal S512 .f32) (x19 : FVec Ideal S512x512 .f32) (x20 : FVec Ideal S512 .f32) (x21 : FVec Ideal S512x777 .f32) (x22 : FVec Ideal S512 .f32) (x23 : FVec Ideal S1x512 .f32) (x24 : FVec Ideal S1 .f32)
    (h : Cert.Pre_finite_inputs.fn (F := Ideal) x0 x1 x2 x3 x4 x5 x6 x7 x8 x9 x10 x11 x12 x13 x14 x15 x16 x17 x18 x19 x20 x21 x22 x23 x24 = fun _ => 1#1) (n : Fin 20000) :
    0 ≤ (x4 (ix1 n)).toInt ∧ (x4 (ix1 n)).toInt < 16 := by
  have e : Cert.Pre_finite_inputs.fn (F := Ideal) x0 x1 x2 x3 x4 x5 x6 x7 x8 x9 x10 x11 x12 x13 x14 x15 x16 x17 x18 x19 x20 x21 x22 x23 x24 ix0 = 1#1 := congrFun h ix0
  exact part6_read x4 x23 x24 _ _ _ e n

end Cert.Pre_finite_inputs.Range

end
-- ==== Proof.LibConcatRows.lean ====
/-
  Rows placed end to end, and the concatenation of two, three or four matrices along their column axis read at one
  element: row e, column k of the joined matrix is column k of the joined rows e of the pieces.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.LibConcatRows

variable {α : Type}

/-- Two rows end to end. -/
def catRow2 {A B : ℕ} (a : Fin A → α) (b : Fin B → α) : Fin (A + B) → α := fun k =>
  if h : k.val < A then a ⟨k.val, h⟩ else b ⟨k.val - A, by have := k.isLt; omega⟩

/-- Three rows end to end. -/
def catRow3 {A B C : ℕ} (a : Fin A → α) (b : Fin B → α) (c : Fin C → α) : Fin (A + B + C) → α := fun k =>
  if h : k.val < A then a ⟨k.val, h⟩
  else if h2 : k.val < A + B then b ⟨k.val - A, by omega⟩
  else c ⟨k.val - (A + B), by have := k.isLt; omega⟩

/-- Four rows end to end. -/
def catRow4 {A B C D : ℕ} (a : Fin A → α) (b : Fin B → α) (c : Fin C → α) (d : Fin D → α) :
    Fin (A + B + C + D) → α := fun k =>
  if h : k.val < A then a ⟨k.val, h⟩
  else if h2 : k.val < A + B then b ⟨k.val - A, by omega⟩
  else if h3 : k.val < A + B + C then c ⟨k.val - (A + B), by omega⟩
  else d ⟨k.val - (A + B + C), by have := k.isLt; omega⟩

/-- The joined matrix read at row e and a column k lying in piece number p (which starts at column `pre`): piece p at
    row e and column k - pre, written as a column q of the piece with pre + q = k. -/
theorem concat_rows_piece {M N W : ℕ} (xs : List ((s : Shape) × (s.Idx → α)))
    (h : Shape.Concatenates (xs.map (·.1)) ⟨2, ![M, N]⟩ (1 : Fin 2))
    (p : ℕ) (hp : p < xs.length) (x : (⟨2, ![M, W]⟩ : Shape).Idx → α) (hx : xs[p] = ⟨⟨2, ![M, W]⟩, x⟩)
    (pre : ℕ)
    (hpre : (((xs.take p).map (·.1)).map fun s : Shape =>
      if h : s.rank = (⟨2, ![M, N]⟩ : Shape).rank then s.size ((1 : Fin 2).cast h.symm) else 0).sum = pre)
    (e : Fin M) (k : Fin N) (q : Fin W) (hq : pre + q.val = k.val) :
    concatenate (⟨2, ![M, N]⟩ : Shape) (1 : Fin 2) xs h (ix2 e k) = x (ix2 e q) := by
  refine concatenate_apply_piece (t := ⟨2, ![M, N]⟩) (1 : Fin 2) xs h (ix2 e k) p hp _ x hx rfl pre hpre (ix2 e q) ?_ ?_
  · intro b hb
    match b with
    | ⟨0, _⟩ => rfl
    | ⟨1, _⟩ => exact absurd rfl hb
  · exact hq

/-- Two matrices joined along the columns, at row e and column k. -/
theorem concat2_rows {M A B : ℕ} (xa : (⟨2, ![M, A]⟩ : Shape).Idx → α) (xb : (⟨2, ![M, B]⟩ : Shape).Idx → α)
    (h : Shape.Concatenates (([⟨⟨2, ![M, A]⟩, xa⟩, ⟨⟨2, ![M, B]⟩, xb⟩] : List ((s : Shape) × (s.Idx → α))).map (·.1))
      ⟨2, ![M, A + B]⟩ (1 : Fin 2))
    (e : Fin M) (k : Fin (A + B)) :
    concatenate (⟨2, ![M, A + B]⟩ : Shape) (1 : Fin 2) [⟨⟨2, ![M, A]⟩, xa⟩, ⟨⟨2, ![M, B]⟩, xb⟩] h (ix2 e k)
      = catRow2 (fun i => xa (ix2 e i)) (fun i => xb (ix2 e i)) k := by
  unfold catRow2
  split_ifs with h1
  · exact concat_rows_piece _ h 0 (by simp) xa rfl 0 (by simp) e k ⟨k.val, h1⟩ (by simp)
  · exact concat_rows_piece _ h 1 (by simp) xb rfl A (by simp) e k ⟨k.val - A, by have := k.isLt; omega⟩
      (by simp only; omega)

/-- Three matrices joined along the columns, at row e and column k. -/
theorem concat3_rows {M A B C : ℕ} (xa : (⟨2, ![M, A]⟩ : Shape).Idx → α) (xb : (⟨2, ![M, B]⟩ : Shape).Idx → α)
    (xc : (⟨2, ![M, C]⟩ : Shape).Idx → α)
    (h : Shape.Concatenates (([⟨⟨2, ![M, A]⟩, xa⟩, ⟨⟨2, ![M, B]⟩, xb⟩, ⟨⟨2, ![M, C]⟩, xc⟩] : List ((s : Shape) × (s.Idx → α))).map (·.1))
      ⟨2, ![M, A + B + C]⟩ (1 : Fin 2))
    (e : Fin M) (k : Fin (A + B + C)) :
    concatenate (⟨2, ![M, A + B + C]⟩ : Shape) (1 : Fin 2) [⟨⟨2, ![M, A]⟩, xa⟩, ⟨⟨2, ![M, B]⟩, xb⟩, ⟨⟨2, ![M, C]⟩, xc⟩] h (ix2 e k)
      = catRow3 (fun i => xa (ix2 e i)) (fun i => xb (ix2 e i)) (fun i => xc (ix2 e i)) k := by
  unfold catRow3
  split_ifs with h1 h2
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k
      ⟨k.val - (A + B), by have := k.isLt; omega⟩ (by simp only; omega)

/-- Four matrices joined along the columns, at row e and column k. -/
theorem concat4_rows {M A B C D : ℕ} (xa : (⟨2, ![M, A]⟩ : Shape).Idx → α) (xb : (⟨2, ![M, B]⟩ : Shape).Idx → α)
    (xc : (⟨2, ![M, C]⟩ : Shape).Idx → α) (xd : (⟨2, ![M, D]⟩ : Shape).Idx → α)
    (h : Shape.Concatenates (([⟨⟨2, ![M, A]⟩, xa⟩, ⟨⟨2, ![M, B]⟩, xb⟩, ⟨⟨2, ![M, C]⟩, xc⟩, ⟨⟨2, ![M, D]⟩, xd⟩] : List ((s : Shape) × (s.Idx → α))).map (·.1))
      ⟨2, ![M, A + B + C + D]⟩ (1 : Fin 2))
    (e : Fin M) (k : Fin (A + B + C + D)) :
    concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h (ix2 e k)
      = catRow4 (fun i => xa (ix2 e i)) (fun i => xb (ix2 e i)) (fun i => xc (ix2 e i)) (fun i => xd (ix2 e i)) k := by
  unfold catRow4
  split_ifs with h1 h2 h3
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k ⟨k.val - (A + B), by omega⟩
      (by simp only; omega)
  · exact concat_rows_piece _ h 3 (by simp) xd rfl (A + B + C) (by simp [Nat.add_assoc]) e k
      ⟨k.val - (A + B + C), by have := k.isLt; omega⟩ (by simp only; omega)

end Cert.LibConcatRows

end
-- ==== Proof.Spec.lean ====
/-
  The two row functions of the message-passing layer, on extended reals.

  An edge's 512 features: the 275 numbers (source row, destination row, edge attribute, reduced global row of the
  edge's graph) go through five affine maps, the first four followed by max(·, 0); the result, placed after the
  destination row, goes through two more affine maps, each followed by max(·, 0).
  A node's output: its row, its aggregated edge features and the reduced global row of its graph go through an affine
  map, max(·, 0), and a last affine map to one number.
  A row of a 16-row table chosen by a word is written as the sum over the table's rows of (1 if the word names that row,
  else 0) times the row: when the word names one of the 16 rows the sum is that row.
-/
import Idealize.ShloMosaic.PureOps.Ideal
import Idealize.ShloMosaic.Lib.ValueIdx
import proofs.«425427_j50422916055679_1_alg».proof.Proof.LibConcatRows

noncomputable section

open Idealize.ShloMosaic Idealize.ShloMosaic.ValueIdx

namespace Cert.Spec

/-- j ↦ Σ_k v_k · W_{k j} + b_j. -/
def affine {K N : ℕ} (v : Fin K → EReal) (W : Fin K → Fin N → EReal) (b : Fin N → EReal) : Fin N → EReal :=
  fun j => (∑ k : Fin K, v k * W k j) + b j

/-- j ↦ max(v_j, 0). -/
def relu {N : ℕ} (v : Fin N → EReal) : Fin N → EReal := fun j => max (v j) 0

/-- Two rows end to end. -/
abbrev cat2 {A B : ℕ} (a : Fin A → EReal) (b : Fin B → EReal) : Fin (A + B) → EReal := Cert.LibConcatRows.catRow2 a b

/-- Three rows end to end. -/
abbrev cat3 {A B C : ℕ} (a : Fin A → EReal) (b : Fin B → EReal) (c : Fin C → EReal) : Fin (A + B + C) → EReal :=
  Cert.LibConcatRows.catRow3 a b c

/-- Four rows end to end. -/
abbrev cat4 {A B C D : ℕ} (a : Fin A → EReal) (b : Fin B → EReal) (c : Fin C → EReal) (d : Fin D → EReal) :
    Fin (A + B + C + D) → EReal := Cert.LibConcatRows.catRow4 a b c d

/-- The row of a 16-row table that the word b names, as a sum of indicator-weighted rows. -/
def onehotRow (b : BitVec 32) (U : Fin 16 → Fin 256 → EReal) : Fin 256 → EReal :=
  fun j => ∑ g : Fin 16, (if b = BitVec.ofNat 32 g.val then (1 : EReal) else 0) * U g j

/-- A matrix given on index pairs, as a function of its two coordinates. -/
def mat {K N : ℕ} (W : (⟨2, ![K, N]⟩ : Shape).Idx → EReal) : Fin K → Fin N → EReal := fun k n => W (ix2 k n)

/-- Row e of a matrix. -/
def rowOf {M N : ℕ} (X : (⟨2, ![M, N]⟩ : Shape).Idx → EReal) (e : Fin M) : Fin N → EReal := fun i => X (ix2 e i)

/-- A function of a row number and a column number as a matrix on index pairs. -/
def arr2 {M N : ℕ} (f : Fin M → Fin N → EReal) : (⟨2, ![M, N]⟩ : Shape).Idx → EReal := fun i => f (i 0) (i 1)

theorem arr2_ix2 {M N : ℕ} (f : Fin M → Fin N → EReal) (e : Fin M) (j : Fin N) : arr2 f (ix2 e j) = f e j := rfl

/-- A rank-1 array as a function of its coordinate. -/
def vec1 {N : ℕ} (b : (⟨1, ![N]⟩ : Shape).Idx → EReal) : Fin N → EReal := fun n => b (ix1 n)

/-- The weights (already transposed: input coordinate first) and biases of the edge network and of the first node network. -/
structure EdgeParams where
  W0 : Fin 275 → Fin 1024 → EReal
  b0 : Fin 1024 → EReal
  W1 : Fin 1024 → Fin 1024 → EReal
  b1 : Fin 1024 → EReal
  W2 : Fin 1024 → Fin 1024 → EReal
  b2 : Fin 1024 → EReal
  W3 : Fin 1024 → Fin 1024 → EReal
  b3 : Fin 1024 → EReal
  W4 : Fin 1024 → Fin 512 → EReal
  b4 : Fin 512 → EReal
  Wn0 : Fin 521 → Fin 512 → EReal
  bn0 : Fin 512 → EReal
  Wn1 : Fin 512 → Fin 512 → EReal
  bn1 : Fin 512 → EReal

/-- An edge's 512 features from its source row, destination row, attribute and reduced global row. -/
def edgeRow (P : EdgeParams) (xr xc : Fin 9 → EReal) (ea : Fin 1 → EReal) (ue : Fin 256 → EReal) : Fin 512 → EReal :=
  relu (affine (relu (affine (cat2 xc
    (affine (relu (affine (relu (affine (relu (affine (relu (affine (cat4 xr xc ea ue) P.W0 P.b0)) P.W1 P.b1)) P.W2 P.b2)) P.W3 P.b3)) P.W4 P.b4))
    P.Wn0 P.bn0)) P.Wn1 P.bn1)

/-- The weights (transposed) and biases of the second node network. -/
structure NodeParams where
  Wm0 : Fin 777 → Fin 512 → EReal
  bm0 : Fin 512 → EReal
  Wm1 : Fin 512 → Fin 1 → EReal
  bm1 : Fin 1 → EReal

/-- A node's output from its row, its aggregated edge features and its graph's reduced global row. -/
def nodeRow (Q : NodeParams) (x : Fin 9 → EReal) (agg : Fin 512 → EReal) (ub : Fin 256 → EReal) : Fin 1 → EReal :=
  affine (relu (affine (cat3 x agg ub) Q.Wm0 Q.bm0)) Q.Wm1 Q.bm1

end Cert.Spec

end
-- ==== Proof.RefAgg.lean ====
/-
  The scatter mean as one function of the per-edge feature matrix and the edge list: the per-edge rows summed into
  their source nodes' rows, divided row by row by the larger of the node's edge count and one.
-/
import proofs.«425427_j50422916055679_1_alg».proof.Proof.RefRead

set_option maxRecDepth 16384

noncomputable section

open Idealize.ShloMosaic Idealize.ShloMosaic.ValueIdx

namespace Cert.ReferenceIdeal.RefAgg

open Cert.ReferenceIdeal Cert.ReferenceIdeal.ReadP

/-- The per-node mean of the rows H of the edges leaving each node (edge list x1), an empty node's row being zero. -/
def agg (H : FVec Ideal S100000x512 .f32) (x1 : IVec S2x100000 32) : FVec Ideal S20000x512 .f32 :=
  Host.divf (F := Ideal) (Host.scatterAdd (F := Ideal) scatter_S20000x512_S100000x1_S100000x512_1_0_0_1 (val_main_v87 (F := Ideal)) (val_main_v88 (F := Ideal) x1) H)
    (val_main_v97 (F := Ideal) x1)

/-- The reference's aggregated features are that mean of its per-edge features. -/
theorem v98_eq (x0 : (⟨S20000x9, .f32⟩ : BufTy).Contents (Elt Ideal)) (x1 : (⟨S2x100000, .i32⟩ : BufTy).Contents (Elt Ideal)) (x2 : (⟨S100000x1, .f32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal)) (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) :
    val_main_v98 (F := Ideal) x0 x1 x2 x3 x4 x5 x6 x7 x8 x9 x10 x11 x12 x13 x14 x15 x16 x17 x18 x19 x20 = agg (val_main_v86 (F := Ideal) x0 x1 x2 x3 x4 x5 x6 x7 x8 x9 x10 x11 x12 x13 x14 x15 x16 x17 x18 x19 x20) x1 := rfl

end Cert.ReferenceIdeal.RefAgg

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.RefEdge.lean ====
/-
  The reference's per-edge features read at one element: row e, column j is the edge row function of row e of the
  gathered source rows, gathered destination rows, edge attributes and gathered reduced global rows.
-/
import proofs.«425427_j50422916055679_1_alg».proof.Proof.RefRead
import proofs.«425427_j50422916055679_1_alg».proof.Proof.Spec
import proofs.«425427_j50422916055679_1_alg».proof.Proof.LibConcatRows
import proofs.«425427_j50422916055679_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx Cert.Spec

namespace Cert.ReferenceIdeal.RefEdge

open Cert.ReferenceIdeal Cert.ReferenceIdeal.ReadP

/-- The edge network's parameters as the reference reads them: each weight matrix transposed, each bias as it is. -/
def params (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) : EdgeParams where
  W0 := mat (val_main_v38 (F := Ideal) x7)
  b0 := vec1 x8
  W1 := mat (val_main_v44 (F := Ideal) x9)
  b1 := vec1 x10
  W2 := mat (val_main_v50 (F := Ideal) x11)
  b2 := vec1 x12
  W3 := mat (val_main_v56 (F := Ideal) x13)
  b3 := vec1 x14
  W4 := mat (val_main_v62 (F := Ideal) x15)
  b4 := vec1 x16
  Wn0 := mat (val_main_v75 (F := Ideal) x17)
  bn0 := vec1 x18
  Wn1 := mat (val_main_v81 (F := Ideal) x19)
  bn1 := vec1 x20

/-- One coordinate of a rectified affine map: max(s + c, z) where s is the row-times-column sum, c the bias entry, z zero. -/
theorem relu_affine_at {K N : ℕ} (v : Fin K → EReal) (W : Fin K → Fin N → EReal) (b : Fin N → EReal) (j : Fin N)
    (s c z : EReal) (hs : s = ∑ k : Fin K, v k * W k j) (hc : c = b j) (hz : z = 0) :
    max (s + c) z = relu (affine v W b) j := by
  subst hs hc hz
  rfl

/-- One coordinate of an affine map: s + c where s is the row-times-column sum and c the bias entry. -/
theorem affine_at {K N : ℕ} (v : Fin K → EReal) (W : Fin K → Fin N → EReal) (b : Fin N → EReal) (j : Fin N)
    (s c : EReal) (hs : s = ∑ k : Fin K, v k * W k j) (hc : c = b j) :
    s + c = affine v W b j := by
  subst hs hc
  rfl

section Layers

variable
  (x0 : (⟨S20000x9, .f32⟩ : BufTy).Contents (Elt Ideal))
  (x1 : (⟨S2x100000, .i32⟩ : BufTy).Contents (Elt Ideal))
  (x2 : (⟨S100000x1, .f32⟩ : BufTy).Contents (Elt Ideal))
  (x3 : (⟨S16x4096, .f32⟩ : BufTy).Contents (Elt Ideal))
  (x4 : (⟨S20000, .i32⟩ : BufTy).Contents (Elt Ideal))
  (x5 : (⟨S256x4096, .f32⟩ : BufTy).Contents (Elt Ideal))
  (x6 : (⟨S256, .f32⟩ : BufTy).Contents (Elt Ideal))
  (x7 : (⟨S1024x275, .f32⟩ : BufTy).Contents (Elt Ideal))
  (x8 : (⟨S1024, .f32⟩ : BufTy).Contents (Elt Ideal))
  (x9 : (⟨S1024x1024, .f32⟩ : BufTy).Contents (Elt Ideal))
  (x10 : (⟨S1024, .f32⟩ : BufTy).Contents (Elt Ideal))
  (x11 : (⟨S1024x1024, .f32⟩ : BufTy).Contents (Elt Ideal))
  (x12 : (⟨S1024, .f32⟩ : BufTy).Contents (Elt Ideal))
  (x13 : (⟨S1024x1024, .f32⟩ : BufTy).Contents (Elt Ideal))
  (x14 : (⟨S1024, .f32⟩ : BufTy).Contents (Elt Ideal))
  (x15 : (⟨S512x1024, .f32⟩ : BufTy).Contents (Elt Ideal))
  (x16 : (⟨S512, .f32⟩ : BufTy).Contents (Elt Ideal))
  (x17 : (⟨S512x521, .f32⟩ : BufTy).Contents (Elt Ideal))
  (x18 : (⟨S512, .f32⟩ : BufTy).Contents (Elt Ideal))
  (x19 : (⟨S512x512, .f32⟩ : BufTy).Contents (Elt Ideal))
  (x20 : (⟨S512, .f32⟩ : BufTy).Contents (Elt Ideal))

/-- Row e of the first concatenation: source row, destination row, attribute and reduced global row end to end. -/
theorem v37_row (e : Fin 100000) :
    rowOf (val_main_v37 (F := Ideal) x0 x1 x2 x3 x4 x5 x6) e
      = cat4 (rowOf (val_main_v22 (F := Ideal) x0 x1) e) (rowOf (val_main_v29 (F := Ideal) x0 x1) e) (rowOf x2 e)
          (rowOf (val_main_v36 (F := Ideal) x1 x3 x4 x5 x6) e) := by
  funext k
  exact Cert.LibConcatRows.concat4_rows (M := 100000) (A := 9) (B := 9) (C := 1) (D := 256)
    (val_main_v22 (F := Ideal) x0 x1) (val_main_v29 (F := Ideal) x0 x1) x2 (val_main_v36 (F := Ideal) x1 x3 x4 x5 x6)
    Gen.concatenates_S100000x9_S100000x9_S100000x1_S100000x256_S100000x275_d1 e k

/-- The destination rows are gathered twice by the same operations on the same operands. -/
theorem v73_eq : val_main_v73 (F := Ideal) x0 x1 = val_main_v29 (F := Ideal) x0 x1 := rfl

/-- Row e of the second concatenation: destination row, then row e of stage 66. -/
theorem v74_row (e : Fin 100000) :
    rowOf (val_main_v74 (F := Ideal) x0 x1 x2 x3 x4 x5 x6 x7 x8 x9 x10 x11 x12 x13 x14 x15 x16) e
      = cat2 (rowOf (val_main_v29 (F := Ideal) x0 x1) e) (rowOf (val_main_v66 (F := Ideal) x0 x1 x2 x3 x4 x5 x6 x7 x8 x9 x10 x11 x12 x13 x14 x15 x16) e) := by
  funext k
  rw [← v73_eq x0 x1]
  exact Cert.LibConcatRows.concat2_rows (M := 100000) (A := 9) (B := 512)
    (val_main_v73 (F := Ideal) x0 x1) (val_main_v66 (F := Ideal) x0 x1 x2 x3 x4 x5 x6 x7 x8 x9 x10 x11 x12 x13 x14 x15 x16)
    Gen.concatenates_S100000x9_S100000x512_S100000x521_d1 e k

/-- Row e of stage 43: the affine map with the transposed weight x7 and bias x8 applied to row e of stage 37, then max(·, 0). -/
theorem v43_row (e : Fin 100000) :
    rowOf (val_main_v43 (F := Ideal) x0 x1 x2 x3 x4 x5 x6 x7 x8) e
      = relu (affine (rowOf (val_main_v37 (F := Ideal) x0 x1 x2 x3 x4 x5 x6) e) (mat (val_main_v38 (F := Ideal) x7)) (vec1 x8)) := by
  funext j
  show val_main_v43 (F := Ideal) x0 x1 x2 x3 x4 x5 x6 x7 x8 (ix2 e j) = _
  rw [val_main_v43_apply, val_main_v42_apply, val_main_v39_apply, val_main_v41_apply, val_main_v40_apply, val_main_call0_v0_apply, val_main_call0_cst_apply]
  refine relu_affine_at _ _ _ j _ _ _ ?_ ?_ Ideal.ofBits_zero_f32
  · refine Finset.sum_congr rfl fun k _ => ?_
    have hl : lidx_main_v39 (ix2 e j) k = ix2 e k := funext fun a => match a with
      | ⟨0, _⟩ => rfl
      | ⟨1, _⟩ => rfl
    have hr : ridx_main_v39 (ix2 e j) k = ix2 k j := funext fun a => match a with
      | ⟨0, _⟩ => rfl
      | ⟨1, _⟩ => rfl
    rw [hl, hr]
    rfl
  · exact congrArg x8 (funext fun a => match a with
      | ⟨0, _⟩ => rfl)

/-- Row e of stage 49: the affine map with the transposed weight x9 and bias x10 applied to row e of stage 43, then max(·, 0). -/
theorem v49_row (e : Fin 100000) :
    rowOf (val_main_v49 (F := Ideal) x0 x1 x2 x3 x4 x5 x6 x7 x8 x9 x10) e
      = relu (affine (rowOf (val_main_v43 (F := Ideal) x0 x1 x2 x3 x4 x5 x6 x7 x8) e) (mat (val_main_v44 (F := Ideal) x9)) (vec1 x10)) := by
  funext j
  show val_main_v49 (F := Ideal) x0 x1 x2 x3 x4 x5 x6 x7 x8 x9 x10 (ix2 e j) = _
  rw [val_main_v49_apply, val_main_v48_apply, val_main_v45_apply, val_main_v47_apply, val_main_v46_apply, val_main_call1_v0_apply, val_main_call1_cst_apply]
  refine relu_affine_at _ _ _ j _ _ _ ?_ ?_ Ideal.ofBits_zero_f32
  · refine Finset.sum_congr rfl fun k _ => ?_
    have hl : lidx_main_v45 (ix2 e j) k = ix2 e k := funext fun a => match a with
      | ⟨0, _⟩ => rfl
      | ⟨1, _⟩ => rfl
    have hr : ridx_main_v45 (ix2 e j) k = ix2 k j := funext fun a => match a with
      | ⟨0, _⟩ => rfl
      | ⟨1, _⟩ => rfl
    rw [hl, hr]
    rfl
  · exact congrArg x10 (funext fun a => match a with
      | ⟨0, _⟩ => rfl)

/-- Row e of stage 55: the affine map with the transposed weight x11 and bias x12 applied to row e of stage 49, then max(·, 0). -/
theorem v55_row (e : Fin 100000) :
    rowOf (val_main_v55 (F := Ideal) x0 x1 x2 x3 x4 x5 x6 x7 x8 x9 x10 x11 x12) e
      = relu (affine (rowOf (val_main_v49 (F := Ideal) x0 x1 x2 x3 x4 x5 x6 x7 x8 x9 x10) e) (mat (val_main_v50 (F := Ideal) x11)) (vec1 x12)) := by
  funext j
  show val_main_v55 (F := Ideal) x0 x1 x2 x3 x4 x5 x6 x7 x8 x9 x10 x11 x12 (ix2 e j) = _
  rw [val_main_v55_apply, val_main_v54_apply, val_main_v51_apply, val_main_v53_apply, val_main_v52_apply, val_main_call2_v0_apply, val_main_call2_cst_apply]
  refine relu_affine_at _ _ _ j _ _ _ ?_ ?_ Ideal.ofBits_zero_f32
  · refine Finset.sum_congr rfl fun k _ => ?_
    have hl : lidx_main_v51 (ix2 e j) k = ix2 e k := funext fun a => match a with
      | ⟨0, _⟩ => rfl
      | ⟨1, _⟩ => rfl
    have hr : ridx_main_v51 (ix2 e j) k = ix2 k j := funext fun a => match a with
      | ⟨0, _⟩ => rfl
      | ⟨1, _⟩ => rfl
    rw [hl, hr]
    rfl
  · exact congrArg x12 (funext fun a => match a with
      | ⟨0, _⟩ => rfl)

/-- Row e of stage 61: the affine map with the transposed weight x13 and bias x14 applied to row e of stage 55, then max(·, 0). -/
theorem v61_row (e : Fin 100000) :
    rowOf (val_main_v61 (F := Ideal) x0 x1 x2 x3 x4 x5 x6 x7 x8 x9 x10 x11 x12 x13 x14) e
      = relu (affine (rowOf (val_main_v55 (F := Ideal) x0 x1 x2 x3 x4 x5 x6 x7 x8 x9 x10 x11 x12) e) (mat (val_main_v56 (F := Ideal) x13)) (vec1 x14)) := by
  funext j
  show val_main_v61 (F := Ideal) x0 x1 x2 x3 x4 x5 x6 x7 x8 x9 x10 x11 x12 x13 x14 (ix2 e j) = _
  rw [val_main_v61_apply, val_main_v60_apply, val_main_v57_apply, val_main_v59_apply, val_main_v58_apply, val_main_call3_v0_apply, val_main_call3_cst_apply]
  refine relu_affine_at _ _ _ j _ _ _ ?_ ?_ Ideal.ofBits_zero_f32
  · refine Finset.sum_congr rfl fun k _ => ?_
    have hl : lidx_main_v57 (ix2 e j) k = ix2 e k := funext fun a => match a with
      | ⟨0, _⟩ => rfl
      | ⟨1, _⟩ => rfl
    have hr : ridx_main_v57 (ix2 e j) k = ix2 k j := funext fun a => match a with
      | ⟨0, _⟩ => rfl
      | ⟨1, _⟩ => rfl
    rw [hl, hr]
    rfl
  · exact congrArg x14 (funext fun a => match a with
      | ⟨0, _⟩ => rfl)

/-- Row e of stage 66: the affine map with the transposed weight x15 and bias x16 applied to row e of stage 61. -/
theorem v66_row (e : Fin 100000) :
    rowOf (val_main_v66 (F := Ideal) x0 x1 x2 x3 x4 x5 x6 x7 x8 x9 x10 x11 x12 x13 x14 x15 x16) e
      = affine (rowOf (val_main_v61 (F := Ideal) x0 x1 x2 x3 x4 x5 x6 x7 x8 x9 x10 x11 x12 x13 x14) e) (mat (val_main_v62 (F := Ideal) x15)) (vec1 x16) := by
  funext j
  show val_main_v66 (F := Ideal) x0 x1 x2 x3 x4 x5 x6 x7 x8 x9 x10 x11 x12 x13 x14 x15 x16 (ix2 e j) = _
  rw [val_main_v66_apply, val_main_v63_apply, val_main_v65_apply, val_main_v64_apply]
  refine affine_at _ _ _ j _ _ ?_ ?_
  · refine Finset.sum_congr rfl fun k _ => ?_
    have hl : lidx_main_v63 (ix2 e j) k = ix2 e k := funext fun a => match a with
      | ⟨0, _⟩ => rfl
      | ⟨1, _⟩ => rfl
    have hr : ridx_main_v63 (ix2 e j) k = ix2 k j := funext fun a => match a with
      | ⟨0, _⟩ => rfl
      | ⟨1, _⟩ => rfl
    rw [hl, hr]
    rfl
  · exact congrArg x16 (funext fun a => match a with
      | ⟨0, _⟩ => rfl)

/-- Row e of stage 80: the affine map with the transposed weight x17 and bias x18 applied to row e of stage 74, then max(·, 0). -/
theorem v80_row (e : Fin 100000) :
    rowOf (val_main_v80 (F := Ideal) x0 x1 x2 x3 x4 x5 x6 x7 x8 x9 x10 x11 x12 x13 x14 x15 x16 x17 x18) e
      = relu (affine (rowOf (val_main_v74 (F := Ideal) x0 x1 x2 x3 x4 x5 x6 x7 x8 x9 x10 x11 x12 x13 x14 x15 x16) e) (mat (val_main_v75 (F := Ideal) x17)) (vec1 x18)) := by
  funext j
  show val_main_v80 (F := Ideal) x0 x1 x2 x3 x4 x5 x6 x7 x8 x9 x10 x11 x12 x13 x14 x15 x16 x17 x18 (ix2 e j) = _
  rw [val_main_v80_apply, val_main_v79_apply, val_main_v76_apply, val_main_v78_apply, val_main_v77_apply, val_main_call4_v0_apply, val_main_call4_cst_apply]
  refine relu_affine_at _ _ _ j _ _ _ ?_ ?_ Ideal.ofBits_zero_f32
  · refine Finset.sum_congr rfl fun k _ => ?_
    have hl : lidx_main_v76 (ix2 e j) k = ix2 e k := funext fun a => match a with
      | ⟨0, _⟩ => rfl
      | ⟨1, _⟩ => rfl
    have hr : ridx_main_v76 (ix2 e j) k = ix2 k j := funext fun a => match a with
      | ⟨0, _⟩ => rfl
      | ⟨1, _⟩ => rfl
    rw [hl, hr]
    rfl
  · exact congrArg x18 (funext fun a => match a with
      | ⟨0, _⟩ => rfl)

/-- Row e of stage 86: the affine map with the transposed weight x19 and bias x20 applied to row e of stage 80, then max(·, 0). -/
theorem v86_row (e : Fin 100000) :
    rowOf (val_main_v86 (F := Ideal) x0 x1 x2 x3 x4 x5 x6 x7 x8 x9 x10 x11 x12 x13 x14 x15 x16 x17 x18 x19 x20) e
      = relu (affine (rowOf (val_main_v80 (F := Ideal) x0 x1 x2 x3 x4 x5 x6 x7 x8 x9 x10 x11 x12 x13 x14 x15 x16 x17 x18) e) (mat (val_main_v81 (F := Ideal) x19)) (vec1 x20)) := by
  funext j
  show val_main_v86 (F := Ideal) x0 x1 x2 x3 x4 x5 x6 x7 x8 x9 x10 x11 x12 x13 x14 x15 x16 x17 x18 x19 x20 (ix2 e j) = _
  rw [val_main_v86_apply, val_main_v85_apply, val_main_v82_apply, val_main_v84_apply, val_main_v83_apply, val_main_call5_v0_apply, val_main_call5_cst_apply]
  refine relu_affine_at _ _ _ j _ _ _ ?_ ?_ Ideal.ofBits_zero_f32
  · refine Finset.sum_congr rfl fun k _ => ?_
    have hl : lidx_main_v82 (ix2 e j) k = ix2 e k := funext fun a => match a with
      | ⟨0, _⟩ => rfl
      | ⟨1, _⟩ => rfl
    have hr : ridx_main_v82 (ix2 e j) k = ix2 k j := funext fun a => match a with
      | ⟨0, _⟩ => rfl
      | ⟨1, _⟩ => rfl
    rw [hl, hr]
    rfl
  · exact congrArg x20 (funext fun a => match a with
      | ⟨0, _⟩ => rfl)

end Layers

/-- Row e, column j of the reference's per-edge features. -/
theorem h_apply (x0 : (⟨S20000x9, .f32⟩ : BufTy).Contents (Elt Ideal)) (x1 : (⟨S2x100000, .i32⟩ : BufTy).Contents (Elt Ideal)) (x2 : (⟨S100000x1, .f32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal)) (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (e : Fin 100000) (j : Fin 512) :
    val_main_v86 (F := Ideal) x0 x1 x2 x3 x4 x5 x6 x7 x8 x9 x10 x11 x12 x13 x14 x15 x16 x17 x18 x19 x20 (ix2 e j)
      = edgeRow (params x7 x8 x9 x10 x11 x12 x13 x14 x15 x16 x17 x18 x19 x20)
          (rowOf (val_main_v22 (F := Ideal) x0 x1) e) (rowOf (val_main_v29 (F := Ideal) x0 x1) e) (rowOf x2 e)
          (rowOf (val_main_v36 (F := Ideal) x1 x3 x4 x5 x6) e) j := by
  show rowOf (val_main_v86 (F := Ideal) x0 x1 x2 x3 x4 x5 x6 x7 x8 x9 x10 x11 x12 x13 x14 x15 x16 x17 x18 x19 x20) e j = _
  rw [v86_row, v80_row, v74_row, v66_row, v61_row, v55_row, v49_row, v43_row, v37_row]
  rfl

end Cert.ReferenceIdeal.RefEdge

end
-- ==== Proof.RefNode.lean ====
/-
  The reference's output read at one element: row n is the node row function of node n's row, its aggregated edge
  features and the gathered reduced global row of its graph.
-/
import proofs.«425427_j50422916055679_1_alg».proof.Proof.RefRead
import proofs.«425427_j50422916055679_1_alg».proof.Proof.Spec
import proofs.«425427_j50422916055679_1_alg».proof.Proof.LibConcatRows
import proofs.«425427_j50422916055679_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx Cert.Spec

namespace Cert.ReferenceIdeal.RefNode

open Cert.ReferenceIdeal Cert.ReferenceIdeal.ReadP

/-- The second node network's parameters as the reference reads them. -/
def params (x21 : (⟨S512x777, .f32⟩ : BufTy).Contents (Elt Ideal)) (x22 : (⟨S512, .f32⟩ : BufTy).Contents (Elt Ideal)) (x23 : (⟨S1x512, .f32⟩ : BufTy).Contents (Elt Ideal)) (x24 : (⟨S1, .f32⟩ : BufTy).Contents (Elt Ideal)) : NodeParams where
  Wm0 := mat (val_main_v107 (F := Ideal) x21)
  bm0 := vec1 x22
  Wm1 := mat (val_main_v113 (F := Ideal) x23)
  bm1 := vec1 x24

/-- One dense layer at one element: the product of the rows by the weights plus a bias matrix whose every row is the
    same bias row is the affine map of the row. -/
theorem affine_layer {M K N : ℕ} (v : FVec Ideal ⟨2, ![M, K]⟩ .f32) (W : FVec Ideal ⟨2, ![K, N]⟩ .f32)
    (b : FVec Ideal ⟨2, ![M, N]⟩ .f32) (bb : Fin N → EReal) (hb : ∀ e j, b (ix2 e j) = bb j) (e : Fin M) (j : Fin N) :
    addf (F := Ideal) (Host.dotGeneral (DotDims.plain M K N) none v W) b (ix2 e j) = affine (rowOf v e) (mat W) bb j := by
  show Host.dotGeneral (DotDims.plain M K N) none v W (ix2 e j) + b (ix2 e j) = _
  rw [Cert.LibPlainMatmul.dotGeneral_plain_apply, hb]
  rfl

/-- The same followed by the maximum with a matrix of zeros: max(·, 0) of the affine map of the row. -/
theorem relu_layer {M K N : ℕ} (v : FVec Ideal ⟨2, ![M, K]⟩ .f32) (W : FVec Ideal ⟨2, ![K, N]⟩ .f32)
    (b z : FVec Ideal ⟨2, ![M, N]⟩ .f32) (bb : Fin N → EReal) (hb : ∀ e j, b (ix2 e j) = bb j)
    (hz : ∀ e j, z (ix2 e j) = 0) (e : Fin M) (j : Fin N) :
    maximumf (F := Ideal) (addf (F := Ideal) (Host.dotGeneral (DotDims.plain M K N) none v W) b) z (ix2 e j)
      = relu (affine (rowOf v e) (mat W) bb) j := by
  show max (Host.dotGeneral (DotDims.plain M K N) none v W (ix2 e j) + b (ix2 e j)) (z (ix2 e j)) = _
  rw [Cert.LibPlainMatmul.dotGeneral_plain_apply, hb, hz]
  rfl

/-- The first bias repeated over the 20000 rows: column k holds entry k of the bias. -/
theorem bias0_apply (x22 : (⟨S512, .f32⟩ : BufTy).Contents (Elt Ideal)) (e : Fin 20000) (k : Fin 512) :
    val_main_v110 (F := Ideal) x22 (ix2 e k) = vec1 x22 k := by
  rw [val_main_v110_apply, val_main_v109_apply]
  exact congrArg x22 (funext fun a => match a with | ⟨0, _⟩ => rfl)

/-- The matrix the first layer is compared with is zero everywhere. -/
theorem zero_apply (e : Fin 20000) (k : Fin 512) : val_main_call6_v0 (F := Ideal) (ix2 e k) = 0 := by
  rw [val_main_call6_v0_apply, val_main_call6_cst_apply]
  exact Ideal.ofBits_zero_f32

/-- The last bias repeated over the 20000 rows: the one column holds the one entry of the bias. -/
theorem bias1_apply (x24 : (⟨S1, .f32⟩ : BufTy).Contents (Elt Ideal)) (e : Fin 20000) (j : Fin 1) :
    val_main_v116 (F := Ideal) x24 (ix2 e j) = vec1 x24 j := by
  rw [val_main_v116_apply, val_main_v115_apply]
  exact congrArg x24 (funext fun a => match a with
    | ⟨0, _⟩ => Fin.ext (by have := j.isLt; show 0 = j.val; omega))

/-- Row n of the joined matrix is node n's row, then its aggregated edge features, then its graph's reduced global row. -/
theorem cat_row (x0 : (⟨S20000x9, .f32⟩ : BufTy).Contents (Elt Ideal)) (x1 : (⟨S2x100000, .i32⟩ : BufTy).Contents (Elt Ideal)) (x2 : (⟨S100000x1, .f32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal)) (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (n : Fin 20000) :
    rowOf (val_main_v106 (F := Ideal) x0 x1 x2 x3 x4 x5 x6 x7 x8 x9 x10 x11 x12 x13 x14 x15 x16 x17 x18 x19 x20) n
      = cat3 (rowOf x0 n) (rowOf (val_main_v98 (F := Ideal) x0 x1 x2 x3 x4 x5 x6 x7 x8 x9 x10 x11 x12 x13 x14 x15 x16 x17 x18 x19 x20) n) (rowOf (val_main_v105 (F := Ideal) x3 x4 x5 x6) n) := by
  funext m
  unfold val_main_v106
  exact Cert.LibConcatRows.concat3_rows (M := 20000) (A := 9) (B := 512) (C := 256) x0 _ _ _ n m

/-- The hidden layer at row n, column k. -/
theorem hidden_apply (x0 : (⟨S20000x9, .f32⟩ : BufTy).Contents (Elt Ideal)) (x1 : (⟨S2x100000, .i32⟩ : BufTy).Contents (Elt Ideal)) (x2 : (⟨S100000x1, .f32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal)) (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (x21 : (⟨S512x777, .f32⟩ : BufTy).Contents (Elt Ideal)) (x22 : (⟨S512, .f32⟩ : BufTy).Contents (Elt Ideal)) (n : Fin 20000) (k : Fin 512) :
    val_main_v112 (F := Ideal) x0 x1 x2 x3 x4 x5 x6 x7 x8 x9 x10 x11 x12 x13 x14 x15 x16 x17 x18 x19 x20 x21 x22 (ix2 n k)
      = relu (affine (cat3 (rowOf x0 n) (rowOf (val_main_v98 (F := Ideal) x0 x1 x2 x3 x4 x5 x6 x7 x8 x9 x10 x11 x12 x13 x14 x15 x16 x17 x18 x19 x20) n) (rowOf (val_main_v105 (F := Ideal) x3 x4 x5 x6) n))
          (mat (val_main_v107 (F := Ideal) x21)) (vec1 x22)) k := by
  unfold val_main_v112 val_main_v111 val_main_v108
  refine (relu_layer (M := 20000) (K := 777) (N := 512) (val_main_v106 (F := Ideal) x0 x1 x2 x3 x4 x5 x6 x7 x8 x9 x10 x11 x12 x13 x14 x15 x16 x17 x18 x19 x20) (val_main_v107 (F := Ideal) x21) _ _ (vec1 x22)
    (bias0_apply x22) zero_apply n k).trans ?_
  rw [cat_row]

/-- Row n of the reference's last matrix before it is flattened. -/
theorem out_apply (x0 : (⟨S20000x9, .f32⟩ : BufTy).Contents (Elt Ideal)) (x1 : (⟨S2x100000, .i32⟩ : BufTy).Contents (Elt Ideal)) (x2 : (⟨S100000x1, .f32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal)) (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (x21 : (⟨S512x777, .f32⟩ : BufTy).Contents (Elt Ideal)) (x22 : (⟨S512, .f32⟩ : BufTy).Contents (Elt Ideal)) (x23 : (⟨S1x512, .f32⟩ : BufTy).Contents (Elt Ideal)) (x24 : (⟨S1, .f32⟩ : BufTy).Contents (Elt Ideal)) (n : Fin 20000) (j : Fin 1) :
    val_main_v117 (F := Ideal) x0 x1 x2 x3 x4 x5 x6 x7 x8 x9 x10 x11 x12 x13 x14 x15 x16 x17 x18 x19 x20 x21 x22 x23 x24 (ix2 n j)
      = nodeRow (params x21 x22 x23 x24) (rowOf x0 n) (rowOf (val_main_v98 (F := Ideal) x0 x1 x2 x3 x4 x5 x6 x7 x8 x9 x10 x11 x12 x13 x14 x15 x16 x17 x18 x19 x20) n)
          (rowOf (val_main_v105 (F := Ideal) x3 x4 x5 x6) n) j := by
  have h : rowOf (val_main_v112 (F := Ideal) x0 x1 x2 x3 x4 x5 x6 x7 x8 x9 x10 x11 x12 x13 x14 x15 x16 x17 x18 x19 x20 x21 x22) n
      = relu (affine (cat3 (rowOf x0 n) (rowOf (val_main_v98 (F := Ideal) x0 x1 x2 x3 x4 x5 x6 x7 x8 x9 x10 x11 x12 x13 x14 x15 x16 x17 x18 x19 x20) n) (rowOf (val_main_v105 (F := Ideal) x3 x4 x5 x6) n))
          (mat (val_main_v107 (F := Ideal) x21)) (vec1 x22)) :=
    funext fun k => hidden_apply x0 x1 x2 x3 x4 x5 x6 x7 x8 x9 x10 x11 x12 x13 x14 x15 x16 x17 x18 x19 x20 x21 x22 n k
  unfold val_main_v117 val_main_v114
  refine (affine_layer (M := 20000) (K := 512) (N := 1) (val_main_v112 (F := Ideal) x0 x1 x2 x3 x4 x5 x6 x7 x8 x9 x10 x11 x12 x13 x14 x15 x16 x17 x18 x19 x20 x21 x22) (val_main_v113 (F := Ideal) x23) _ (vec1 x24)
    (bias1_apply x24) n j).trans ?_
  rw [h]
  rfl

/-- The reference's result, entry n: the flattened last matrix. -/
theorem res_apply (x0 : (⟨S20000x9, .f32⟩ : BufTy).Contents (Elt Ideal)) (x1 : (⟨S2x100000, .i32⟩ : BufTy).Contents (Elt Ideal)) (x2 : (⟨S100000x1, .f32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal)) (x7 : (⟨S1024x275, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S512x1024, .f32⟩ : BufTy).Contents (Elt Ideal)) (x16 : (⟨S512, .f32⟩ : BufTy).Contents (Elt Ideal)) (x17 : (⟨S512x521, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (x21 : (⟨S512x777, .f32⟩ : BufTy).Contents (Elt Ideal)) (x22 : (⟨S512, .f32⟩ : BufTy).Contents (Elt Ideal)) (x23 : (⟨S1x512, .f32⟩ : BufTy).Contents (Elt Ideal)) (x24 : (⟨S1, .f32⟩ : BufTy).Contents (Elt Ideal)) (n : Fin 20000) :
    val_main_v118 (F := Ideal) x0 x1 x2 x3 x4 x5 x6 x7 x8 x9 x10 x11 x12 x13 x14 x15 x16 x17 x18 x19 x20 x21 x22 x23 x24 (ix1 n) = val_main_v117 (F := Ideal) x0 x1 x2 x3 x4 x5 x6 x7 x8 x9 x10 x11 x12 x13 x14 x15 x16 x17 x18 x19 x20 x21 x22 x23 x24 (ix2 n 0) := by
  rw [val_main_v118_apply]
  exact congrArg (val_main_v117 (F := Ideal) x0 x1 x2 x3 x4 x5 x6 x7 x8 x9 x10 x11 x12 x13 x14 x15 x16 x17 x18 x19 x20 x21 x22 x23 x24) (funext fun a => match a with
    | ⟨0, _⟩ => Fin.ext (Nat.div_one _)
    | ⟨1, _⟩ => rfl)

end Cert.ReferenceIdeal.RefNode

end
-- ==== Proof.LibGatherRows2.lean ====
/-
  Two reads of a row gather of a rank-2 table at one element of its result. In the first the start indices are an
  [n × 1] table of row numbers and whole rows are taken (what table[idx] of a rank-2 table prints as): row e, column j of
  the result is the table at row e's start index, read as a signed integer and brought inside the table, at column j.
  In the second the start indices are an [n × 2] table of (row, first column) pairs and a band of C consecutive columns
  of each row is taken (what table[idx, c : c + C] prints as): row e, column j of the result is the table at the row the
  first start index names and at the column j places after the one the second start index names, each start index read
  as a signed integer and brought inside the range that keeps the band inside the table.
-/
import Idealize.ShloMosaic.PureOps.Ideal
import Idealize.ShloMosaic.Lib.ValueIdx

noncomputable section

open Idealize.ShloMosaic Idealize.ShloMosaic.ValueIdx

namespace Cert.LibGatherRows2

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The result's one batch axis is axis 0: axis 1 is the offset axis. -/
private theorem batchDims_eq {s si : Shape} {n C : Nat} (d : GatherDims s si ⟨2, ![n, C]⟩)
    (hoff : d.offsetDims = [1]) : d.batchDims = [0] := by
  show Shape.kept _ d.offsetDims = [0]
  rw [hoff]
  show (List.finRange 2).filter (fun a : Fin 2 => a ∉ ([1] : List (Fin 2))) = [0]
  decide

/-- The operand's one axis that is neither collapsed nor batching is axis 1. -/
private theorem sKept_eq {si t : Shape} {N C0 : Nat} (d : GatherDims ⟨2, ![N, C0]⟩ si t)
    (hcol : d.collapsedSliceDims = [0]) (hob : d.operandBatchingDims = []) : d.sKept = [1] := by
  show Shape.kept _ (d.collapsedSliceDims ++ d.operandBatchingDims) = [1]
  rw [hcol, hob, List.append_nil]
  show (List.finRange 2).filter (fun a : Fin 2 => a ∉ ([0] : List (Fin 2))) = ([1] : List (Fin 2))
  decide

/-- Component c of the start index of a result element is read off the start-index table at the element's row and at
    column c. -/
private theorem siIdx_eq {s : Shape} {n m C : Nat} (d : GatherDims s ⟨2, ![n, m]⟩ ⟨2, ![n, C]⟩)
    (hoff : d.offsetDims = [1]) (hiv : d.indexVectorDim = 1) (j : (⟨2, ![n, C]⟩ : Shape).Idx)
    (c : Fin d.startIndexMap.length) (k : Fin m) (hk : c.val = k.val) :
    d.siIdx j c = ix2 (j 0) k := by
  funext b
  match b with
  | ⟨0, _⟩ =>
    unfold GatherDims.siIdx
    rw [dif_neg (by rw [hiv]; simp)]
    unfold GatherDims.siCoord
    apply Fin.ext
    simp only [Fin.val_cast]
    have e : ∀ (k : Nat) (hk : k < d.batchDims.length), d.batchDims[k] = 0 :=
      fun k hk => getElem_of_eq_singleton _ _ (batchDims_eq d hoff) k hk
    rw [e]
  | ⟨1, _⟩ =>
    unfold GatherDims.siIdx
    rw [dif_pos (by rw [hiv])]
    apply Fin.ext
    show c.val = k.val
    exact hk

/-- On the row axis, which is collapsed and which component c of the start index addresses, the slice starts at that
    component, read signed and brought inside the table. -/
private theorem start_row {N C0 C n m w : Nat} (d : GatherDims ⟨2, ![N, C0]⟩ ⟨2, ![n, m]⟩ ⟨2, ![n, C]⟩)
    (hoff : d.offsetDims = [1]) (hcol : d.collapsedSliceDims = [0]) (hiv : d.indexVectorDim = 1)
    (hmem : (0 : Fin 2) ∈ d.startIndexMap) (k : Fin m) (hk : d.startIndexMap.idxOf (0 : Fin 2) = k.val)
    (idx : IVec ⟨2, ![n, m]⟩ w) (j : (⟨2, ![n, C]⟩ : Shape).Idx) :
    d.start j idx 0 = min (idx (ix2 (j 0) k)).toInt.toNat (N - 1) := by
  have hsl : d.sliceSizes 0 = 1 := d.slice_collapsed 0 (by rw [hcol]; exact List.mem_singleton.mpr rfl)
  unfold GatherDims.start
  rw [dif_pos hmem, siIdx_eq d hoff hiv j _ k hk, hsl]
  rfl

/-- On the column axis, when component c of the start index addresses it, the slice starts at that component, read
    signed and brought into the range that keeps the slice inside the table. -/
private theorem start_col {N C0 C n m w : Nat} (d : GatherDims ⟨2, ![N, C0]⟩ ⟨2, ![n, m]⟩ ⟨2, ![n, C]⟩)
    (hoff : d.offsetDims = [1]) (hiv : d.indexVectorDim = 1) (hss : d.sliceSizes = ![1, C])
    (hmem : (1 : Fin 2) ∈ d.startIndexMap) (k : Fin m) (hk : d.startIndexMap.idxOf (1 : Fin 2) = k.val)
    (idx : IVec ⟨2, ![n, m]⟩ w) (j : (⟨2, ![n, C]⟩ : Shape).Idx) :
    d.start j idx 1 = min (idx (ix2 (j 0) k)).toInt.toNat (C0 - C) := by
  have hsl : d.sliceSizes 1 = C := by rw [hss]; rfl
  unfold GatherDims.start
  rw [dif_pos hmem, siIdx_eq d hoff hiv j _ k hk, hsl]
  rfl

/-- On an axis no component of the start index addresses, the slice starts at 0. -/
private theorem start_not_mem {s si t : Shape} {w : Nat} (d : GatherDims s si t) (idx : IVec si w) (j : t.Idx)
    (b : Fin s.rank) (hb : b ∉ d.startIndexMap) : d.start j idx b = 0 := by
  unfold GatherDims.start
  rw [dif_neg hb]

/-- The collapsed row axis has no offset coordinate. -/
private theorem offCoord_row {si t : Shape} {N C0 : Nat} (d : GatherDims ⟨2, ![N, C0]⟩ si t)
    (hcol : d.collapsedSliceDims = [0]) (j : t.Idx) : d.offCoord j 0 = 0 := by
  apply d.offCoord_eq_zero
  intro h
  exact ((d.mem_sKept 0).1 h).1 (by rw [hcol]; exact List.mem_singleton.mpr rfl)

/-- The column axis's offset coordinate is the result's column. -/
private theorem offCoord_col {si : Shape} {N C0 n C : Nat} (d : GatherDims ⟨2, ![N, C0]⟩ si ⟨2, ![n, C]⟩)
    (hoff : d.offsetDims = [1]) (hcol : d.collapsedSliceDims = [0]) (hob : d.operandBatchingDims = [])
    (j : (⟨2, ![n, C]⟩ : Shape).Idx) : d.offCoord j 1 = (j 1).val := by
  have hk : (1 : Fin 2) ∈ d.sKept := by
    rw [sKept_eq d hcol hob]
    exact List.mem_singleton.mpr rfl
  unfold GatherDims.offCoord
  rw [dif_pos hk, getElem_of_eq_singleton _ _ hoff]

/-- The whole-row gather read at (e, j): the table at row e's start index, read signed and brought into [0, N - 1], at
    column j. -/
theorem gather_rows2 {α : Type} {N C n w : Nat} (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hss : d.sliceSizes = ![1, C])
    (x : (⟨2, ![N, C]⟩ : Shape).Idx → α) (idx : IVec ⟨2, ![n, 1]⟩ w) (e : Fin n) (j : Fin C) (hN : 0 < N) :
    Host.gather d x idx (ix2 e j)
      = x (ix2 (⟨min (idx (ix2 e (0 : Fin 1))).toInt.toNat (N - 1), by omega⟩ : Fin N) j) := by
  unfold Host.gather
  congr 1
  funext b
  have hb : ∀ b : Fin 2, b ∉ d.operandBatchingDims := fun b => by rw [hob]; exact List.not_mem_nil
  match b with
  | ⟨0, _⟩ =>
    apply Fin.ext
    show d.start (ix2 e j) idx 0 + d.batchCoord (ix2 e j) 0 + d.offCoord (ix2 e j) 0 = _
    rw [start_row d hoff hcol hiv (by rw [hmap]; exact List.mem_singleton.mpr rfl) (0 : Fin 1) (by rw [hmap]; rfl),
      d.batchCoord_eq_zero _ _ (hb 0), offCoord_row d hcol]
    rfl
  | ⟨1, _⟩ =>
    apply Fin.ext
    show d.start (ix2 e j) idx 1 + d.batchCoord (ix2 e j) 1 + d.offCoord (ix2 e j) 1 = _
    rw [start_not_mem d idx _ 1 (by rw [hmap]; show (1 : Fin 2) ∉ ([0] : List (Fin 2)); decide), d.batchCoord_eq_zero _ _ (hb 1), offCoord_col d hoff hcol hob]
    show 0 + 0 + j.val = j.val
    omega

/-- The band gather read at (e, j): the table at the row the first start index of row e names, brought into [0, N - 1],
    and at the column j places after the one the second start index names, brought into [0, C0 - C]. -/
theorem gather_band2 {α : Type} {N C0 C n w : Nat} (d : GatherDims ⟨2, ![N, C0]⟩ ⟨2, ![n, 2]⟩ ⟨2, ![n, C]⟩)
    (hoff : d.offsetDims = [1]) (hcol : d.collapsedSliceDims = [0]) (hob : d.operandBatchingDims = [])
    (hsb : d.startIndicesBatchingDims = []) (hmap : d.startIndexMap = [0, 1]) (hiv : d.indexVectorDim = 1)
    (hss : d.sliceSizes = ![1, C])
    (x : (⟨2, ![N, C0]⟩ : Shape).Idx → α) (idx : IVec ⟨2, ![n, 2]⟩ w) (e : Fin n) (j : Fin C) (hN : 0 < N) (hC : C ≤ C0) :
    Host.gather d x idx (ix2 e j)
      = x (ix2 (⟨min (idx (ix2 e (0 : Fin 2))).toInt.toNat (N - 1), by omega⟩ : Fin N)
          (⟨min (idx (ix2 e (1 : Fin 2))).toInt.toNat (C0 - C) + j.val, by have := j.isLt; omega⟩ : Fin C0)) := by
  unfold Host.gather
  congr 1
  funext b
  have hb : ∀ b : Fin 2, b ∉ d.operandBatchingDims := fun b => by rw [hob]; exact List.not_mem_nil
  match b with
  | ⟨0, _⟩ =>
    apply Fin.ext
    show d.start (ix2 e j) idx 0 + d.batchCoord (ix2 e j) 0 + d.offCoord (ix2 e j) 0 = _
    rw [start_row d hoff hcol hiv (by rw [hmap]; show (0 : Fin 2) ∈ ([0, 1] : List (Fin 2)); decide) (0 : Fin 2) (by rw [hmap]; rfl),
      d.batchCoord_eq_zero _ _ (hb 0), offCoord_row d hcol]
    rfl
  | ⟨1, _⟩ =>
    apply Fin.ext
    show d.start (ix2 e j) idx 1 + d.batchCoord (ix2 e j) 1 + d.offCoord (ix2 e j) 1 = _
    rw [start_col d hoff hiv hss (by rw [hmap]; show (1 : Fin 2) ∈ ([0, 1] : List (Fin 2)); decide) (1 : Fin 2) (by rw [hmap]; rfl),
      d.batchCoord_eq_zero _ _ (hb 1), offCoord_col d hoff hcol hob]
    rfl

/-- The band gather whose second start index is the zero word takes the first C columns: row e, column j of the result
    is the table at the row the first start index names, brought into [0, N - 1], at column j. -/
theorem gather_band2_zero {α : Type} {N C0 C n w : Nat} (d : GatherDims ⟨2, ![N, C0]⟩ ⟨2, ![n, 2]⟩ ⟨2, ![n, C]⟩)
    (hoff : d.offsetDims = [1]) (hcol : d.collapsedSliceDims = [0]) (hob : d.operandBatchingDims = [])
    (hsb : d.startIndicesBatchingDims = []) (hmap : d.startIndexMap = [0, 1]) (hiv : d.indexVectorDim = 1)
    (hss : d.sliceSizes = ![1, C])
    (x : (⟨2, ![N, C0]⟩ : Shape).Idx → α) (idx : IVec ⟨2, ![n, 2]⟩ w) (e : Fin n) (j : Fin C) (hN : 0 < N) (hC : C ≤ C0)
    (hz : idx (ix2 e (1 : Fin 2)) = 0#w) :
    Host.gather d x idx (ix2 e j)
      = x (ix2 (⟨min (idx (ix2 e (0 : Fin 2))).toInt.toNat (N - 1), by omega⟩ : Fin N)
          (⟨j.val, lt_of_lt_of_le j.isLt hC⟩ : Fin C0)) := by
  rw [gather_band2 d hoff hcol hob hsb hmap hiv hss x idx e j hN hC]
  congr 1
  funext b
  match b with
  | ⟨0, _⟩ => rfl
  | ⟨1, _⟩ =>
    apply Fin.ext
    show min (idx (ix2 e (1 : Fin 2))).toInt.toNat (C0 - C) + j.val = j.val
    rw [hz, BitVec.toInt_zero]
    simp

end Cert.LibGatherRows2

end
-- ==== Proof.GatherOneHot.lean ====
/-
  A row of the reduced global table chosen by a graph number: the reference takes the row by a gather (the number read
  as a signed integer, a negative one raised by 16, then brought into [0, 15]); the kernels take it as the sum over the
  table's rows of (1 if the number names the row, else 0) times the row. For a number in [0, 16) both are that row.
-/
import proofs.«425427_j50422916055679_1_alg».proof.Proof.RefRead
import proofs.«425427_j50422916055679_1_alg».proof.Proof.Spec
import proofs.«425427_j50422916055679_1_alg».proof.Proof.LibGatherRows2
import Idealize.ShloMosaic.Lib.Pipeline.Value
import Idealize.ShloMosaic.Lib.ValueIdx

set_option maxRecDepth 16384

noncomputable section

open Idealize.ShloMosaic Idealize.ShloMosaic.ValueIdx Cert.Spec

namespace Cert.ReferenceIdeal.GatherOneHot

open Cert.ReferenceIdeal Cert.ReferenceIdeal.ReadP

/-- For a word in [0, 16) the indicator-weighted sum of the table's rows is the row the word names. -/
theorem onehotRow_of_range (b : BitVec 32) (hb0 : 0 ≤ b.toInt) (hb1 : b.toInt < 16) (U : Fin 16 → Fin 256 → EReal) :
    onehotRow b U = U ⟨b.toInt.toNat, by omega⟩ := by
  funext j
  have hnat : b.toInt = (b.toNat : ℤ) := by
    rw [BitVec.toInt_eq_toNat_cond] at hb0 ⊢
    split_ifs at hb0 ⊢ with h
    · rfl
    · have := b.isLt; omega
  unfold onehotRow
  rw [Finset.sum_eq_single (⟨b.toInt.toNat, by omega⟩ : Fin 16)]
  · have hb : b = BitVec.ofNat 32 b.toInt.toNat := by
      rw [hnat, Int.toNat_natCast, BitVec.ofNat_toNat, BitVec.setWidth_eq]
    rw [if_pos hb, one_mul]
  · intro g _ hg
    have hne : ¬ b = BitVec.ofNat 32 g.val := by
      intro hbg
      apply hg
      apply Fin.ext
      have h1 : b.toNat = g.val := by
        rw [hbg, BitVec.toNat_ofNat]
        have := g.isLt
        omega
      show g.val = b.toInt.toNat
      omega
    rw [if_neg hne, zero_mul]
  · intro h
    exact absurd (Finset.mem_univ _) h

/-- The per-edge graph numbers are graph numbers of nodes: each is in [0, 16) when every node's is. -/
theorem edge_number_range (x1 : (⟨S2x100000, .i32⟩ : BufTy).Contents (Elt Ideal)) (x4 : (⟨S20000, .i32⟩ : BufTy).Contents (Elt Ideal))
    (hr : ∀ n : Fin 20000, 0 ≤ (x4 (ix1 n)).toInt ∧ (x4 (ix1 n)).toInt < 16) (e : Fin 100000) :
    0 ≤ (val_main_v15 (F := Ideal) x1 x4 (ix1 e)).toInt ∧ (val_main_v15 (F := Ideal) x1 x4 (ix1 e)).toInt < 16 := by
  unfold val_main_v15 Host.gather
  generalize gather_S20000_S100000x1_S100000_n_0_n_n_0_1_1.operandIdx (ix1 e) (val_main_v14 (F := Ideal) x1) = i
  rw [eq_ix1 i]
  exact hr (i 0)

/-- Row e of the reference's gathered reduced global rows is the indicator-weighted sum for edge e's graph number. -/
theorem edge_rows (x1 : (⟨S2x100000, .i32⟩ : BufTy).Contents (Elt Ideal)) (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal))
    (hr : ∀ n : Fin 20000, 0 ≤ (x4 (ix1 n)).toInt ∧ (x4 (ix1 n)).toInt < 16) (e : Fin 100000) :
    rowOf (val_main_v36 (F := Ideal) x1 x3 x4 x5 x6) e
      = onehotRow (val_main_v15 (F := Ideal) x1 x4 (ix1 e)) (mat (val_main_v8 (F := Ideal) x3 x5 x6)) := by
  funext j
  have hb := edge_number_range x1 x4 hr e
  have hi : idx_main_v35 (ix2 e (0 : Fin 1)) = ix1 e := funext fun a => match a with | ⟨0, _⟩ => rfl
  have hc : IntOp.cmpi .slt (val_main_v15 (F := Ideal) x1 x4 (ix1 e)) 0#32 = 0#1 := by
    have hs : BitVec.slt (val_main_v15 (F := Ideal) x1 x4 (ix1 e)) 0#32 = false := by
      rw [BitVec.slt, BitVec.toInt_zero]
      exact decide_eq_false (not_lt.mpr hb.1)
    show BitVec.ofBool (BitVec.slt (val_main_v15 (F := Ideal) x1 x4 (ix1 e)) 0#32) = 0#1
    rw [hs]
    rfl
  have h35 : val_main_v35 (F := Ideal) x1 x4 (ix2 e (0 : Fin 1)) = val_main_v15 (F := Ideal) x1 x4 (ix1 e) := by
    rw [val_main_v35_apply, hi, val_main_v34_apply, val_main_v31_apply, val_main_v30_apply, val_main_c_5_apply, hc,
      select_zero]
  rw [onehotRow_of_range _ hb.1 hb.2]
  unfold val_main_v36
  refine (Cert.LibGatherRows2.gather_rows2 gather_S16x256_S100000x1_S100000x256_1_0_n_n_0_1_1256 rfl rfl rfl rfl rfl rfl rfl
    (val_main_v8 (F := Ideal) x3 x5 x6) (val_main_v35 (F := Ideal) x1 x4) e j (by decide)).trans ?_
  refine congrArg (fun r : Fin 16 => val_main_v8 (F := Ideal) x3 x5 x6 (ix2 r j)) (Fin.ext ?_)
  show min (val_main_v35 (F := Ideal) x1 x4 (ix2 e (0 : Fin 1))).toInt.toNat (16 - 1)
    = (val_main_v15 (F := Ideal) x1 x4 (ix1 e)).toInt.toNat
  rw [h35]
  omega

/-- Row n of the reference's gathered reduced global rows for the nodes is the indicator-weighted sum for node n's graph number. -/
theorem node_rows (x3 : (⟨S16x4096, .f32⟩ : BufTy).Contents (Elt Ideal)) (x4 : (⟨S20000, .i32⟩ : BufTy).Contents (Elt Ideal)) (x5 : (⟨S256x4096, .f32⟩ : BufTy).Contents (Elt Ideal)) (x6 : (⟨S256, .f32⟩ : BufTy).Contents (Elt Ideal))
    (hr : ∀ n : Fin 20000, 0 ≤ (x4 (ix1 n)).toInt ∧ (x4 (ix1 n)).toInt < 16) (n : Fin 20000) :
    rowOf (val_main_v105 (F := Ideal) x3 x4 x5 x6) n
      = onehotRow (x4 (ix1 n)) (mat (val_main_v8 (F := Ideal) x3 x5 x6)) := by
  funext j
  have hb := hr n
  have hi : idx_main_v104 (ix2 n (0 : Fin 1)) = ix1 n := funext fun a => match a with | ⟨0, _⟩ => rfl
  have hc : IntOp.cmpi .slt (x4 (ix1 n)) 0#32 = 0#1 := by
    have hs : BitVec.slt (x4 (ix1 n)) 0#32 = false := by
      rw [BitVec.slt, BitVec.toInt_zero]
      exact decide_eq_false (not_lt.mpr hb.1)
    show BitVec.ofBool (BitVec.slt (x4 (ix1 n)) 0#32) = 0#1
    rw [hs]
    rfl
  have h104 : val_main_v104 (F := Ideal) x4 (ix2 n (0 : Fin 1)) = x4 (ix1 n) := by
    rw [val_main_v104_apply, hi, val_main_v103_apply, val_main_v100_apply, val_main_v99_apply, val_main_c_12_apply, hc,
      select_zero]
  rw [onehotRow_of_range _ hb.1 hb.2]
  unfold val_main_v105
  refine (Cert.LibGatherRows2.gather_rows2 gather_S16x256_S20000x1_S20000x256_1_0_n_n_0_1_1256 rfl rfl rfl rfl rfl rfl rfl
    (val_main_v8 (F := Ideal) x3 x5 x6) (val_main_v104 (F := Ideal) x4) n j (by decide)).trans ?_
  refine congrArg (fun r : Fin 16 => val_main_v8 (F := Ideal) x3 x5 x6 (ix2 r j)) (Fin.ext ?_)
  show min (val_main_v104 (F := Ideal) x4 (ix2 n (0 : Fin 1))).toInt.toNat (16 - 1) = (x4 (ix1 n)).toInt.toNat
  rw [h104]
  omega

end Cert.ReferenceIdeal.GatherOneHot

end
-- ==== Proof.EdgeBody.lean ====
/-
  What the edge kernel's body leaves in its output block, read at one element: row r, column j of the block is the edge
  row function of row r of the four input blocks (source rows, destination rows, edge attributes, graph numbers) at column j.
-/
import proofs.«425427_j50422916055679_1_alg».proof.Proof.Gen.KernelIdeal.Frame
import proofs.«425427_j50422916055679_1_alg».proof.Proof.Spec
import proofs.«425427_j50422916055679_1_alg».proof.Proof.LibConcatRows
import proofs.«425427_j50422916055679_1_alg».proof.Proof.LibPlainMatmul
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open Idealize.ShloMosaic Idealize.ShloMosaic.ValueIdx Cert.Spec

namespace Cert.KernelIdeal.EdgeBody

open Cert.KernelIdeal Cert.KernelIdeal.Gen

/-- The linear part of an affine map: j ↦ Σ_k v_k · W_{k j}. -/
def lin {K N : ℕ} (v : Fin K → EReal) (W : Fin K → Fin N → EReal) : Fin N → EReal :=
  fun j => ∑ k : Fin K, v k * W k j

/-- A matrix product accumulated into zero, read along row r: the linear map of the left factor's row r. -/
theorem matmul_row {M K N : ℕ} {φ : FTy} (D : DotDims ⟨2, ![M, K]⟩ ⟨2, ![K, N]⟩ ⟨2, ![M, N]⟩)
    (hD : D = DotDims.plain M K N)
    (v : FVec Ideal ⟨2, ![M, K]⟩ φ) (W : Vec Ideal ⟨2, ![K, N]⟩ .bf16)
    (hW : (⟨2, ![K, N]⟩ : Shape).ShapeCasts ⟨2, ![K, N]⟩) (r : Fin M) :
    rowOf (matmul (φ₂ := .bf16) D none v (shapeCast ⟨2, ![K, N]⟩ W hW) (constant ⟨2, ![M, N]⟩ .f32 0x00000000#32)) r
      = lin (rowOf v r) (mat W) := by
  subst hD
  funext j
  show matmul (φ₂ := .bf16) (DotDims.plain M K N) none v (shapeCast ⟨2, ![K, N]⟩ W hW) (constant ⟨2, ![M, N]⟩ .f32 0x00000000#32) (ix2 r j) = _
  rw [shapeCast_self, Cert.LibPlainMatmul.matmul_plain_apply]
  rfl

/-- A one-row matrix added to every row, read along row r. -/
theorem addbias_row {M N : ℕ} (u : FVec Ideal ⟨2, ![M, N]⟩ .f32) (b : Vec Ideal ⟨2, ![1, N]⟩ .f32)
    (hb : (⟨2, ![1, N]⟩ : Shape).ShapeCasts ⟨2, ![1, N]⟩)
    (hbr : (⟨2, ![1, N]⟩ : Shape).Broadcasts ⟨2, ![M, N]⟩) (r : Fin M) :
    rowOf (addf u (broadcastTo ⟨2, ![M, N]⟩ (shapeCast (α := Ideal .f32) ⟨2, ![1, N]⟩ b hb) hbr)) r
      = fun j => rowOf u r j + rowOf b 0 j := by
  funext j
  show addf u (broadcastTo ⟨2, ![M, N]⟩ (shapeCast (α := Ideal .f32) ⟨2, ![1, N]⟩ b hb) hbr) (ix2 r j) = _
  rw [addf_apply, shapeCast_self, broadcastTo_1b_ab_apply]
  rfl

/-- One dense layer read along row r: the affine map of the input's row r. -/
theorem dense_row {M K N : ℕ} {φ : FTy} (D : DotDims ⟨2, ![M, K]⟩ ⟨2, ![K, N]⟩ ⟨2, ![M, N]⟩)
    (hD : D = DotDims.plain M K N)
    (v : FVec Ideal ⟨2, ![M, K]⟩ φ) (W : Vec Ideal ⟨2, ![K, N]⟩ .bf16) (b : Vec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbr : (⟨2, ![1, N]⟩ : Shape).Broadcasts ⟨2, ![M, N]⟩) (r : Fin M) :
    rowOf (addf (matmul (φ₂ := .bf16) D none v (shapeCast ⟨2, ![K, N]⟩ W hW) (constant ⟨2, ![M, N]⟩ .f32 0x00000000#32))
        (broadcastTo ⟨2, ![M, N]⟩ (shapeCast (α := Ideal .f32) ⟨2, ![1, N]⟩ b hb) hbr)) r
      = affine (rowOf v r) (mat W) (rowOf b 0) := by
  rw [addbias_row, matmul_row D hD]
  rfl

/-- max(·, 0) read along row r. -/
theorem relu_row {M N : ℕ} (v : FVec Ideal ⟨2, ![M, N]⟩ .f32) (r : Fin M) :
    rowOf (maximumf v (broadcast ⟨2, ![M, N]⟩ (Scalar.ofBits (F := Ideal) .f32 0x00000000#32))) r = relu (rowOf v r) := by
  funext j
  show max (v (ix2 r j)) (Ideal.ofBits .f32 0x00000000#32) = max (v (ix2 r j)) 0
  rw [Ideal.ofBits_zero_f32]

/-- A change of number format leaves every row as it was. -/
theorem truncf_row {M N : ℕ} {φ ψ : FTy} (v : FVec Ideal ⟨2, ![M, N]⟩ φ) (h : ψ.bits < φ.bits) (r : Fin M) :
    rowOf (truncf ψ v h : FVec Ideal ⟨2, ![M, N]⟩ ψ) r = rowOf v r := rfl

/-- A cast to the same shape leaves every row as it was. -/
theorem shapeCast_row {M N : ℕ} (v : (⟨2, ![M, N]⟩ : Shape).Idx → EReal)
    (h : (⟨2, ![M, N]⟩ : Shape).ShapeCasts ⟨2, ![M, N]⟩) (r : Fin M) :
    rowOf (shapeCast ⟨2, ![M, N]⟩ v h) r = rowOf v r := by
  rw [shapeCast_self]

/-- The table product's left factor at (r, g): 1 when the word of row r names table row g, else 0. -/
theorem onehot_factor {M : ℕ} (x3 : IVec ⟨2, ![M, 1]⟩ 32)
    (hc : (⟨2, ![M, 1]⟩ : Shape).ShapeCasts ⟨2, ![M, 1]⟩)
    (hb : (⟨2, ![M, 1]⟩ : Shape).Broadcasts ⟨2, ![M, 16]⟩)
    (hi : (⟨2, ![M, 16]⟩ : Shape).Iotas .tc 32 [1]) (h1 : 1 < 32) (hlt : FTy.bits .bf16 < FTy.bits .f32)
    (r : Fin M) (g : Fin 16) :
    (truncf .bf16 (sitofp (F := Ideal) .f32 (extui 32 (cmpi .eq (broadcastTo ⟨2, ![M, 16]⟩ (shapeCast ⟨2, ![M, 1]⟩ x3 hc) hb)
        (iota .tc ⟨2, ![M, 16]⟩ 32 [1] hi)) h1)) hlt : FVec Ideal ⟨2, ![M, 16]⟩ .bf16) (ix2 r g)
      = if x3 (ix2 r 0) = BitVec.ofNat 32 g.val then (1 : EReal) else 0 := by
  have ha : broadcastTo ⟨2, ![M, 16]⟩ (shapeCast ⟨2, ![M, 1]⟩ x3 hc) hb (ix2 r g) = x3 (ix2 r 0) := by
    rw [shapeCast_self]
    refine broadcastTo_apply x3 hb (ix2 r g) (ix2 r 0) fun ax => ?_
    match ax with
    | ⟨0, _⟩ =>
      show r.val = if M = 1 then 0 else r.val
      split
      · have := r.isLt; omega
      · rfl
    | ⟨1, _⟩ => rfl
  have hi' : iota .tc ⟨2, ![M, 16]⟩ 32 [1] hi (ix2 r g) = BitVec.ofNat 32 g.val :=
    iota_single_apply .tc _ 32 1 hi (ix2 r g)
  show ((((IntOp.cmpi .eq _ _).setWidth 32).toInt : ℝ) : EReal) = _
  rw [ha, hi', toInt_setWidth_bit]
  by_cases h : x3 (ix2 r 0) = BitVec.ofNat 32 g.val
  · rw [if_pos h, h]; simp [IntOp.cmpi]
  · rw [if_neg h]; simp [IntOp.cmpi, h]

/-- The table product read along row r: the sum of the table's rows weighted by the indicators of the word of row r
    (the row that word names, when it names one). -/
theorem onehot_row {M : ℕ} (D : DotDims ⟨2, ![M, 16]⟩ ⟨2, ![16, 256]⟩ ⟨2, ![M, 256]⟩) (hD : D = DotDims.plain M 16 256)
    (x3 : IVec ⟨2, ![M, 1]⟩ 32) (x4 : Vec Ideal ⟨2, ![16, 256]⟩ .bf16)
    (hc : (⟨2, ![M, 1]⟩ : Shape).ShapeCasts ⟨2, ![M, 1]⟩)
    (hb : (⟨2, ![M, 1]⟩ : Shape).Broadcasts ⟨2, ![M, 16]⟩)
    (hi : (⟨2, ![M, 16]⟩ : Shape).Iotas .tc 32 [1]) (h1 : 1 < 32) (hlt : FTy.bits .bf16 < FTy.bits .f32)
    (hW : (⟨2, ![16, 256]⟩ : Shape).ShapeCasts ⟨2, ![16, 256]⟩) (r : Fin M) :
    rowOf (matmul (φ₂ := .bf16) D none
        (truncf .bf16 (sitofp (F := Ideal) .f32 (extui 32 (cmpi .eq (broadcastTo ⟨2, ![M, 16]⟩ (shapeCast ⟨2, ![M, 1]⟩ x3 hc) hb)
          (iota .tc ⟨2, ![M, 16]⟩ 32 [1] hi)) h1)) hlt : FVec Ideal ⟨2, ![M, 16]⟩ .bf16)
        (shapeCast ⟨2, ![16, 256]⟩ x4 hW) (constant ⟨2, ![M, 256]⟩ .f32 0x00000000#32)) r
      = onehotRow (x3 (ix2 r 0)) (mat x4) := by
  rw [matmul_row D hD]
  funext j
  refine Finset.sum_congr rfl fun g _ => ?_
  exact congrArg (· * mat x4 g j) (onehot_factor x3 hc hb hi h1 hlt r g)

/-- Four matrices side by side, read along row r: their rows r end to end. -/
theorem concat4_row {M A B C D : ℕ} (xa : (⟨2, ![M, A]⟩ : Shape).Idx → EReal) (xb : (⟨2, ![M, B]⟩ : Shape).Idx → EReal)
    (xc : (⟨2, ![M, C]⟩ : Shape).Idx → EReal) (xd : (⟨2, ![M, D]⟩ : Shape).Idx → EReal)
    (h : Shape.Concatenates (([⟨⟨2, ![M, A]⟩, xa⟩, ⟨⟨2, ![M, B]⟩, xb⟩, ⟨⟨2, ![M, C]⟩, xc⟩, ⟨⟨2, ![M, D]⟩, xd⟩] :
      List ((s : Shape) × (s.Idx → EReal))).map (·.1)) ⟨2, ![M, A + B + C + D]⟩ (1 : Fin 2)) (r : Fin M) :
    rowOf (concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h) r
      = cat4 (rowOf xa r) (rowOf xb r) (rowOf xc r) (rowOf xd r) :=
  funext fun k => Cert.LibConcatRows.concat4_rows xa xb xc xd h r k

/-- Two matrices side by side, read along row r: their rows r end to end. -/
theorem concat2_row {M A B : ℕ} (xa : (⟨2, ![M, A]⟩ : Shape).Idx → EReal) (xb : (⟨2, ![M, B]⟩ : Shape).Idx → EReal)
    (h : Shape.Concatenates (([⟨⟨2, ![M, A]⟩, xa⟩, ⟨⟨2, ![M, B]⟩, xb⟩] :
      List ((s : Shape) × (s.Idx → EReal))).map (·.1)) ⟨2, ![M, A + B]⟩ (1 : Fin 2)) (r : Fin M) :
    rowOf (concatenate (⟨2, ![M, A + B]⟩ : Shape) (1 : Fin 2) [⟨⟨2, ![M, A]⟩, xa⟩, ⟨⟨2, ![M, B]⟩, xb⟩] h) r
      = cat2 (rowOf xa r) (rowOf xb r) :=
  funext fun k => Cert.LibConcatRows.concat2_rows xa xb h r k

/-- The first stretch of the edge body, along row r: the joined 275 numbers through the first dense layer,
    max(·, 0), and the second layer's affine map. -/
theorem pay2_row (x3 : Vec Ideal S2000x1 .i32) (x4 : Vec Ideal S16x256 .bf16) (x0 x1 : Vec Ideal S2000x9 .bf16)
    (x2 : Vec Ideal S2000x1 .bf16) (x5 : Vec Ideal S275x1024 .bf16) (x6 : Vec Ideal S1x1024 .f32)
    (x7 : Vec Ideal S1024x1024 .bf16) (x8 : Vec Ideal S1x1024 .f32) (r : Fin 2000) :
    rowOf (k0_pay2 (F := Ideal) x3 x4 x0 x1 x2 x5 x6 x7 x8) r
      = affine (relu (affine (cat4 (rowOf x0 r) (rowOf x1 r) (rowOf x2 r) (onehotRow (x3 (ix2 r 0)) (mat x4)))
          (mat x5) (rowOf x6 0))) (mat x7) (rowOf x8 0) := by
  unfold k0_pay2
  refine (dense_row _ rfl _ x7 x8 _ _ _ r).trans ?_
  refine congrArg (fun v => affine v (mat x7) (rowOf x8 0)) ?_
  refine (truncf_row _ _ r).trans ?_
  refine (relu_row _ r).trans ?_
  refine congrArg relu ?_
  refine (dense_row _ rfl _ x5 x6 _ _ _ r).trans ?_
  refine congrArg (fun v => affine v (mat x5) (rowOf x6 0)) ?_
  refine (concat4_row (A := 9) (B := 9) (C := 1) (D := 256) _ _ _ _ _ r).trans ?_
  have e0 := shapeCast_row x0 shapeCasts_S2000x9_S2000x9 r
  have e1 := shapeCast_row x1 shapeCasts_S2000x9_S2000x9 r
  have e2 := shapeCast_row x2 shapeCasts_S2000x1_S2000x1 r
  have e3 := onehot_row _ rfl x3 x4 shapeCasts_S2000x1_S2000x1 broadcasts_S2000x1_S2000x16 iota_S2000x16_d1_w32
    natLt_1_32 bitsLt_bf16_f32 shapeCasts_S16x256_S16x256 r
  rw [e0, e1, e2]
  exact congrArg (cat4 (rowOf x0 r) (rowOf x1 r) (rowOf x2 r)) ((truncf_row _ _ r).trans e3)

/-- The second stretch of the edge body, along row r: max(·, 0), two more dense layers with max(·, 0), the fifth
    affine map, the destination row put in front, and the linear part of the next layer. -/
theorem pay3_row (v35 : FVec Ideal S2000x1024 .f32) (x9 : Vec Ideal S1024x1024 .bf16) (x10 : Vec Ideal S1x1024 .f32)
    (x11 : Vec Ideal S1024x1024 .bf16) (x12 : Vec Ideal S1x1024 .f32) (x13 : Vec Ideal S1024x512 .bf16)
    (x14 : Vec Ideal S1x512 .f32) (x1 : Vec Ideal S2000x9 .bf16) (x15 : Vec Ideal S521x512 .bf16) (r : Fin 2000) :
    rowOf (k0_pay3 (F := Ideal) v35 (Scalar.ofBits .f32 0x00000000#32) x9 x10 x11 x12 x13 x14 x1 x15) r
      = lin (cat2 (rowOf x1 r) (affine (relu (affine (relu (affine (relu (rowOf v35 r)) (mat x9) (rowOf x10 0)))
          (mat x11) (rowOf x12 0))) (mat x13) (rowOf x14 0))) (mat x15) := by
  unfold k0_pay3
  refine (matmul_row _ rfl _ x15 _ r).trans ?_
  refine congrArg (fun v => lin v (mat x15)) ?_
  refine (concat2_row (A := 9) (B := 512) _ _ _ r).trans ?_
  rw [shapeCast_row x1 shapeCasts_S2000x9_S2000x9 r]
  refine congrArg (cat2 (rowOf x1 r)) ?_
  refine (truncf_row _ _ r).trans ?_
  refine (dense_row _ rfl _ x13 x14 _ _ _ r).trans ?_
  refine congrArg (fun v => affine v (mat x13) (rowOf x14 0)) ?_
  refine (truncf_row _ _ r).trans ?_
  refine (relu_row _ r).trans ?_
  refine congrArg relu ?_
  refine (dense_row _ rfl _ x11 x12 _ _ _ r).trans ?_
  refine congrArg (fun v => affine v (mat x11) (rowOf x12 0)) ?_
  refine (truncf_row _ _ r).trans ?_
  refine (relu_row _ r).trans ?_
  refine congrArg relu ?_
  refine (dense_row _ rfl _ x9 x10 _ _ _ r).trans ?_
  refine congrArg (fun v => affine v (mat x9) (rowOf x10 0)) ?_
  refine (truncf_row _ _ r).trans ?_
  exact relu_row _ r

/-- The last stretch of the edge body, along row r: the bias, max(·, 0), the last dense layer and max(·, 0). -/
theorem pay1_row (v72 : FVec Ideal S2000x512 .f32) (x16 : Vec Ideal S1x512 .f32) (x17 : Vec Ideal S512x512 .bf16)
    (x18 : Vec Ideal S1x512 .f32) (r : Fin 2000) :
    rowOf (k0_pay1 (F := Ideal) v72 x16 x17 x18) r
      = relu (affine (relu (fun j => rowOf v72 r j + rowOf x16 0 j)) (mat x17) (rowOf x18 0)) := by
  unfold k0_pay1
  refine (relu_row _ r).trans ?_
  refine congrArg relu ?_
  refine (dense_row _ rfl _ x17 x18 _ _ _ r).trans ?_
  refine congrArg (fun v => affine v (mat x17) (rowOf x18 0)) ?_
  refine (truncf_row _ _ r).trans ?_
  refine (relu_row _ r).trans ?_
  refine congrArg relu ?_
  exact addbias_row v72 x16 _ _ r

/-- The edge network's parameters as the body finds them in its weight and bias blocks. -/
def params (x5 : Vec Ideal S275x1024 .bf16) (x6 : Vec Ideal S1x1024 .f32) (x7 : Vec Ideal S1024x1024 .bf16)
    (x8 : Vec Ideal S1x1024 .f32) (x9 : Vec Ideal S1024x1024 .bf16) (x10 : Vec Ideal S1x1024 .f32)
    (x11 : Vec Ideal S1024x1024 .bf16) (x12 : Vec Ideal S1x1024 .f32) (x13 : Vec Ideal S1024x512 .bf16)
    (x14 : Vec Ideal S1x512 .f32) (x15 : Vec Ideal S521x512 .bf16) (x16 : Vec Ideal S1x512 .f32)
    (x17 : Vec Ideal S512x512 .bf16) (x18 : Vec Ideal S1x512 .f32) : EdgeParams where
  W0 := mat x5
  b0 := rowOf x6 0
  W1 := mat x7
  b1 := rowOf x8 0
  W2 := mat x9
  b2 := rowOf x10 0
  W3 := mat x11
  b3 := rowOf x12 0
  W4 := mat x13
  b4 := rowOf x14 0
  Wn0 := mat x15
  bn0 := rowOf x16 0
  Wn1 := mat x17
  bn1 := rowOf x18 0

/-- Column j of row r of a matrix is the matrix at (r, j). -/
theorem rowOf_at {M N : ℕ} (X : (⟨2, ![M, N]⟩ : Shape).Idx → EReal) (r : Fin M) (j : Fin N) :
    X (ix2 r j) = rowOf X r j := rfl

/-- The two zero offsets of a whole-block access, spelt as the constant function. -/
theorem hz : (![0, 0] : Fin 2 → Nat) = fun _ => 0 := funext fun a => by fin_cases a <;> rfl

/-- Row r of the output block: the edge row function of row r of the input blocks. -/
theorem out_row (x0 : Vec Ideal S2000x9 .bf16) (x1 : Vec Ideal S2000x9 .bf16) (x2 : Vec Ideal S2000x1 .bf16)
    (x3 : Vec Ideal S2000x1 .i32) (x4 : Vec Ideal S16x256 .bf16)
    (x5 : Vec Ideal S275x1024 .bf16) (x6 : Vec Ideal S1x1024 .f32) (x7 : Vec Ideal S1024x1024 .bf16)
    (x8 : Vec Ideal S1x1024 .f32) (x9 : Vec Ideal S1024x1024 .bf16) (x10 : Vec Ideal S1x1024 .f32)
    (x11 : Vec Ideal S1024x1024 .bf16) (x12 : Vec Ideal S1x1024 .f32) (x13 : Vec Ideal S1024x512 .bf16)
    (x14 : Vec Ideal S1x512 .f32) (x15 : Vec Ideal S521x512 .bf16) (x16 : Vec Ideal S1x512 .f32)
    (x17 : Vec Ideal S512x512 .bf16) (x18 : Vec Ideal S1x512 .f32) (r : Fin 2000) :
    rowOf (out0_19 (F := Ideal) x0 x1 x2 x3 x4 x5 x6 x7 x8 x9 x10 x11 x12 x13 x14 x15 x16 x17 x18) r
      = edgeRow (params x5 x6 x7 x8 x9 x10 x11 x12 x13 x14 x15 x16 x17 x18)
          (rowOf x0 r) (rowOf x1 r) (rowOf x2 r) (onehotRow (x3 (ix2 r 0)) (mat x4)) := by
  unfold Gen.out0_19
  rw [View.canon_unit_zero hz]
  simp only [View.ld_unit_zero (S := S2000x1) hz, View.ld_unit_zero (S := S16x256) hz,
    View.ld_unit_zero (S := S2000x9) hz, View.ld_unit_zero (S := S275x1024) hz,
    View.ld_unit_zero (S := S1x1024) hz, View.ld_unit_zero (S := S1024x1024) hz,
    View.ld_unit_zero (S := S1024x512) hz, View.ld_unit_zero (S := S1x512) hz,
    View.ld_unit_zero (S := S521x512) hz, View.ld_unit_zero (S := S512x512) hz]
  rw [pay1_row, pay3_row, pay2_row]
  rfl

/-- Row r, column j of the output block: the edge row function of row r of the input blocks. -/
theorem out_apply (x0 : Vec Ideal S2000x9 .bf16) (x1 : Vec Ideal S2000x9 .bf16) (x2 : Vec Ideal S2000x1 .bf16)
    (x3 : Vec Ideal S2000x1 .i32) (x4 : Vec Ideal S16x256 .bf16)
    (x5 : Vec Ideal S275x1024 .bf16) (x6 : Vec Ideal S1x1024 .f32) (x7 : Vec Ideal S1024x1024 .bf16)
    (x8 : Vec Ideal S1x1024 .f32) (x9 : Vec Ideal S1024x1024 .bf16) (x10 : Vec Ideal S1x1024 .f32)
    (x11 : Vec Ideal S1024x1024 .bf16) (x12 : Vec Ideal S1x1024 .f32) (x13 : Vec Ideal S1024x512 .bf16)
    (x14 : Vec Ideal S1x512 .f32) (x15 : Vec Ideal S521x512 .bf16) (x16 : Vec Ideal S1x512 .f32)
    (x17 : Vec Ideal S512x512 .bf16) (x18 : Vec Ideal S1x512 .f32) (r : Fin 2000) (j : Fin 512) :
    out0_19 (F := Ideal) x0 x1 x2 x3 x4 x5 x6 x7 x8 x9 x10 x11 x12 x13 x14 x15 x16 x17 x18 (ix2 r j)
      = edgeRow (params x5 x6 x7 x8 x9 x10 x11 x12 x13 x14 x15 x16 x17 x18)
          (rowOf x0 r) (rowOf x1 r) (rowOf x2 r) (onehotRow (x3 (ix2 r 0)) (mat x4)) j := by
  exact (rowOf_at (out0_19 (F := Ideal) x0 x1 x2 x3 x4 x5 x6 x7 x8 x9 x10 x11 x12 x13 x14 x15 x16 x17 x18) r j).trans
    (congrFun (out_row x0 x1 x2 x3 x4 x5 x6 x7 x8 x9 x10 x11 x12 x13 x14 x15 x16 x17 x18 r) j)

end Cert.KernelIdeal.EdgeBody

end
-- ==== Proof.Region0Value.lean ====
/-
  The edge kernel's output array after its fifty grid points: row e, column j is the edge row function of row e of the
  region's input arrays. Each grid point writes back one block of 2000 rows, the blocks tile the array, and a block's
  row is the body's value on the same row of the input blocks.
-/
import proofs.«425427_j50422916055679_1_alg».proof.Proof.Gen.KernelIdeal.Frame
import proofs.«425427_j50422916055679_1_alg».proof.Proof.Spec
import proofs.«425427_j50422916055679_1_alg».proof.Proof.EdgeBody
import Idealize.ShloMosaic.Lib.Pipeline.Value
import Idealize.ShloMosaic.Lib.ValueIdx

set_option maxRecDepth 16384

noncomputable section

open Idealize.ShloMosaic Idealize.ShloMosaic.ValueIdx Cert.Spec

namespace Cert.KernelIdeal.Region0Value

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The edge network's parameters as the region finds them in its weight and bias arrays. -/
def params (c : Dev nD) : EdgeParams :=
  EdgeBody.params (V c main_v35) (V c main_v36) (V c main_v38) (V c main_v39) (V c main_v41) (V c main_v42) (V c main_v44)
    (V c main_v45) (V c main_v47) (V c main_v48) (V c main_v50) (V c main_v51) (V c main_v53) (V c main_v54)

/-- The grid has fifty points. -/
theorem pt_lt (t : Fin cfg0.N) : t.val < 50 := t.isLt

/-- The printed index maps, decided over the grid: the four tiled inputs and the output are at block (t, 0), the
    table, the weights and the biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = t.val ∧ win0_19.index t (1 : Fin 2) = 0 :=
  (by decide +kernel : ∀ t : Fin grid0.N, _)

/-- Row r of the block of point t is row 2000·t + r of the array. -/
def rowAt (t : Fin cfg0.N) (r : Fin 2000) : Fin 100000 := ⟨2000 * t.val + r.val, by have := pt_lt t; have := r.isLt; omega⟩

/-- The source rows' block at point t, read at row r: row 2000·t + r of their array. -/
theorem blk0_apply (c : Dev nD) (t : Fin cfg0.N) (r : Fin 2000) (i : Fin 9) :
    (iblk0 V c 0 t : Vec Ideal S2000x9 .bf16) (ix2 r i) = (V c main_v17 : S100000x9.Idx → Elt Ideal .bf16) (ix2 (rowAt t r) i) := by
  obtain ⟨e0, e1, -⟩ := idx_facts t
  unfold iblk0
  rw [View.read_apply]
  show V c main_v17 _ = V c main_v17 _
  congr 1
  funext a
  apply Fin.ext
  match a with
  | ⟨0, _⟩ => show win0_0.index t 0 * 2000 + 1 * r.val = 2000 * t.val + r.val; rw [e0]; omega
  | ⟨1, _⟩ => show win0_0.index t 1 * 9 + 1 * i.val = i.val; rw [e1]; omega

/-- The destination rows' block at point t, read at row r: row 2000·t + r of their array. -/
theorem blk1_apply (c : Dev nD) (t : Fin cfg0.N) (r : Fin 2000) (i : Fin 9) :
    (iblk0 V c 1 t : Vec Ideal S2000x9 .bf16) (ix2 r i) = (V c main_v24 : S100000x9.Idx → Elt Ideal .bf16) (ix2 (rowAt t r) i) := by
  obtain ⟨-, -, e0, e1, -⟩ := idx_facts t
  unfold iblk0
  rw [View.read_apply]
  show V c main_v24 _ = V c main_v24 _
  congr 1
  funext a
  apply Fin.ext
  match a with
  | ⟨0, _⟩ => show win0_1.index t 0 * 2000 + 1 * r.val = 2000 * t.val + r.val; rw [e0]; omega
  | ⟨1, _⟩ => show win0_1.index t 1 * 9 + 1 * i.val = i.val; rw [e1]; omega

/-- The edge attributes' block at point t, read at row r: row 2000·t + r of their array. -/
theorem blk2_apply (c : Dev nD) (t : Fin cfg0.N) (r : Fin 2000) (i : Fin 1) :
    (iblk0 V c 2 t : Vec Ideal S2000x1 .bf16) (ix2 r i) = (V c main_v25 : S100000x1.Idx → Elt Ideal .bf16) (ix2 (rowAt t r) i) := by
  obtain ⟨-, -, -, -, e0, e1, -⟩ := idx_facts t
  unfold iblk0
  rw [View.read_apply]
  show V c main_v25 _ = V c main_v25 _
  congr 1
  funext a
  apply Fin.ext
  match a with
  | ⟨0, _⟩ => show win0_2.index t 0 * 2000 + 1 * r.val = 2000 * t.val + r.val; rw [e0]; omega
  | ⟨1, _⟩ => show win0_2.index t 1 * 1 + 1 * i.val = i.val; rw [e1]; omega

/-- The graph numbers' block at point t, read at row r: row 2000·t + r of their array. -/
theorem blk3_apply (c : Dev nD) (t : Fin cfg0.N) (r : Fin 2000) (i : Fin 1) :
    (iblk0 V c 3 t : Vec Ideal S2000x1 .i32) (ix2 r i) = (V c main_v33 : S100000x1.Idx → Elt Ideal .i32) (ix2 (rowAt t r) i) := by
  obtain ⟨-, -, -, -, -, -, e0, e1, -⟩ := idx_facts t
  unfold iblk0
  rw [View.read_apply]
  show V c main_v33 _ = V c main_v33 _
  congr 1
  funext a
  apply Fin.ext
  match a with
  | ⟨0, _⟩ => show win0_3.index t 0 * 2000 + 1 * r.val = 2000 * t.val + r.val; rw [e0]; omega
  | ⟨1, _⟩ => show win0_3.index t 1 * 1 + 1 * i.val = i.val; rw [e1]; omega

/-- The table's block is the whole array at every point. -/
theorem blk4_eq (c : Dev nD) (t : Fin cfg0.N) :
    (iblk0 V c 4 t : Vec Ideal S16x256 .bf16) = (V c main_v9 : S16x256.Idx → Elt Ideal .bf16) := by
  obtain ⟨-, -, -, -, -, -, -, -, e0, e1, -⟩ := idx_facts t
  funext y
  unfold iblk0
  rw [View.read_apply]
  show V c main_v9 _ = V c main_v9 _
  congr 1
  funext a
  apply Fin.ext
  match a with
  | ⟨0, _⟩ => show win0_4.index t 0 * 16 + 1 * (y 0).val = (y 0).val; rw [e0]; omega
  | ⟨1, _⟩ => show win0_4.index t 1 * 256 + 1 * (y 1).val = (y 1).val; rw [e1]; omega

/-- The first weight matrix's block is the whole array at every point. -/
theorem blk5_eq (c : Dev nD) (t : Fin cfg0.N) :
    (iblk0 V c 5 t : Vec Ideal S275x1024 .bf16) = (V c main_v35 : S275x1024.Idx → Elt Ideal .bf16) := by
  obtain ⟨-, -, -, -, -, -, -, -, -, -, e0, e1, -⟩ := idx_facts t
  funext y
  unfold iblk0
  rw [View.read_apply]
  show V c main_v35 _ = V c main_v35 _
  congr 1
  funext a
  apply Fin.ext
  match a with
  | ⟨0, _⟩ => show win0_5.index t 0 * 275 + 1 * (y 0).val = (y 0).val; rw [e0]; omega
  | ⟨1, _⟩ => show win0_5.index t 1 * 1024 + 1 * (y 1).val = (y 1).val; rw [e1]; omega

/-- The first bias row's block is the whole array at every point. -/
theorem blk6_eq (c : Dev nD) (t : Fin cfg0.N) :
    (iblk0 V c 6 t : Vec Ideal S1x1024 .f32) = (V c main_v36 : S1x1024.Idx → Elt Ideal .f32) := by
  obtain ⟨-, -, -, -, -, -, -, -, -, -, -, -, e0, e1, -⟩ := idx_facts t
  funext y
  unfold iblk0
  rw [View.read_apply]
  show V c main_v36 _ = V c main_v36 _
  congr 1
  funext a
  apply Fin.ext
  match a with
  | ⟨0, _⟩ => show win0_6.index t 0 * 1 + 1 * (y 0).val = (y 0).val; rw [e0]; omega
  | ⟨1, _⟩ => show win0_6.index t 1 * 1024 + 1 * (y 1).val = (y 1).val; rw [e1]; omega

/-- The second weight matrix's block is the whole array at every point. -/
theorem blk7_eq (c : Dev nD) (t : Fin cfg0.N) :
    (iblk0 V c 7 t : Vec Ideal S1024x1024 .bf16) = (V c main_v38 : S1024x1024.Idx → Elt Ideal .bf16) := by
  obtain ⟨-, -, -, -, -, -, -, -, -, -, -, -, -, -, e0, e1, -⟩ := idx_facts t
  funext y
  unfold iblk0
  rw [View.read_apply]
  show V c main_v38 _ = V c main_v38 _
  congr 1
  funext a
  apply Fin.ext
  match a with
  | ⟨0, _⟩ => show win0_7.index t 0 * 1024 + 1 * (y 0).val = (y 0).val; rw [e0]; omega
  | ⟨1, _⟩ => show win0_7.index t 1 * 1024 + 1 * (y 1).val = (y 1).val; rw [e1]; omega

/-- The second bias row's block is the whole array at every point. -/
theorem blk8_eq (c : Dev nD) (t : Fin cfg0.N) :
    (iblk0 V c 8 t : Vec Ideal S1x1024 .f32) = (V c main_v39 : S1x1024.Idx → Elt Ideal .f32) := by
  obtain ⟨-, -, -, -, -, -, -, -, -, -, -, -, -, -, -, -, e0, e1, -⟩ := idx_facts t
  funext y
  unfold iblk0
  rw [View.read_apply]
  show V c main_v39 _ = V c main_v39 _
  congr 1
  funext a
  apply Fin.ext
  match a with
  | ⟨0, _⟩ => show win0_8.index t 0 * 1 + 1 * (y 0).val = (y 0).val; rw [e0]; omega
  | ⟨1, _⟩ => show win0_8.index t 1 * 1024 + 1 * (y 1).val = (y 1).val; rw [e1]; omega

/-- The third weight matrix's block is the whole array at every point. -/
theorem blk9_eq (c : Dev nD) (t : Fin cfg0.N) :
    (iblk0 V c 9 t : Vec Ideal S1024x1024 .bf16) = (V c main_v41 : S1024x1024.Idx → Elt Ideal .bf16) := by
  obtain ⟨-, -, -, -, -, -, -, -, -, -, -, -, -, -, -, -, -, -, e0, e1, -⟩ := idx_facts t
  funext y
  unfold iblk0
  rw [View.read_apply]
  show V c main_v41 _ = V c main_v41 _
  congr 1
  funext a
  apply Fin.ext
  match a with
  | ⟨0, _⟩ => show win0_9.index t 0 * 1024 + 1 * (y 0).val = (y 0).val; rw [e0]; omega
  | ⟨1, _⟩ => show win0_9.index t 1 * 1024 + 1 * (y 1).val = (y 1).val; rw [e1]; omega

/-- The third bias row's block is the whole array at every point. -/
theorem blk10_eq (c : Dev nD) (t : Fin cfg0.N) :
    (iblk0 V c 10 t : Vec Ideal S1x1024 .f32) = (V c main_v42 : S1x1024.Idx → Elt Ideal .f32) := by
  obtain ⟨-, -, -, -, -, -, -, -, -, -, -, -, -, -, -, -, -, -, -, -, e0, e1, -⟩ := idx_facts t
  funext y
  unfold iblk0
  rw [View.read_apply]
  show V c main_v42 _ = V c main_v42 _
  congr 1
  funext a
  apply Fin.ext
  match a with
  | ⟨0, _⟩ => show win0_10.index t 0 * 1 + 1 * (y 0).val = (y 0).val; rw [e0]; omega
  | ⟨1, _⟩ => show win0_10.index t 1 * 1024 + 1 * (y 1).val = (y 1).val; rw [e1]; omega

/-- The fourth weight matrix's block is the whole array at every point. -/
theorem blk11_eq (c : Dev nD) (t : Fin cfg0.N) :
    (iblk0 V c 11 t : Vec Ideal S1024x1024 .bf16) = (V c main_v44 : S1024x1024.Idx → Elt Ideal .bf16) := by
  obtain ⟨-, -, -, -, -, -, -, -, -, -, -, -, -, -, -, -, -, -, -, -, -, -, e0, e1, -⟩ := idx_facts t
  funext y
  unfold iblk0
  rw [View.read_apply]
  show V c main_v44 _ = V c main_v44 _
  congr 1
  funext a
  apply Fin.ext
  match a with
  | ⟨0, _⟩ => show win0_11.index t 0 * 1024 + 1 * (y 0).val = (y 0).val; rw [e0]; omega
  | ⟨1, _⟩ => show win0_11.index t 1 * 1024 + 1 * (y 1).val = (y 1).val; rw [e1]; omega

/-- The fourth bias row's block is the whole array at every point. -/
theorem blk12_eq (c : Dev nD) (t : Fin cfg0.N) :
    (iblk0 V c 12 t : Vec Ideal S1x1024 .f32) = (V c main_v45 : S1x1024.Idx → Elt Ideal .f32) := by
  obtain ⟨-, -, -, -, -, -, -, -, -, -, -, -, -, -, -, -, -, -, -, -, -, -, -, -, e0, e1, -⟩ := idx_facts t
  funext y
  unfold iblk0
  rw [View.read_apply]
  show V c main_v45 _ = V c main_v45 _
  congr 1
  funext a
  apply Fin.ext
  match a with
  | ⟨0, _⟩ => show win0_12.index t 0 * 1 + 1 * (y 0).val = (y 0).val; rw [e0]; omega
  | ⟨1, _⟩ => show win0_12.index t 1 * 1024 + 1 * (y 1).val = (y 1).val; rw [e1]; omega

/-- The fifth weight matrix's block is the whole array at every point. -/
theorem blk13_eq (c : Dev nD) (t : Fin cfg0.N) :
    (iblk0 V c 13 t : Vec Ideal S1024x512 .bf16) = (V c main_v47 : S1024x512.Idx → Elt Ideal .bf16) := by
  obtain ⟨-, -, -, -, -, -, -, -, -, -, -, -, -, -, -, -, -, -, -, -, -, -, -, -, -, -, e0, e1, -⟩ := idx_facts t
  funext y
  unfold iblk0
  rw [View.read_apply]
  show V c main_v47 _ = V c main_v47 _
  congr 1
  funext a
  apply Fin.ext
  match a with
  | ⟨0, _⟩ => show win0_13.index t 0 * 1024 + 1 * (y 0).val = (y 0).val; rw [e0]; omega
  | ⟨1, _⟩ => show win0_13.index t 1 * 512 + 1 * (y 1).val = (y 1).val; rw [e1]; omega

/-- The fifth bias row's block is the whole array at every point. -/
theorem blk14_eq (c : Dev nD) (t : Fin cfg0.N) :
    (iblk0 V c 14 t : Vec Ideal S1x512 .f32) = (V c main_v48 : S1x512.Idx → Elt Ideal .f32) := by
  obtain ⟨-, -, -, -, -, -, -, -, -, -, -, -, -, -, -, -, -, -, -, -, -, -, -, -, -, -, -, -, e0, e1, -⟩ := idx_facts t
  funext y
  unfold iblk0
  rw [View.read_apply]
  show V c main_v48 _ = V c main_v48 _
  congr 1
  funext a
  apply Fin.ext
  match a with
  | ⟨0, _⟩ => show win0_14.index t 0 * 1 + 1 * (y 0).val = (y 0).val; rw [e0]; omega
  | ⟨1, _⟩ => show win0_14.index t 1 * 512 + 1 * (y 1).val = (y 1).val; rw [e1]; omega

/-- The sixth weight matrix's block is the whole array at every point. -/
theorem blk15_eq (c : Dev nD) (t : Fin cfg0.N) :
    (iblk0 V c 15 t : Vec Ideal S521x512 .bf16) = (V c main_v50 : S521x512.Idx → Elt Ideal .bf16) := by
  obtain ⟨-, -, -, -, -, -, -, -, -, -, -, -, -, -, -, -, -, -, -, -, -, -, -, -, -, -, -, -, -, -, e0, e1, -⟩ := idx_facts t
  funext y
  unfold iblk0
  rw [View.read_apply]
  show V c main_v50 _ = V c main_v50 _
  congr 1
  funext a
  apply Fin.ext
  match a with
  | ⟨0, _⟩ => show win0_15.index t 0 * 521 + 1 * (y 0).val = (y 0).val; rw [e0]; omega
  | ⟨1, _⟩ => show win0_15.index t 1 * 512 + 1 * (y 1).val = (y 1).val; rw [e1]; omega

/-- The sixth bias row's block is the whole array at every point. -/
theorem blk16_eq (c : Dev nD) (t : Fin cfg0.N) :
    (iblk0 V c 16 t : Vec Ideal S1x512 .f32) = (V c main_v51 : S1x512.Idx → Elt Ideal .f32) := by
  obtain ⟨-, -, -, -, -, -, -, -, -, -, -, -, -, -, -, -, -, -, -, -, -, -, -, -, -, -, -, -, -, -, -, -, e0, e1, -⟩ := idx_facts t
  funext y
  unfold iblk0
  rw [View.read_apply]
  show V c main_v51 _ = V c main_v51 _
  congr 1
  funext a
  apply Fin.ext
  match a with
  | ⟨0, _⟩ => show win0_16.index t 0 * 1 + 1 * (y 0).val = (y 0).val; rw [e0]; omega
  | ⟨1, _⟩ => show win0_16.index t 1 * 512 + 1 * (y 1).val = (y 1).val; rw [e1]; omega

/-- The seventh weight matrix's block is the whole array at every point. -/
theorem blk17_eq (c : Dev nD) (t : Fin cfg0.N) :
    (iblk0 V c 17 t : Vec Ideal S512x512 .bf16) = (V c main_v53 : S512x512.Idx → Elt Ideal .bf16) := by
  obtain ⟨-, -, -, -, -, -, -, -, -, -, -, -, -, -, -, -, -, -, -, -, -, -, -, -, -, -, -, -, -, -, -, -, -, -, e0, e1, -⟩ := idx_facts t
  funext y
  unfold iblk0
  rw [View.read_apply]
  show V c main_v53 _ = V c main_v53 _
  congr 1
  funext a
  apply Fin.ext
  match a with
  | ⟨0, _⟩ => show win0_17.index t 0 * 512 + 1 * (y 0).val = (y 0).val; rw [e0]; omega
  | ⟨1, _⟩ => show win0_17.index t 1 * 512 + 1 * (y 1).val = (y 1).val; rw [e1]; omega

/-- The seventh bias row's block is the whole array at every point. -/
theorem blk18_eq (c : Dev nD) (t : Fin cfg0.N) :
    (iblk0 V c 18 t : Vec Ideal S1x512 .f32) = (V c main_v54 : S1x512.Idx → Elt Ideal .f32) := by
  obtain ⟨-, -, -, -, -, -, -, -, -, -, -, -, -, -, -, -, -, -, -, -, -, -, -, -, -, -, -, -, -, -, -, -, -, -, -, -, e0, e1, -⟩ := idx_facts t
  funext y
  unfold iblk0
  rw [View.read_apply]
  show V c main_v54 _ = V c main_v54 _
  congr 1
  funext a
  apply Fin.ext
  match a with
  | ⟨0, _⟩ => show win0_18.index t 0 * 1 + 1 * (y 0).val = (y 0).val; rw [e0]; omega
  | ⟨1, _⟩ => show win0_18.index t 1 * 512 + 1 * (y 1).val = (y 1).val; rw [e1]; omega

/-- Row r of the source rows' block at point t is row 2000·t + r of their array. -/
theorem row0 (c : Dev nD) (t : Fin cfg0.N) (r : Fin 2000) :
    rowOf (iblk0 V c 0 t : Vec Ideal S2000x9 .bf16) r = rowOf (V c main_v17 : S100000x9.Idx → Elt Ideal .bf16) (rowAt t r) :=
  funext fun i => blk0_apply V c t r i

/-- Row r of the destination rows' block at point t is row 2000·t + r of their array. -/
theorem row1 (c : Dev nD) (t : Fin cfg0.N) (r : Fin 2000) :
    rowOf (iblk0 V c 1 t : Vec Ideal S2000x9 .bf16) r = rowOf (V c main_v24 : S100000x9.Idx → Elt Ideal .bf16) (rowAt t r) :=
  funext fun i => blk1_apply V c t r i

/-- Row r of the edge attributes' block at point t is row 2000·t + r of their array. -/
theorem row2 (c : Dev nD) (t : Fin cfg0.N) (r : Fin 2000) :
    rowOf (iblk0 V c 2 t : Vec Ideal S2000x1 .bf16) r = rowOf (V c main_v25 : S100000x1.Idx → Elt Ideal .bf16) (rowAt t r) :=
  funext fun i => blk2_apply V c t r i

/-- The array the region leaves: row e, column j is the edge row function of row e of the input arrays. -/
abbrev G (c : Dev nD) : S100000x512.Idx → Elt Ideal .f32 :=
  arr2 (M := 100000) (N := 512) (fun e j => edgeRow (params V c) (rowOf (V c main_v17) e) (rowOf (V c main_v24) e)
    (rowOf (V c main_v25) e) (onehotRow (V c main_v33 (ix2 e 0)) (mat (V c main_v9))) j)

/-- An element of the output block of point t sits in the array at row 2000·t + r, same column. -/
theorem out_emb (t : Fin cfg0.N) (r : Fin 2000) (j : Fin 512) :
    (((cfg0.win 19).blk t).view.emb (ix2 r j) : S100000x512.Idx) = ix2 (rowAt t r) j := by
  obtain ⟨-, -, -, -, -, -, -, -, -, -, -, -, -, -, -, -, -, -, -, -, -, -, -, -, -, -, -, -, -, -, -, -, -, -, -, -, -, -, e0, e1⟩ := idx_facts t
  funext a
  apply Fin.ext
  match a with
  | ⟨0, _⟩ => show win0_19.index t 0 * 2000 + 1 * r.val = 2000 * t.val + r.val; rw [e0]; omega
  | ⟨1, _⟩ => show win0_19.index t 1 * 512 + 1 * j.val = j.val; rw [e1]; omega

/-- What point t writes back is block t of the array of edge row functions: the body's value on row r of the input
    blocks is the edge row function of row 2000·t + r of the input arrays. -/
theorem flushed_eq (c : Dev nD) (t : Fin cfg0.N) :
    (dat0 (F := Ideal) V c).flushed 19 t = ((cfg0.win 19).blk t).view.read (Elt Ideal) (G V c) := by
  show (cfg0.win 19).cut (grid0.coords t) ((dat0 V c).after 19 t) = _
  rw [after0_19]
  funext y
  obtain ⟨r, j, rfl⟩ : ∃ (r : Fin 2000) (j : Fin 512), y = ix2 r j := ⟨y 0, y 1, eq_ix2 y⟩
  rw [View.read_apply]
  show out0_19 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 r j) = G V c (((cfg0.win 19).blk t).view.emb (ix2 r j))
  rw [out_emb t r j]
  refine (EdgeBody.out_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) r j).trans ?_
  rw [blk4_eq V c t, blk5_eq V c t, blk6_eq V c t, blk7_eq V c t, blk8_eq V c t, blk9_eq V c t, blk10_eq V c t, blk11_eq V c t, blk12_eq V c t, blk13_eq V c t, blk14_eq V c t, blk15_eq V c t, blk16_eq V c t, blk17_eq V c t, blk18_eq V c t, row0 V c t r, row1 V c t r, row2 V c t r, blk3_apply V c t r 0]
  rfl

/-- An index of the array is in the block of point t iff each coordinate is in the block's range on its axis. -/
theorem mem_blk (t : Fin cfg0.N) (i : S100000x512.Idx) :
    i ∈ ((cfg0.win 19).blk t).view.set ↔ ∀ a : Fin 2, win0_19.index t a * S2000x512.size a ≤ (i a).val ∧ (i a).val < win0_19.index t a * S2000x512.size a + S2000x512.size a := by
  show i ∈ ((View.whole main_v61).slice (win0_19.rect t)).set ↔ _
  rw [View.set_slice_whole, Rect.mem_set_unit]
  exact Iff.rfl

/-- Every row of the array is in the block of the point numbered by the row's quotient by 2000. -/
theorem cover (i : S100000x512.Idx) : ∃ t : Fin cfg0.N, (cfg0.win 19).flush t = true ∧ i ∈ ((cfg0.win 19).blk t).view.set := by
  have hi0 : (i 0).val < 100000 := (i 0).isLt
  have hi1 : (i 1).val < 512 := (i 1).isLt
  obtain ⟨t, ht⟩ : ∃ t : Fin cfg0.N, t.val = (i 0).val / 2000 := ⟨⟨(i 0).val / 2000, by show _ < 50; omega⟩, rfl⟩
  obtain ⟨-, -, -, -, -, -, -, -, -, -, -, -, -, -, -, -, -, -, -, -, -, -, -, -, -, -, -, -, -, -, -, -, -, -, -, -, -, -, e0, e1⟩ := idx_facts t
  refine ⟨t, flush0_19 t, ?_⟩
  rw [mem_blk]
  intro a
  match a with
  | ⟨0, _⟩ => show win0_19.index t 0 * 2000 ≤ (i 0).val ∧ (i 0).val < win0_19.index t 0 * 2000 + 2000; rw [e0, ht]; omega
  | ⟨1, _⟩ => show win0_19.index t 1 * 512 ≤ (i 1).val ∧ (i 1).val < win0_19.index t 1 * 512 + 512; rw [e1]; omega

/-- The region's output array after the last grid point. -/
theorem arr (c : Dev nD) :
    (dat0 (F := Ideal) V c).arrAt 19 cfg0.N
      = arr2 (M := 100000) (N := 512) (fun e j => edgeRow (params V c) (rowOf (V c main_v17) e) (rowOf (V c main_v24) e)
          (rowOf (V c main_v25) e) (onehotRow (V c main_v33 (ix2 e 0)) (mat (V c main_v9))) j) :=
  (dat0 (F := Ideal) V c).arrAt_eq_of_cover 19 (G V c) (fun t _ => flushed_eq V c t) cover

end Cert.KernelIdeal.Region0Value

end
-- ==== Proof.NodeBody.lean ====
/-
  What the node kernel's body leaves in its output block, read at one element: row r of the one-column block is the
  node row function of row r of the three input blocks (node rows, aggregated edge features, graph numbers).
-/
import proofs.«425427_j50422916055679_1_alg».proof.Proof.Gen.KernelIdeal.Frame
import proofs.«425427_j50422916055679_1_alg».proof.Proof.Spec
import proofs.«425427_j50422916055679_1_alg».proof.Proof.LibConcatRows
import proofs.«425427_j50422916055679_1_alg».proof.Proof.LibPlainMatmul
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open Idealize.ShloMosaic Idealize.ShloMosaic.ValueIdx Cert.Spec

namespace Cert.KernelIdeal.NodeBody

open Cert.KernelIdeal Cert.KernelIdeal.Gen

/-- The second node network's parameters as the body finds them in its weight and bias blocks. -/
def params (x4 : Vec Ideal S777x512 .bf16) (x5 : Vec Ideal S1x512 .f32) (x6 : Vec Ideal S512x1 .bf16)
    (x7 : Vec Ideal S1x1 .f32) : NodeParams where
  Wm0 := mat x4
  bm0 := rowOf x5 0
  Wm1 := mat x6
  bm1 := rowOf x7 0

/-- The offsets (0, 0) are the zero offsets. -/
theorem hz : (![0, 0] : Fin 2 → Nat) = fun _ => 0 := funext fun a => by fin_cases a <;> rfl

/-- One dense layer at one element: the product with the weights, accumulated into zero, plus the one bias row repeated
    over the rows, is the affine map of the row. -/
theorem dense_apply {M K N : ℕ} {φ : FTy} (v : FVec Ideal ⟨2, ![M, K]⟩ φ) (W : Vec Ideal ⟨2, ![K, N]⟩ .bf16)
    (b : Vec Ideal ⟨2, ![1, N]⟩ .f32) (hW : (⟨2, ![K, N]⟩ : Shape).ShapeCasts ⟨2, ![K, N]⟩)
    (hb : (⟨2, ![1, N]⟩ : Shape).ShapeCasts ⟨2, ![1, N]⟩) (hbr : (⟨2, ![1, N]⟩ : Shape).Broadcasts ⟨2, ![M, N]⟩)
    (r : Fin M) (j : Fin N) :
    addf (matmul (DotDims.plain M K N) none v (shapeCast ⟨2, ![K, N]⟩ W hW : FVec Ideal ⟨2, ![K, N]⟩ .bf16)
          (constant (F := Ideal) ⟨2, ![M, N]⟩ .f32 0x00000000#32))
        (broadcastTo ⟨2, ![M, N]⟩ (shapeCast ⟨2, ![1, N]⟩ b hb : FVec Ideal ⟨2, ![1, N]⟩ .f32) hbr) (ix2 r j)
      = affine (rowOf v r) (mat W) (rowOf b 0) j := by
  refine (addf_apply _ _ _).trans ?_
  rw [shapeCast_self, shapeCast_self, Cert.LibPlainMatmul.matmul_plain_apply, broadcastTo_1b_ab_apply]
  rfl

/-- The maximum with the zero constant at one element. -/
theorem relu_apply {s : Shape} (v : FVec Ideal s .f32) (i : s.Idx) :
    maximumf v (broadcast s (Scalar.ofBits (F := Ideal) .f32 0x00000000#32)) i = max (v i) 0 := by
  refine (maximumf_apply _ _ _).trans ?_
  exact congrArg (max (v i)) Ideal.ofBits_zero_f32

/-- One column repeated over the columns, read at one element. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit of "a = b", widened to a word, read signed and converted: 1 if a = b, else 0. -/
theorem cmpi_eq_factor (a b : BitVec 32) :
    ((((IntOp.cmpi .eq a b).setWidth 32).toInt : ℝ) : EReal) = if a = b then 1 else 0 := by
  rw [toInt_setWidth_bit]
  by_cases h : a = b
  · subst h; simp [IntOp.cmpi]
  · simp [IntOp.cmpi, h]

/-- The product of the indicator matrix "row r's word names column g" with a 16-row table, at one element: the
    indicator-weighted sum of the table's rows. -/
theorem onehot_apply (x2 : Vec Ideal S2000x1 .i32) (x3 : Vec Ideal S16x256 .bf16)
    (h1 : S2000x1.ShapeCasts S2000x1) (h2 : S2000x1.Broadcasts S2000x16) (h3 : S2000x16.Iotas .tc 32 [1])
    (h4 : 1 < 32) (h5 : FTy.bits .bf16 < FTy.bits .f32) (h6 : S16x256.ShapeCasts S16x256) (r : Fin 2000) (j : Fin 256) :
    matmul (DotDims.plain 2000 16 256) none
        (truncf .bf16 (sitofp (F := Ideal) .f32 (extui 32 (cmpi .eq (broadcastTo S2000x16 (shapeCast S2000x1 x2 h1 : IVec S2000x1 32) h2)
          (iota .tc S2000x16 32 [1] h3)) h4)) h5 : FVec Ideal S2000x16 .bf16)
        (shapeCast S16x256 x3 h6 : FVec Ideal S16x256 .bf16) (constant (F := Ideal) S2000x256 .f32 0x00000000#32) (ix2 r j)
      = onehotRow (x2 (ix2 r 0)) (mat x3) j := by
  rw [shapeCast_self, shapeCast_self]
  refine (Cert.LibPlainMatmul.matmul_plain_apply (M := 2000) (K := 16) (N := 256) (φ₁ := .bf16) (φ₂ := .bf16) none _ _ r j).trans ?_
  unfold onehotRow
  refine Finset.sum_congr rfl fun g _ => ?_
  refine congrArg (· * x3 (ix2 g j)) ?_
  show ((((IntOp.cmpi .eq (broadcastTo S2000x16 x2 h2 (ix2 r g)) (iota .tc S2000x16 32 [1] h3 (ix2 r g))).setWidth 32).toInt : ℝ) : EReal) = _
  rw [bcast_col_apply, iota_single_apply]
  exact cmpi_eq_factor _ _

/-- The body's stored value at one element, over the values it loads. -/
theorem pay_apply (v1 : Vec Ideal S2000x1 .i32) (v8 : Vec Ideal S16x256 .bf16) (v12 : Vec Ideal S2000x9 .bf16)
    (v14 : Vec Ideal S2000x512 .bf16) (v17 : Vec Ideal S777x512 .bf16) (v20 : Vec Ideal S1x512 .f32)
    (v27 : Vec Ideal S512x1 .bf16) (v30 : Vec Ideal S1x1 .f32) (r : Fin 2000) (j : Fin 1) :
    k1_pay1 (F := Ideal) v1 v8 v12 v14 v17 v20 v27 v30 (ix2 r j)
      = nodeRow (params v17 v20 v27 v30) (rowOf v12 r) (rowOf v14 r) (onehotRow (v1 (ix2 r 0)) (mat v8)) j := by
  unfold k1_pay1 nodeRow
  refine (dense_apply (M := 2000) (K := 512) (N := 1) (φ := .bf16) _ v27 v30 _ _ _ r j).trans ?_
  refine congrArg (fun w => affine w (mat v27) (rowOf v30 0) j) (funext fun k => ?_)
  refine (relu_apply _ (ix2 r k)).trans ?_
  refine congrArg (max · 0) ?_
  refine (dense_apply (M := 2000) (K := 777) (N := 512) (φ := .bf16) _ v17 v20 _ _ _ r k).trans ?_
  refine congrArg (fun w => affine w (mat v17) (rowOf v20 0) k) (funext fun i => ?_)
  refine (Cert.LibConcatRows.concat3_rows (M := 2000) (A := 9) (B := 512) (C := 256) _ _ _ _ r i).trans ?_
  rw [shapeCast_self v12, shapeCast_self v14]
  refine congrArg (fun w : Fin 256 → EReal => Cert.LibConcatRows.catRow3 (rowOf v12 r) (rowOf v14 r) w i) (funext fun q => ?_)
  exact onehot_apply v1 v8 _ _ _ _ _ _ r q

/-- Row r of the output block: the node row function of row r of the input blocks. -/
theorem out_apply (x0 : Vec Ideal S2000x9 .bf16) (x1 : Vec Ideal S2000x512 .bf16) (x2 : Vec Ideal S2000x1 .i32)
    (x3 : Vec Ideal S16x256 .bf16) (x4 : Vec Ideal S777x512 .bf16) (x5 : Vec Ideal S1x512 .f32)
    (x6 : Vec Ideal S512x1 .bf16) (x7 : Vec Ideal S1x1 .f32) (r : Fin 2000) (j : Fin 1) :
    out1_8 (F := Ideal) x0 x1 x2 x3 x4 x5 x6 x7 (ix2 r j)
      = nodeRow (params x4 x5 x6 x7) (rowOf x0 r) (rowOf x1 r) (onehotRow (x2 (ix2 r 0)) (mat x3)) j := by
  unfold Gen.out1_8
  rw [View.canon_unit_zero hz]
  simp only [View.ld_unit_zero (S := S2000x1) hz, View.ld_unit_zero (S := S16x256) hz,
    View.ld_unit_zero (S := S2000x9) hz, View.ld_unit_zero (S := S2000x512) hz, View.ld_unit_zero (S := S777x512) hz,
    View.ld_unit_zero (S := S1x512) hz, View.ld_unit_zero (S := S512x1) hz, View.ld_unit_zero (S := S1x1) hz]
  exact pay_apply x2 x3 x0 x1 x4 x5 x6 x7 r j

end Cert.KernelIdeal.NodeBody

end
-- ==== Proof.Region1Value.lean ====
/-
  The node kernel's output array after its ten grid points: row n is the node row function of row n of the region's
  input arrays. Each grid point writes back one block of 2000 rows, the blocks tile the array, and a block's row is the
  body's value on the same row of the input blocks.
-/
import proofs.«425427_j50422916055679_1_alg».proof.Proof.Gen.KernelIdeal.Frame
import proofs.«425427_j50422916055679_1_alg».proof.Proof.Spec
import proofs.«425427_j50422916055679_1_alg».proof.Proof.NodeBody
import Idealize.ShloMosaic.Lib.Pipeline.Value
import Idealize.ShloMosaic.Lib.ValueIdx

set_option maxRecDepth 16384

noncomputable section

open Idealize.ShloMosaic Idealize.ShloMosaic.ValueIdx Cert.Spec

namespace Cert.KernelIdeal.Region1Value

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The second node network's parameters as the region finds them in its weight and bias arrays. -/
def params (c : Dev nD) : NodeParams :=
  NodeBody.params (V c main_v56) (V c main_v57) (V c main_v59) (V c main_v60)

/-- The grid has ten points. -/
theorem pt_lt (t : Fin cfg1.N) : t.val < 10 := t.isLt

/-- The printed index maps, decided over the grid: the three tiled inputs and the output are at block (t, 0), the
    table, the weights and the biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row r of the block of point t is row 2000·t + r of the array. -/
def rowAt (t : Fin cfg1.N) (r : Fin 2000) : Fin 20000 := ⟨2000 * t.val + r.val, by have := pt_lt t; have := r.isLt; omega⟩

/-- The node rows' block at point t, read at row r: row 2000·t + r of the node array. -/
theorem blk0_apply (c : Dev nD) (t : Fin cfg1.N) (r : Fin 2000) (i : Fin 9) :
    (iblk1 V c 0 t : Vec Ideal S2000x9 .bf16) (ix2 r i) = (V c main_v10 : S20000x9.Idx → Elt Ideal .bf16) (ix2 (rowAt t r) i) := by
  obtain ⟨e0, e1, -⟩ := idx_facts t
  unfold iblk1
  rw [View.read_apply]
  show V c main_v10 _ = V c main_v10 _
  congr 1
  funext a
  apply Fin.ext
  match a with
  | ⟨0, _⟩ => show win1_0.index t 0 * 2000 + 1 * r.val = 2000 * t.val + r.val; rw [e0]; omega
  | ⟨1, _⟩ => show win1_0.index t 1 * 9 + 1 * i.val = i.val; rw [e1]; omega

/-- The aggregated features' block at point t, read at row r: row 2000·t + r of their array. -/
theorem blk1_apply (c : Dev nD) (t : Fin cfg1.N) (r : Fin 2000) (i : Fin 512) :
    (iblk1 V c 1 t : Vec Ideal S2000x512 .bf16) (ix2 r i) = (V c main_v74 : S20000x512.Idx → Elt Ideal .bf16) (ix2 (rowAt t r) i) := by
  obtain ⟨-, -, e0, e1, -⟩ := idx_facts t
  unfold iblk1
  rw [View.read_apply]
  show V c main_v74 _ = V c main_v74 _
  congr 1
  funext a
  apply Fin.ext
  match a with
  | ⟨0, _⟩ => show win1_1.index t 0 * 2000 + 1 * r.val = 2000 * t.val + r.val; rw [e0]; omega
  | ⟨1, _⟩ => show win1_1.index t 1 * 512 + 1 * i.val = i.val; rw [e1]; omega

/-- The graph numbers' block at point t, read at row r: row 2000·t + r of their array. -/
theorem blk2_apply (c : Dev nD) (t : Fin cfg1.N) (r : Fin 2000) (i : Fin 1) :
    (iblk1 V c 2 t : Vec Ideal S2000x1 .i32) (ix2 r i) = (V c main_v75 : S20000x1.Idx → Elt Ideal .i32) (ix2 (rowAt t r) i) := by
  obtain ⟨-, -, -, -, e0, e1, -⟩ := idx_facts t
  unfold iblk1
  rw [View.read_apply]
  show V c main_v75 _ = V c main_v75 _
  congr 1
  funext a
  apply Fin.ext
  match a with
  | ⟨0, _⟩ => show win1_2.index t 0 * 2000 + 1 * r.val = 2000 * t.val + r.val; rw [e0]; omega
  | ⟨1, _⟩ => show win1_2.index t 1 * 1 + 1 * i.val = i.val; rw [e1]; omega

/-- The table's block is the whole table at every point. -/
theorem blk3_eq (c : Dev nD) (t : Fin cfg1.N) :
    (iblk1 V c 3 t : Vec Ideal S16x256 .bf16) = (V c main_v9 : S16x256.Idx → Elt Ideal .bf16) := by
  obtain ⟨-, -, -, -, -, -, e0, e1, -⟩ := idx_facts t
  funext y
  unfold iblk1
  rw [View.read_apply]
  show V c main_v9 _ = V c main_v9 _
  congr 1
  funext a
  apply Fin.ext
  match a with
  | ⟨0, _⟩ => show win1_3.index t 0 * 16 + 1 * (y 0).val = (y 0).val; rw [e0]; omega
  | ⟨1, _⟩ => show win1_3.index t 1 * 256 + 1 * (y 1).val = (y 1).val; rw [e1]; omega

/-- The first weight matrix's block is the whole matrix at every point. -/
theorem blk4_eq (c : Dev nD) (t : Fin cfg1.N) :
    (iblk1 V c 4 t : Vec Ideal S777x512 .bf16) = (V c main_v56 : S777x512.Idx → Elt Ideal .bf16) := by
  obtain ⟨-, -, -, -, -, -, -, -, e0, e1, -⟩ := idx_facts t
  funext y
  unfold iblk1
  rw [View.read_apply]
  show V c main_v56 _ = V c main_v56 _
  congr 1
  funext a
  apply Fin.ext
  match a with
  | ⟨0, _⟩ => show win1_4.index t 0 * 777 + 1 * (y 0).val = (y 0).val; rw [e0]; omega
  | ⟨1, _⟩ => show win1_4.index t 1 * 512 + 1 * (y 1).val = (y 1).val; rw [e1]; omega

/-- The first bias row's block is the whole row at every point. -/
theorem blk5_eq (c : Dev nD) (t : Fin cfg1.N) :
    (iblk1 V c 5 t : Vec Ideal S1x512 .f32) = (V c main_v57 : S1x512.Idx → Elt Ideal .f32) := by
  obtain ⟨-, -, -, -, -, -, -, -, -, -, e0, e1, -⟩ := idx_facts t
  funext y
  unfold iblk1
  rw [View.read_apply]
  show V c main_v57 _ = V c main_v57 _
  congr 1
  funext a
  apply Fin.ext
  match a with
  | ⟨0, _⟩ => show win1_5.index t 0 * 1 + 1 * (y 0).val = (y 0).val; rw [e0]; omega
  | ⟨1, _⟩ => show win1_5.index t 1 * 512 + 1 * (y 1).val = (y 1).val; rw [e1]; omega

/-- The second weight matrix's block is the whole matrix at every point. -/
theorem blk6_eq (c : Dev nD) (t : Fin cfg1.N) :
    (iblk1 V c 6 t : Vec Ideal S512x1 .bf16) = (V c main_v59 : S512x1.Idx → Elt Ideal .bf16) := by
  obtain ⟨-, -, -, -, -, -, -, -, -, -, -, -, e0, e1, -⟩ := idx_facts t
  funext y
  unfold iblk1
  rw [View.read_apply]
  show V c main_v59 _ = V c main_v59 _
  congr 1
  funext a
  apply Fin.ext
  match a with
  | ⟨0, _⟩ => show win1_6.index t 0 * 512 + 1 * (y 0).val = (y 0).val; rw [e0]; omega
  | ⟨1, _⟩ => show win1_6.index t 1 * 1 + 1 * (y 1).val = (y 1).val; rw [e1]; omega

/-- The second bias's block is the whole array at every point. -/
theorem blk7_eq (c : Dev nD) (t : Fin cfg1.N) :
    (iblk1 V c 7 t : Vec Ideal S1x1 .f32) = (V c main_v60 : S1x1.Idx → Elt Ideal .f32) := by
  obtain ⟨-, -, -, -, -, -, -, -, -, -, -, -, -, -, e0, e1, -⟩ := idx_facts t
  funext y
  unfold iblk1
  rw [View.read_apply]
  show V c main_v60 _ = V c main_v60 _
  congr 1
  funext a
  apply Fin.ext
  match a with
  | ⟨0, _⟩ => show win1_7.index t 0 * 1 + 1 * (y 0).val = (y 0).val; rw [e0]; omega
  | ⟨1, _⟩ => show win1_7.index t 1 * 1 + 1 * (y 1).val = (y 1).val; rw [e1]; omega

/-- Row r of the node rows' block at point t is row 2000·t + r of the node array. -/
theorem row0 (c : Dev nD) (t : Fin cfg1.N) (r : Fin 2000) :
    rowOf (iblk1 V c 0 t : Vec Ideal S2000x9 .bf16) r = rowOf (V c main_v10 : S20000x9.Idx → Elt Ideal .bf16) (rowAt t r) :=
  funext fun i => blk0_apply V c t r i

/-- Row r of the aggregated features' block at point t is row 2000·t + r of their array. -/
theorem row1 (c : Dev nD) (t : Fin cfg1.N) (r : Fin 2000) :
    rowOf (iblk1 V c 1 t : Vec Ideal S2000x512 .bf16) r = rowOf (V c main_v74 : S20000x512.Idx → Elt Ideal .bf16) (rowAt t r) :=
  funext fun i => blk1_apply V c t r i

/-- The array the region leaves: row n is the node row function of row n of the input arrays. -/
abbrev G (c : Dev nD) : S20000x1.Idx → Elt Ideal .f32 :=
  arr2 (M := 20000) (N := 1) (fun n j => nodeRow (params V c) (rowOf (V c main_v10) n) (rowOf (V c main_v74) n)
    (onehotRow (V c main_v75 (ix2 n 0)) (mat (V c main_v9))) j)

/-- An element of the output block of point t sits in the array at row 2000·t + r. -/
theorem out_emb (t : Fin cfg1.N) (r : Fin 2000) (j : Fin 1) :
    (((cfg1.win 8).blk t).view.emb (ix2 r j) : S20000x1.Idx) = ix2 (rowAt t r) j := by
  obtain ⟨-, -, -, -, -, -, -, -, -, -, -, -, -, -, -, -, e0, e1⟩ := idx_facts t
  funext a
  apply Fin.ext
  match a with
  | ⟨0, _⟩ => show win1_8.index t 0 * 2000 + 1 * r.val = 2000 * t.val + r.val; rw [e0]; omega
  | ⟨1, _⟩ => show win1_8.index t 1 * 1 + 1 * j.val = j.val; rw [e1]; omega

/-- What point t writes back is block t of the array of node row functions: the body's value on row r of the input
    blocks is the node row function of row 2000·t + r of the input arrays. -/
theorem flushed_eq (c : Dev nD) (t : Fin cfg1.N) :
    (dat1 (F := Ideal) V c).flushed 8 t = ((cfg1.win 8).blk t).view.read (Elt Ideal) (G V c) := by
  show (cfg1.win 8).cut (grid1.coords t) ((dat1 V c).after 8 t) = _
  rw [after1_8]
  funext y
  obtain ⟨r, j, rfl⟩ : ∃ (r : Fin 2000) (j : Fin 1), y = ix2 r j := ⟨y 0, y 1, eq_ix2 y⟩
  rw [View.read_apply]
  show out1_8 (F := Ideal) (iblk1 V c 0 t) (iblk1 V c 1 t) (iblk1 V c 2 t) (iblk1 V c 3 t) (iblk1 V c 4 t) (iblk1 V c 5 t) (iblk1 V c 6 t) (iblk1 V c 7 t) (ix2 r j) = G V c (((cfg1.win 8).blk t).view.emb (ix2 r j))
  rw [out_emb t r j]
  refine (NodeBody.out_apply (iblk1 V c 0 t) (iblk1 V c 1 t) (iblk1 V c 2 t) (iblk1 V c 3 t) (iblk1 V c 4 t) (iblk1 V c 5 t) (iblk1 V c 6 t) (iblk1 V c 7 t) r j).trans ?_
  rw [blk3_eq V c t, blk4_eq V c t, blk5_eq V c t, blk6_eq V c t, blk7_eq V c t, row0 V c t r, row1 V c t r, blk2_apply V c t r 0]
  rfl

/-- An index of the array is in the block of point t iff each coordinate is in the block's range on its axis. -/
theorem mem_blk (t : Fin cfg1.N) (i : S20000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v76).slice (win1_8.rect t)).set ↔ _
  rw [View.set_slice_whole, Rect.mem_set_unit]
  exact Iff.rfl

/-- Every row of the array is in the block of the point numbered by the row's quotient by 2000. -/
theorem cover (i : S20000x1.Idx) : ∃ t : Fin cfg1.N, (cfg1.win 8).flush t = true ∧ i ∈ ((cfg1.win 8).blk t).view.set := by
  have hi0 : (i 0).val < 20000 := (i 0).isLt
  have hi1 : (i 1).val < 1 := (i 1).isLt
  obtain ⟨t, ht⟩ : ∃ t : Fin cfg1.N, t.val = (i 0).val / 2000 := ⟨⟨(i 0).val / 2000, by show _ < 10; omega⟩, rfl⟩
  obtain ⟨-, -, -, -, -, -, -, -, -, -, -, -, -, -, -, -, e0, e1⟩ := idx_facts t
  refine ⟨t, flush1_8 t, ?_⟩
  rw [mem_blk]
  intro a
  match a with
  | ⟨0, _⟩ => show win1_8.index t 0 * 2000 ≤ (i 0).val ∧ (i 0).val < win1_8.index t 0 * 2000 + 2000; rw [e0, ht]; omega
  | ⟨1, _⟩ => show win1_8.index t 1 * 1 ≤ (i 1).val ∧ (i 1).val < win1_8.index t 1 * 1 + 1; rw [e1]; omega

/-- The region's output array after the last grid point. -/
theorem arr (c : Dev nD) :
    (dat1 (F := Ideal) V c).arrAt 8 cfg1.N
      = arr2 (M := 20000) (N := 1) (fun n j => nodeRow (params V c) (rowOf (V c main_v10) n) (rowOf (V c main_v74) n)
          (onehotRow (V c main_v75 (ix2 n 0)) (mat (V c main_v9))) j) :=
  (dat1 (F := Ideal) V c).arrAt_eq_of_cover 8 (G V c) (fun t _ => flushed_eq V c t) cover

end Cert.KernelIdeal.Region1Value

end
-- ==== Proof.KernelHost0.lean ====
/-
  What the host operations before the edge kernel leave in the arrays the kernel reads, as functions of the arguments:
  the gathered source and destination rows, the edge attributes, the per-edge graph numbers, the reduced global table,
  and the transposed weights and the biases (a change of float format changes nothing at the ideal values).
-/
import proofs.«425427_j50422916055679_1_alg».proof.Proof.Gen.KernelIdeal.Frame
import proofs.«425427_j50422916055679_1_alg».proof.Proof.Spec
import proofs.«425427_j50422916055679_1_alg».proof.Proof.RefRead
import proofs.«425427_j50422916055679_1_alg».proof.Proof.RefEdge
import proofs.«425427_j50422916055679_1_alg».proof.Proof.Region0Value
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.ValueIdx Cert.Spec

namespace Cert.KernelIdeal.HostVals0

open Cert.KernelIdeal Cert.KernelIdeal.Gen
open Idealize.ShloMosaic Idealize.ShloMosaic.TcCoe Idealize.SL.Sem
open Idealize.ShloMosaic.Pipeline (Dat Cfg Window)

open Cert.ReferenceIdeal.ReadP

variable (m : (ℓ : Loc nD τ sig) → Buf (Elt Ideal) ℓ) (ρ : Dev nD → PrngReg) (c : Dev nD)

/-- The source rows the kernel reads are the reference's gathered source rows. -/
theorem hv17 : (V1 m ρ c main_v17 : S100000x9.Idx → Ideal .bf16) = val_main_v22 (F := Ideal) (m ((c : Thread nD τ).loc main_arg0)) (m ((c : Thread nD τ).loc main_arg1)) := by
  show StableHlo.after hostOps0 (W0 m ρ c) (Proc.devRef .tc main_v17) = _
  after_results_simp
  rfl

/-- The destination rows the kernel reads are the reference's gathered destination rows. -/
theorem hv24 : (V1 m ρ c main_v24 : S100000x9.Idx → Ideal .bf16) = val_main_v29 (F := Ideal) (m ((c : Thread nD τ).loc main_arg0)) (m ((c : Thread nD τ).loc main_arg1)) := by
  show StableHlo.after hostOps0 (W0 m ρ c) (Proc.devRef .tc main_v24) = _
  after_results_simp
  rfl

/-- The edge attributes the kernel reads are the argument's. -/
theorem hv25 : (V1 m ρ c main_v25 : S100000x1.Idx → Ideal .bf16) = (m ((c : Thread nD τ).loc main_arg2)) := by
  show StableHlo.after hostOps0 (W0 m ρ c) (Proc.devRef .tc main_v25) = _
  after_results_simp
  rfl

/-- The per-edge graph numbers the kernel reads are the reference's gathered graph numbers, as a column. -/
theorem hv33 (e : Fin 100000) : (V1 m ρ c main_v33 : S100000x1.Idx → BitVec 32) (ix2 e 0) = val_main_v15 (F := Ideal) (m ((c : Thread nD τ).loc main_arg1)) (m ((c : Thread nD τ).loc main_arg4)) (ix1 e) := by
  -- the column is the gathered vector with a unit axis appended: entry (e, 0) sits at row-major position e
  have h : (V1 m ρ c main_v33 : S100000x1.Idx → BitVec 32)
      = shapeCast S100000x1 (val_main_v15 (F := Ideal) (m ((c : Thread nD τ).loc main_arg1)) (m ((c : Thread nD τ).loc main_arg4))) shapeCasts_S100000_S100000x1 := by
    show StableHlo.after hostOps0 (W0 m ρ c) (Proc.devRef .tc main_v33) = _
    after_results_simp
    rfl
  rw [h]
  exact shapeCast_apply _ _ _ _ (by
    rw [Shape.rowMajor_val_two, Shape.rowMajor_val_one]
    show e.val = e.val * 1 + 0
    omega)

/-- The reduced global table the kernel reads is the reference's. -/
theorem hv9 : (V1 m ρ c main_v9 : S16x256.Idx → Ideal .bf16) = val_main_v8 (F := Ideal) (m ((c : Thread nD τ).loc main_arg3)) (m ((c : Thread nD τ).loc main_arg5)) (m ((c : Thread nD τ).loc main_arg6)) := by
  show StableHlo.after hostOps0 (W0 m ρ c) (Proc.devRef .tc main_v9) = _
  after_results_simp
  rfl

/-! The fourteen parameter arrays, one at a time: a weight matrix is the argument transposed; a bias, stored as a
    one-row matrix, has the argument's entries in that row. -/

theorem hW0 : (V1 m ρ c main_v35 : S275x1024.Idx → Ideal .bf16) = val_main_v38 (F := Ideal) (m ((c : Thread nD τ).loc main_arg7)) := by
  show StableHlo.after hostOps0 (W0 m ρ c) (Proc.devRef .tc main_v35) = _
  after_results_simp
  rfl

theorem hW1 : (V1 m ρ c main_v38 : S1024x1024.Idx → Ideal .bf16) = val_main_v44 (F := Ideal) (m ((c : Thread nD τ).loc main_arg9)) := by
  show StableHlo.after hostOps0 (W0 m ρ c) (Proc.devRef .tc main_v38) = _
  after_results_simp
  rfl

theorem hW2 : (V1 m ρ c main_v41 : S1024x1024.Idx → Ideal .bf16) = val_main_v50 (F := Ideal) (m ((c : Thread nD τ).loc main_arg11)) := by
  show StableHlo.after hostOps0 (W0 m ρ c) (Proc.devRef .tc main_v41) = _
  after_results_simp
  rfl

theorem hW3 : (V1 m ρ c main_v44 : S1024x1024.Idx → Ideal .bf16) = val_main_v56 (F := Ideal) (m ((c : Thread nD τ).loc main_arg13)) := by
  show StableHlo.after hostOps0 (W0 m ρ c) (Proc.devRef .tc main_v44) = _
  after_results_simp
  rfl

theorem hW4 : (V1 m ρ c main_v47 : S1024x512.Idx → Ideal .bf16) = val_main_v62 (F := Ideal) (m ((c : Thread nD τ).loc main_arg15)) := by
  show StableHlo.after hostOps0 (W0 m ρ c) (Proc.devRef .tc main_v47) = _
  after_results_simp
  rfl

theorem hWn0 : (V1 m ρ c main_v50 : S521x512.Idx → Ideal .bf16) = val_main_v75 (F := Ideal) (m ((c : Thread nD τ).loc main_arg17)) := by
  show StableHlo.after hostOps0 (W0 m ρ c) (Proc.devRef .tc main_v50) = _
  after_results_simp
  rfl

theorem hWn1 : (V1 m ρ c main_v53 : S512x512.Idx → Ideal .bf16) = val_main_v81 (F := Ideal) (m ((c : Thread nD τ).loc main_arg19)) := by
  show StableHlo.after hostOps0 (W0 m ρ c) (Proc.devRef .tc main_v53) = _
  after_results_simp
  rfl

theorem hb0 : rowOf (V1 m ρ c main_v36 : S1x1024.Idx → Ideal .f32) 0 = vec1 (m ((c : Thread nD τ).loc main_arg8)) := by
  have h : (V1 m ρ c main_v36 : S1x1024.Idx → Ideal .f32) = shapeCast S1x1024 (m ((c : Thread nD τ).loc main_arg8)) shapeCasts_S1024_S1x1024 := by
    show StableHlo.after hostOps0 (W0 m ρ c) (Proc.devRef .tc main_v36) = _
    after_results_simp
    rfl
  funext j
  show (V1 m ρ c main_v36 : S1x1024.Idx → Ideal .f32) (ix2 0 j) = (m ((c : Thread nD τ).loc main_arg8)) (ix1 j)
  rw [h]
  exact shapeCast_a_1a_apply _ _ 0 j

theorem hb1 : rowOf (V1 m ρ c main_v39 : S1x1024.Idx → Ideal .f32) 0 = vec1 (m ((c : Thread nD τ).loc main_arg10)) := by
  have h : (V1 m ρ c main_v39 : S1x1024.Idx → Ideal .f32) = shapeCast S1x1024 (m ((c : Thread nD τ).loc main_arg10)) shapeCasts_S1024_S1x1024 := by
    show StableHlo.after hostOps0 (W0 m ρ c) (Proc.devRef .tc main_v39) = _
    after_results_simp
    rfl
  funext j
  show (V1 m ρ c main_v39 : S1x1024.Idx → Ideal .f32) (ix2 0 j) = (m ((c : Thread nD τ).loc main_arg10)) (ix1 j)
  rw [h]
  exact shapeCast_a_1a_apply _ _ 0 j

theorem hb2 : rowOf (V1 m ρ c main_v42 : S1x1024.Idx → Ideal .f32) 0 = vec1 (m ((c : Thread nD τ).loc main_arg12)) := by
  have h : (V1 m ρ c main_v42 : S1x1024.Idx → Ideal .f32) = shapeCast S1x1024 (m ((c : Thread nD τ).loc main_arg12)) shapeCasts_S1024_S1x1024 := by
    show StableHlo.after hostOps0 (W0 m ρ c) (Proc.devRef .tc main_v42) = _
    after_results_simp
    rfl
  funext j
  show (V1 m ρ c main_v42 : S1x1024.Idx → Ideal .f32) (ix2 0 j) = (m ((c : Thread nD τ).loc main_arg12)) (ix1 j)
  rw [h]
  exact shapeCast_a_1a_apply _ _ 0 j

theorem hb3 : rowOf (V1 m ρ c main_v45 : S1x1024.Idx → Ideal .f32) 0 = vec1 (m ((c : Thread nD τ).loc main_arg14)) := by
  have h : (V1 m ρ c main_v45 : S1x1024.Idx → Ideal .f32) = shapeCast S1x1024 (m ((c : Thread nD τ).loc main_arg14)) shapeCasts_S1024_S1x1024 := by
    show StableHlo.after hostOps0 (W0 m ρ c) (Proc.devRef .tc main_v45) = _
    after_results_simp
    rfl
  funext j
  show (V1 m ρ c main_v45 : S1x1024.Idx → Ideal .f32) (ix2 0 j) = (m ((c : Thread nD τ).loc main_arg14)) (ix1 j)
  rw [h]
  exact shapeCast_a_1a_apply _ _ 0 j

theorem hb4 : rowOf (V1 m ρ c main_v48 : S1x512.Idx → Ideal .f32) 0 = vec1 (m ((c : Thread nD τ).loc main_arg16)) := by
  have h : (V1 m ρ c main_v48 : S1x512.Idx → Ideal .f32) = shapeCast S1x512 (m ((c : Thread nD τ).loc main_arg16)) shapeCasts_S512_S1x512 := by
    show StableHlo.after hostOps0 (W0 m ρ c) (Proc.devRef .tc main_v48) = _
    after_results_simp
    rfl
  funext j
  show (V1 m ρ c main_v48 : S1x512.Idx → Ideal .f32) (ix2 0 j) = (m ((c : Thread nD τ).loc main_arg16)) (ix1 j)
  rw [h]
  exact shapeCast_a_1a_apply _ _ 0 j

theorem hbn0 : rowOf (V1 m ρ c main_v51 : S1x512.Idx → Ideal .f32) 0 = vec1 (m ((c : Thread nD τ).loc main_arg18)) := by
  have h : (V1 m ρ c main_v51 : S1x512.Idx → Ideal .f32) = shapeCast S1x512 (m ((c : Thread nD τ).loc main_arg18)) shapeCasts_S512_S1x512 := by
    show StableHlo.after hostOps0 (W0 m ρ c) (Proc.devRef .tc main_v51) = _
    after_results_simp
    rfl
  funext j
  show (V1 m ρ c main_v51 : S1x512.Idx → Ideal .f32) (ix2 0 j) = (m ((c : Thread nD τ).loc main_arg18)) (ix1 j)
  rw [h]
  exact shapeCast_a_1a_apply _ _ 0 j

theorem hbn1 : rowOf (V1 m ρ c main_v54 : S1x512.Idx → Ideal .f32) 0 = vec1 (m ((c : Thread nD τ).loc main_arg20)) := by
  have h : (V1 m ρ c main_v54 : S1x512.Idx → Ideal .f32) = shapeCast S1x512 (m ((c : Thread nD τ).loc main_arg20)) shapeCasts_S512_S1x512 := by
    show StableHlo.after hostOps0 (W0 m ρ c) (Proc.devRef .tc main_v54) = _
    after_results_simp
    rfl
  funext j
  show (V1 m ρ c main_v54 : S1x512.Idx → Ideal .f32) (ix2 0 j) = (m ((c : Thread nD τ).loc main_arg20)) (ix1 j)
  rw [h]
  exact shapeCast_a_1a_apply _ _ 0 j

/-- The edge network's parameters the kernel reads are the reference's. -/
theorem hparams : Region0Value.params (V1 m ρ) c = Cert.ReferenceIdeal.RefEdge.params (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold Region0Value.params EdgeBody.params Cert.ReferenceIdeal.RefEdge.params
  rw [hW0 m ρ c, hb0 m ρ c, hW1 m ρ c, hb1 m ρ c, hW2 m ρ c, hb2 m ρ c, hW3 m ρ c, hb3 m ρ c, hW4 m ρ c, hb4 m ρ c, hWn0 m ρ c, hbn0 m ρ c, hWn1 m ρ c, hbn1 m ρ c]

end Cert.KernelIdeal.HostVals0

end
-- ==== Proof.KernelHost1.lean ====
/-
  What the node kernel finds in the arrays it reads, as functions of the arguments and of the edge kernel's output:
  the node rows, the scatter mean of the edge kernel's output, the graph numbers as a column, the reduced global table, the
  transposed weights and the biases; and the program's result, the node kernel's one-column output flattened.
-/
import proofs.«425427_j50422916055679_1_alg».proof.Proof.Gen.KernelIdeal.Frame
import proofs.«425427_j50422916055679_1_alg».proof.Proof.Spec
import proofs.«425427_j50422916055679_1_alg».proof.Proof.RefRead
import proofs.«425427_j50422916055679_1_alg».proof.Proof.RefAgg
import proofs.«425427_j50422916055679_1_alg».proof.Proof.RefNode
import proofs.«425427_j50422916055679_1_alg».proof.Proof.Region1Value
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.ValueIdx Cert.Spec

namespace Cert.KernelIdeal.HostVals1

open Cert.KernelIdeal Cert.KernelIdeal.Gen
open Idealize.ShloMosaic Idealize.ShloMosaic.TcCoe Idealize.SL.Sem
open Idealize.ShloMosaic.Pipeline (Dat Cfg Window)

open Cert.ReferenceIdeal.ReadP

variable (m : (ℓ : Loc nD τ sig) → Buf (Elt Ideal) ℓ) (ρ : Dev nD → PrngReg) (c : Dev nD)

/-- The node rows the kernel reads are the argument's. -/
theorem hv10 : (V3 m ρ c main_v10 : S20000x9.Idx → Ideal .bf16) = (m ((c : Thread nD τ).loc main_arg0)) := by
  have e3 : W3 m ρ c (Proc.devRef .tc main_v10) = W2 m ρ c (Proc.devRef .tc main_v10) :=
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_v10) = W1 m ρ c (Proc.devRef .tc main_v10) := W2_of_ne m ρ c main_v10 (by decide)
  have e1 : W1 m ρ c (Proc.devRef .tc main_v10) = m ((c : Thread nD τ).loc main_arg0) := by
    show StableHlo.after hostOps0 (W0 m ρ c) (Proc.devRef .tc main_v10) = _
    after_results_simp
    rfl
  exact e3.trans (e2.trans e1)

/-- The source-node numbers the host operations after the edge kernel read are the reference's. -/
theorem hv1 : (W2 m ρ c (Proc.devRef .tc main_v1) : S100000.Idx → BitVec 32) = val_main_v1 (F := Ideal) (m ((c : Thread nD τ).loc main_arg1)) := by
  have e2 : W2 m ρ c (Proc.devRef .tc main_v1) = W1 m ρ c (Proc.devRef .tc main_v1) := W2_of_ne m ρ c main_v1 (by decide)
  have e1 : W1 m ρ c (Proc.devRef .tc main_v1) = val_main_v1 (F := Ideal) (m ((c : Thread nD τ).loc main_arg1)) := by
    show StableHlo.after hostOps0 (W0 m ρ c) (Proc.devRef .tc main_v1) = _
    after_results_simp
    rfl
  exact e2.trans e1

/-- The aggregated features the kernel reads are the scatter mean of the edge kernel's output array. -/
theorem hv74 : (V3 m ρ c main_v74 : S20000x512.Idx → Ideal .bf16)
    = Cert.ReferenceIdeal.RefAgg.agg ((dat0 (F := Ideal) (V1 m ρ) c).arrAt 19 cfg0.N) (m ((c : Thread nD τ).loc main_arg1)) := by
  show StableHlo.after hostOps1 (W2 m ρ c) (Proc.devRef .tc main_v74) = _
  after_results_simp
  rw [hv1 m ρ c, W2_arr m ρ c 19]
  rfl

/-- The graph numbers the kernel reads are the argument's, as a column. -/
theorem hv75 (n : Fin 20000) : (V3 m ρ c main_v75 : S20000x1.Idx → BitVec 32) (ix2 n 0) = (m ((c : Thread nD τ).loc main_arg4)) (ix1 n) := by
  have e2 : W2 m ρ c (Proc.devRef .tc main_arg4) = W1 m ρ c (Proc.devRef .tc main_arg4) := W2_of_ne m ρ c main_arg4 (by decide)
  have e1 : W1 m ρ c (Proc.devRef .tc main_arg4) = m ((c : Thread nD τ).loc main_arg4) :=
    StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e3 : (W3 m ρ c (Proc.devRef .tc main_v75) : S20000x1.Idx → BitVec 32)
      = shapeCast S20000x1 (W2 m ρ c (Proc.devRef .tc main_arg4) : S20000.Idx → BitVec 32) shapeCasts_S20000_S20000x1 := by
    show StableHlo.after hostOps1 (W2 m ρ c) (Proc.devRef .tc main_v75) = _
    after_results
    rfl
  show (W3 m ρ c (Proc.devRef .tc main_v75) : S20000x1.Idx → BitVec 32) (ix2 n 0) = _
  rw [e3, e2, e1]
  exact shapeCast_apply _ shapeCasts_S20000_S20000x1 (ix2 n 0) (ix1 n)
    (by rw [Shape.rowMajor_val_two, Shape.rowMajor_val_one]; show n.val = n.val * 1 + 0; omega)

/-- The reduced global table the kernel reads is the reference's. -/
theorem hv9 : (V3 m ρ c main_v9 : S16x256.Idx → Ideal .bf16) = val_main_v8 (F := Ideal) (m ((c : Thread nD τ).loc main_arg3)) (m ((c : Thread nD τ).loc main_arg5)) (m ((c : Thread nD τ).loc main_arg6)) := by
  have e3 : W3 m ρ c (Proc.devRef .tc main_v9) = W2 m ρ c (Proc.devRef .tc main_v9) :=
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_v9) = V1 m ρ c main_v9 :=
    (W2_arr m ρ c 4).trans (((dat0 (F := Ideal) (V1 m ρ) c).arrAt_in 4 rfl _).trans (A_eq0 (V1 m ρ) c 4))
  have e1 : W1 m ρ c (Proc.devRef .tc main_v9) = val_main_v8 (F := Ideal) (m ((c : Thread nD τ).loc main_arg3)) (m ((c : Thread nD τ).loc main_arg5)) (m ((c : Thread nD τ).loc main_arg6)) := by
    show StableHlo.after hostOps0 (W0 m ρ c) (Proc.devRef .tc main_v9) = _
    after_results_simp
    rfl
  exact e3.trans (e2.trans e1)

/-- The first weight matrix the kernel reads is the argument's transpose. -/
theorem hv56 : (V3 m ρ c main_v56 : S777x512.Idx → Ideal .bf16) = val_main_v107 (F := Ideal) (m ((c : Thread nD τ).loc main_arg21)) := by
  have e3 : W3 m ρ c (Proc.devRef .tc main_v56) = W2 m ρ c (Proc.devRef .tc main_v56) :=
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_v56) = W1 m ρ c (Proc.devRef .tc main_v56) := W2_of_ne m ρ c main_v56 (by decide)
  have e1 : W1 m ρ c (Proc.devRef .tc main_v56) = val_main_v107 (F := Ideal) (m ((c : Thread nD τ).loc main_arg21)) := by
    show StableHlo.after hostOps0 (W0 m ρ c) (Proc.devRef .tc main_v56) = _
    after_results_simp
    rfl
  exact e3.trans (e2.trans e1)

/-- The first bias the kernel reads, as a one-row matrix, holds the argument's entries. -/
theorem hv57 (j : Fin 512) : (V3 m ρ c main_v57 : S1x512.Idx → Ideal .f32) (ix2 0 j) = (m ((c : Thread nD τ).loc main_arg22)) (ix1 j) := by
  have e3 : W3 m ρ c (Proc.devRef .tc main_v57) = W2 m ρ c (Proc.devRef .tc main_v57) :=
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_v57) = W1 m ρ c (Proc.devRef .tc main_v57) := W2_of_ne m ρ c main_v57 (by decide)
  have e1 : (W1 m ρ c (Proc.devRef .tc main_v57) : S1x512.Idx → Ideal .f32)
      = shapeCast S1x512 (m ((c : Thread nD τ).loc main_arg22) : S512.Idx → Ideal .f32) shapeCasts_S512_S1x512 := by
    show StableHlo.after hostOps0 (W0 m ρ c) (Proc.devRef .tc main_v57) = _
    after_results_simp
    rfl
  show (W3 m ρ c (Proc.devRef .tc main_v57) : S1x512.Idx → Ideal .f32) (ix2 0 j) = _
  rw [e3, e2, e1]
  exact shapeCast_a_1a_apply _ shapeCasts_S512_S1x512 0 j

/-- The second weight matrix the kernel reads is the argument's transpose. -/
theorem hv59 : (V3 m ρ c main_v59 : S512x1.Idx → Ideal .bf16) = val_main_v113 (F := Ideal) (m ((c : Thread nD τ).loc main_arg23)) := by
  have e3 : W3 m ρ c (Proc.devRef .tc main_v59) = W2 m ρ c (Proc.devRef .tc main_v59) :=
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_v59) = W1 m ρ c (Proc.devRef .tc main_v59) := W2_of_ne m ρ c main_v59 (by decide)
  have e1 : W1 m ρ c (Proc.devRef .tc main_v59) = val_main_v113 (F := Ideal) (m ((c : Thread nD τ).loc main_arg23)) := by
    show StableHlo.after hostOps0 (W0 m ρ c) (Proc.devRef .tc main_v59) = _
    after_results_simp
    rfl
  exact e3.trans (e2.trans e1)

/-- The second bias the kernel reads, as a one-by-one matrix, holds the argument's entry. -/
theorem hv60 (j : Fin 1) : (V3 m ρ c main_v60 : S1x1.Idx → Ideal .f32) (ix2 0 j) = (m ((c : Thread nD τ).loc main_arg24)) (ix1 j) := by
  have e3 : W3 m ρ c (Proc.devRef .tc main_v60) = W2 m ρ c (Proc.devRef .tc main_v60) :=
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_v60) = W1 m ρ c (Proc.devRef .tc main_v60) := W2_of_ne m ρ c main_v60 (by decide)
  have e1 : (W1 m ρ c (Proc.devRef .tc main_v60) : S1x1.Idx → Ideal .f32)
      = shapeCast S1x1 (m ((c : Thread nD τ).loc main_arg24) : S1.Idx → Ideal .f32) shapeCasts_S1_S1x1 := by
    show StableHlo.after hostOps0 (W0 m ρ c) (Proc.devRef .tc main_v60) = _
    after_results_simp
    rfl
  show (W3 m ρ c (Proc.devRef .tc main_v60) : S1x1.Idx → Ideal .f32) (ix2 0 j) = _
  rw [e3, e2, e1]
  exact shapeCast_a_1a_apply _ shapeCasts_S1_S1x1 0 j

/-- The second node network's parameters the kernel reads are the reference's. -/
theorem hparams : Region1Value.params (V3 m ρ) c = Cert.ReferenceIdeal.RefNode.params (m ((c : Thread nD τ).loc main_arg21)) (m ((c : Thread nD τ).loc main_arg22)) (m ((c : Thread nD τ).loc main_arg23)) (m ((c : Thread nD τ).loc main_arg24)) := by
  have h1 : mat (K := 777) (N := 512) (V3 m ρ c main_v56 : S777x512.Idx → Ideal .bf16)
      = mat (val_main_v107 (F := Ideal) (m ((c : Thread nD τ).loc main_arg21))) := congrArg mat (hv56 m ρ c)
  have h2 : rowOf (M := 1) (N := 512) (V3 m ρ c main_v57 : S1x512.Idx → Ideal .f32) 0
      = vec1 (N := 512) (m ((c : Thread nD τ).loc main_arg22)) := funext fun j => hv57 m ρ c j
  have h3 : mat (K := 512) (N := 1) (V3 m ρ c main_v59 : S512x1.Idx → Ideal .bf16)
      = mat (val_main_v113 (F := Ideal) (m ((c : Thread nD τ).loc main_arg23))) := congrArg mat (hv59 m ρ c)
  have h4 : rowOf (M := 1) (N := 1) (V3 m ρ c main_v60 : S1x1.Idx → Ideal .f32) 0
      = vec1 (N := 1) (m ((c : Thread nD τ).loc main_arg24)) := funext fun j => hv60 m ρ c j
  exact congr (congr (congr (congrArg NodeParams.mk h1) h2) h3) h4

/-- The program's result, entry n: row n of the node kernel's output array. -/
theorem hfinal (n : Fin 20000) :
    (W5 m ρ c (Proc.devRef .tc main_v77) : S20000.Idx → Ideal .f32) (ix1 n)
      = ((dat1 (F := Ideal) (V3 m ρ) c).arrAt 8 cfg1.N : S20000x1.Idx → Ideal .f32) (ix2 n 0) := by
  have e5 : (W5 m ρ c (Proc.devRef .tc main_v77) : S20000.Idx → Ideal .f32)
      = shapeCast S20000 (W4 m ρ c (Proc.devRef .tc main_v76) : S20000x1.Idx → Ideal .f32) shapeCasts_S20000x1_S20000 := by
    show StableHlo.after hostOps2 (W4 m ρ c) (Proc.devRef .tc main_v77) = _
    after_results
    rfl
  have e4 : W4 m ρ c (Proc.devRef .tc main_v76) = (dat1 (F := Ideal) (V3 m ρ) c).arrAt 8 cfg1.N := W4_arr m ρ c 8
  rw [e5, e4]
  exact shapeCast_apply _ shapeCasts_S20000x1_S20000 (ix1 n) (ix2 n 0)
    (by rw [Shape.rowMajor_val_two, Shape.rowMajor_val_one]; show n.val * 1 + 0 = n.val; omega)

end Cert.KernelIdeal.HostVals1

end
-- ==== Proof.Bridge.lean ====
/-
  The kernel program's result is the reference's last stage function of the same arguments. The edge kernel's output
  array is the reference's per-edge feature matrix (same row function on the same gathered rows; the row of the reduced
  global table is chosen by a gather on one side and by an indicator-weighted sum on the other, and the graph numbers
  are in [0, 16) by the precondition); the scatter mean is the same function of it on both sides; the node kernel's output
  array is the reference's last matrix for the same reasons; the result is that matrix flattened.
-/
import proofs.«425427_j50422916055679_1_alg».proof.Proof.Gen.KernelIdeal.Frame
import proofs.«425427_j50422916055679_1_alg».proof.Proof.Spec
import proofs.«425427_j50422916055679_1_alg».proof.Proof.RefRead
import proofs.«425427_j50422916055679_1_alg».proof.Proof.RefAgg
import proofs.«425427_j50422916055679_1_alg».proof.Proof.RefEdge
import proofs.«425427_j50422916055679_1_alg».proof.Proof.RefNode
import proofs.«425427_j50422916055679_1_alg».proof.Proof.GatherOneHot
import proofs.«425427_j50422916055679_1_alg».proof.Proof.Region0Value
import proofs.«425427_j50422916055679_1_alg».proof.Proof.Region1Value
import proofs.«425427_j50422916055679_1_alg».proof.Proof.KernelHost0
import proofs.«425427_j50422916055679_1_alg».proof.Proof.KernelHost1
import Idealize.ShloMosaic.Lib.ValueIdx

set_option maxRecDepth 16384

noncomputable section

open Idealize.ShloMosaic Idealize.ShloMosaic.ValueIdx Cert.Spec

namespace Cert.KernelIdeal.Bridge

open Cert.KernelIdeal Cert.KernelIdeal.Gen
open Idealize.ShloMosaic Idealize.ShloMosaic.TcCoe Idealize.SL.Sem
open Idealize.ShloMosaic.Pipeline (Dat Cfg Window)

open Cert.ReferenceIdeal.ReadP

variable (m : (ℓ : Loc nD τ sig) → Buf (Elt Ideal) ℓ) (ρ : Dev nD → PrngReg) (c : Dev nD)

/-- The edge kernel's output array is the reference's per-edge feature matrix. -/
theorem edge_features
    (hr : ∀ n : Fin 20000, 0 ≤ ((m ((c : Thread nD τ).loc main_arg4)) (ix1 n) : BitVec 32).toInt ∧ ((m ((c : Thread nD τ).loc main_arg4)) (ix1 n) : BitVec 32).toInt < 16) :
    ((dat0 (F := Ideal) (V1 m ρ) c).arrAt 19 cfg0.N : S100000x512.Idx → Ideal .f32)
      = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (Region0Value.arr (V1 m ρ) c).trans ?_
  funext i
  obtain ⟨e, j, rfl⟩ : ∃ (e : Fin 100000) (j : Fin 512), i = ix2 e j := ⟨i 0, i 1, eq_ix2 i⟩
  rw [arr2_ix2, Cert.ReferenceIdeal.RefEdge.h_apply, HostVals0.hparams, HostVals0.hv17, HostVals0.hv24, HostVals0.hv25,
    HostVals0.hv33, HostVals0.hv9, Cert.ReferenceIdeal.GatherOneHot.edge_rows _ _ _ _ _ hr e]

/-- The kernel program's result is the reference's last stage function of the arguments. -/
theorem result
    (hr : ∀ n : Fin 20000, 0 ≤ ((m ((c : Thread nD τ).loc main_arg4)) (ix1 n) : BitVec 32).toInt ∧ ((m ((c : Thread nD τ).loc main_arg4)) (ix1 n) : BitVec 32).toInt < 16) :
    (W5 m ρ c (Proc.devRef .tc main_v77) : S20000.Idx → Ideal .f32)
      = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  funext i
  obtain ⟨n, rfl⟩ : ∃ n : Fin 20000, i = ix1 n := ⟨i 0, eq_ix1 i⟩
  rw [HostVals1.hfinal, Region1Value.arr (V3 m ρ) c, arr2_ix2, Cert.ReferenceIdeal.RefNode.res_apply,
    Cert.ReferenceIdeal.RefNode.out_apply, HostVals1.hparams, HostVals1.hv10, HostVals1.hv74, edge_features m ρ c hr,
    ← Cert.ReferenceIdeal.RefAgg.v98_eq, HostVals1.hv75, HostVals1.hv9,
    Cert.ReferenceIdeal.GatherOneHot.node_rows _ _ _ _ hr n]

end Cert.KernelIdeal.Bridge

end
-- ==== Proof.lean ====
/-
  The certificate of the message-passing layer: a Pallas program of two kernels (the fused edge network with the first node
  network, tiled over edges; the second node network, tiled over nodes) among host operations, against its plain reference.

  The three frames: the two kernel programs' are the generated frame certificates; the reference's is its run with the
  result dropped. The idealization's ledger is empty. The value claim: at the ideal values both programs compute, for each
  edge, the same row function of the same gathered rows — the kernel picks the row of the reduced global table by an
  indicator-weighted sum over its 16 rows, the reference by a gather, and these agree because the precondition puts
  every graph number in [0, 16) —, then the same scatter mean of those rows, then for each node the same row function of
  its row, its mean and its graph's row of the table.
-/
import proofs.«425427_j50422916055679_1_alg».proof.Defs
import proofs.«425427_j50422916055679_1_alg».proof.Proof.Gen.Kernel
import proofs.«425427_j50422916055679_1_alg».proof.Proof.Gen.Kernel.Frame
import proofs.«425427_j50422916055679_1_alg».proof.Proof.Gen.KernelIdeal
import proofs.«425427_j50422916055679_1_alg».proof.Proof.Gen.KernelIdeal.Frame
import proofs.«425427_j50422916055679_1_alg».proof.Proof.Gen.ReferenceIdeal
import proofs.«425427_j50422916055679_1_alg».proof.Proof.Gen.Pre_finite_inputs
import proofs.«425427_j50422916055679_1_alg».proof.Proof.KernelRun
import proofs.«425427_j50422916055679_1_alg».proof.Proof.RefRun
import proofs.«425427_j50422916055679_1_alg».proof.Proof.PreRange
import proofs.«425427_j50422916055679_1_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

/-- The word-level kernel program's frame: the generated frame certificate. -/
theorem frame_k [Cert.Kernel.Facts] [Cert.Pre_finite_inputs.Facts] : Cert.frame_Kernel :=
  fun m ρ _ => Cert.Kernel.Gen.frame m ρ

/-- The idealized kernel program's frame: the generated frame certificate. -/
theorem frame_ki [Cert.KernelIdeal.Facts] [Cert.Pre_finite_inputs.Facts] : Cert.frame_KernelIdeal :=
  fun m ρ _ => Cert.KernelIdeal.Gen.frame m ρ

/-- The reference's frame: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run m ρ)

/-- Both idealized programs end with the same result: the kernel program's result buffer is the reference's last stage
    function of the arguments, the graph numbers being in [0, 16) by the precondition. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W5 m ρ c (Proc.devRef .tc Cert.KernelIdeal.main_v77),
    Cert.KernelIdeal.RunValue.run (F := Ideal) m ρ, ?_⟩
  refine (θ_run Cert.ReferenceIdeal.defs _ _).mono (fun r h c => ⟨(h c).1.trans ?_, (h c).2⟩)
    (Cert.ReferenceIdeal.ValueP.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  exact (Cert.KernelIdeal.Bridge.result m ρ c
    (fun n => Cert.Pre_finite_inputs.Range.batch_range _ _ _ _ _ _ _ _ _ _ _ _ _ _ _ _ _ _ _ _ _ _ _ _ _ (hpre c) n)).symm

theorem claim : Cert.Claim := ⟨Cert.Kernel.Gen.facts, Cert.KernelIdeal.Gen.facts, Cert.ReferenceIdeal.Gen.facts, Cert.Pre_finite_inputs.Gen.facts,
  @frame_k Cert.Kernel.Gen.facts Cert.Pre_finite_inputs.Gen.facts,
  @frame_ki Cert.KernelIdeal.Gen.facts Cert.Pre_finite_inputs.Gen.facts,
  @frame_ri Cert.ReferenceIdeal.Gen.facts Cert.Pre_finite_inputs.Gen.facts,
  trivial,
  @algebraic Cert.KernelIdeal.Gen.facts Cert.ReferenceIdeal.Gen.facts Cert.Pre_finite_inputs.Gen.facts⟩

end Cert.Proof

end
